-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x6 : Shape := ⟨2, ![131072, 6]⟩
abbrev S1048576x42 : Shape := ⟨2, ![1048576, 42]⟩
abbrev S1048576 : Shape := ⟨1, ![1048576]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x6 : S_.BroadcastsInDim S131072x6 (![] : Fin 0 → Fin S131072x6.rank)
  reducesTo_S131072x6_S_d0_1 : S131072x6.ReducesTo [0, 1] S_
  bcast_S_S1048576x42 : S_.BroadcastsInDim S1048576x42 (![] : Fin 0 → Fin S1048576x42.rank)
  reducesTo_S1048576x42_S_d0_1 : S1048576x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x2x128x128 : S_.BroadcastsInDim S1x2x128x128 (![] : Fin 0 → Fin S1x2x128x128.rank)
  reducesTo_S1x2x128x128_S_d0_1_2_3 : S1x2x128x128.ReducesTo [0, 1, 2, 3] S_
  bcast_S_S1x2x128 : S_.BroadcastsInDim S1x2x128 (![] : Fin 0 → Fin S1x2x128.rank)
  reducesTo_S1x2x128_S_d0_1_2 : S1x2x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  bcast_S_S1048576 : S_.BroadcastsInDim S1048576 (![] : Fin 0 → Fin S1048576.rank)
  reducesTo_S1048576_S_d0 : S1048576.ReducesTo [0] S_

variable [Facts]

def fn_part5 {F : FTy → Type} [FloatOps F] (main_arg3 : IVec S1048576 32) (main_arg20 : FVec F S2x2x128 .f32) (main_v83 : IVec S_ 1) (main_v84 : FVec F S2x2x128x128 .f32) (main_cst_32 : FVec F S_ .f32) : IVec S_ 1 :=
  let main_v85 : FVec F S2x2x128x128 .f32 := broadcastInDim S2x2x128x128 ![] bcast_S_S2x2x128x128 main_cst_32
  let main_v86 : IVec S2x2x128x128 1 := cmpf .olt main_v84 main_v85
  let main_c_33 : IVec S_ 1 := constantI S_ 1 1#1
  let main_v87 : IVec S_ 1 := (fun x v => Host.reduce IntOp.andi x v reducesTo_S2x2x128x128_S_d0_1_2_3 h_S_) main_v86 main_c_33
  let main_v88 : IVec S_ 1 := andi main_v83 main_v87
  let main_v89 : FVec F S2x2x128 .f32 := Host.absf main_arg20
  let main_cst_34 : FVec F S_ .f32 := constant S_ .f32 0x7F800000#32
  let main_v90 : FVec F S2x2x128 .f32 := broadcastInDim S2x2x128 ![] bcast_S_S2x2x128 main_cst_34
  let main_v91 : IVec S2x2x128 1 := cmpf .olt main_v89 main_v90
  let main_c_35 : IVec S_ 1 := constantI S_ 1 1#1
  let main_v92 : IVec S_ 1 := (fun x v => Host.reduce IntOp.andi x v reducesTo_S2x2x128_S_d0_1_2 h_S_) main_v91 main_c_35
  let main_v93 : IVec S_ 1 := andi main_v88 main_v92
  let main_c_36 : IVec S_ 32 := constantI S_ 32 0#32
  let main_v94 : IVec S1048576 32 := broadcastInDim S1048576 ![] bcast_S_S1048576 main_c_36
  let main_v95 : IVec S1048576 1 := cmpi .sge main_arg3 main_v94
  let main_c_37 : IVec S_ 32 := constantI S_ 32 131072#32
  let main_v96 : IVec S1048576 32 := broadcastInDim S1048576 ![] bcast_S_S1048576 main_c_37
  let main_v97 : IVec S1048576 1 := cmpi .slt main_arg3 main_v96
  let main_v98 : IVec S1048576 1 := andi main_v95 main_v97
  let main_c_38 : IVec S_ 1 := constantI S_ 1 1#1
  let main_v99 : IVec S_ 1 := (fun x v => Host.reduce IntOp.andi x v reducesTo_S1048576_S_d0 h_S_) main_v98 main_c_38
  let main_v100 : IVec S_ 1 := andi main_v93 main_v99
  main_v100

def fn_part4 {F : FTy → Type} [FloatOps F] (main_arg3 : IVec S1048576 32) (main_arg16 : FVec F S1x2x128 .f32) (main_arg17 : FVec F S128x128 .f32) (main_arg18 : FVec F S128 .f32) (main_arg19 : FVec F S2x2x128x128 .f32) (main_arg20 : FVec F S2x2x128 .f32) (main_v63 : IVec S_ 1) (main_v67 : IVec S_ 1) : IVec S_ 1 :=
  let main_v68 : IVec S_ 1 := andi main_v63 main_v67
  let main_v69 : FVec F S1x2x128 .f32 := Host.absf main_arg16
  let main_cst_26 : FVec F S_ .f32 := constant S_ .f32 0x7F800000#32
  let main_v70 : FVec F S1x2x128 .f32 := broadcastInDim S1x2x128 ![] bcast_S_S1x2x128 main_cst_26
  let main_v71 : IVec S1x2x128 1 := cmpf .olt main_v69 main_v70
  let main_c_27 : IVec S_ 1 := constantI S_ 1 1#1
  let main_v72 : IVec S_ 1 := (fun x v => Host.reduce IntOp.andi x v reducesTo_S1x2x128_S_d0_1_2 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x2x128x128 .f32 := Host.absf main_arg19
  let main_cst_32 : FVec F S_ .f32 := constant S_ .f32 0x7F800000#32
  fn_part5 (F := F) main_arg3 main_arg20 main_v83 main_v84 main_cst_32

def fn_part3 {F : FTy → Type} [FloatOps F] (main_arg3 : IVec S1048576 32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S1x2x128x128 .f32 := Host.absf main_arg15
  let main_cst_24 : FVec F S_ .f32 := constant S_ .f32 0x7F800000#32
  let main_v65 : FVec F S1x2x128x128 .f32 := broadcastInDim S1x2x128x128 ![] bcast_S_S1x2x128x128 main_cst_24
  let main_v66 : IVec S1x2x128x128 1 := cmpf .olt main_v64 main_v65
  let main_c_25 : IVec S_ 1 := constantI S_ 1 1#1
  let main_v67 : IVec S_ 1 := (fun x v => Host.reduce IntOp.andi x v reducesTo_S1x2x128x128_S_d0_1_2_3 h_S_) main_v66 main_c_25
  fn_part4 (F := F) main_arg3 main_arg16 main_arg17 main_arg18 main_arg19 main_arg20 main_v63 main_v67

def fn_part2 {F : FTy → Type} [FloatOps F] (main_arg3 : IVec S1048576 32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg13 main_arg14 main_arg15 main_arg16 main_arg17 main_arg18 main_arg19 main_arg20 main_v48 main_v49 main_v50

def fn_part1 {F : FTy → Type} [FloatOps F] (main_arg3 : IVec S1048576 32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg7
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg8
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_v33

def fn {F : FTy → Type} [FloatOps F] (main_arg0 : FVec F S131072x128 .f32) (main_arg1 : FVec F S131072x6 .f32) (main_arg2 : FVec F S1048576x42 .f32) (main_arg3 : IVec S1048576 32) (main_arg4 : IVec S1048576 32) (main_arg5 : FVec F S6x8 .f32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x6 .f32 := Host.absf main_arg1
  let main_cst_0 : FVec F S_ .f32 := constant S_ .f32 0x7F800000#32
  let main_v5 : FVec F S131072x6 .f32 := broadcastInDim S131072x6 ![] bcast_S_S131072x6 main_cst_0
  let main_v6 : IVec S131072x6 1 := cmpf .olt main_v4 main_v5
  let main_c_1 : IVec S_ 1 := constantI S_ 1 1#1
  let main_v7 : IVec S_ 1 := (fun x v => Host.reduce IntOp.andi x v reducesTo_S131072x6_S_d0_1 h_S_) main_v6 main_c_1
  let main_v8 : IVec S_ 1 := andi main_v3 main_v7
  let main_v9 : FVec F S1048576x42 .f32 := Host.absf main_arg2
  let main_cst_2 : FVec F S_ .f32 := constant S_ .f32 0x7F800000#32
  let main_v10 : FVec F S1048576x42 .f32 := broadcastInDim S1048576x42 ![] bcast_S_S1048576x42 main_cst_2
  let main_v11 : IVec S1048576x42 1 := cmpf .olt main_v9 main_v10
  let main_c_3 : IVec S_ 1 := constantI S_ 1 1#1
  let main_v12 : IVec S_ 1 := (fun x v => Host.reduce IntOp.andi x v reducesTo_S1048576x42_S_d0_1 h_S_) main_v11 main_c_3
  let main_v13 : IVec S_ 1 := andi main_v8 main_v12
  let main_v14 : FVec F S6x8 .f32 := Host.absf main_arg5
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_v13 main_v16
-- ==== Kernel.lean ====
abbrev S131072x128 : Shape := ⟨2, ![131072, 128]⟩
abbrev S131072x6 : Shape := ⟨2, ![131072, 6]⟩
abbrev S1048576x42 : Shape := ⟨2, ![1048576, 42]⟩
abbrev S1048576 : Shape := ⟨1, ![1048576]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S6x128 : Shape := ⟨2, ![6, 128]⟩
abbrev S42x64 : Shape := ⟨2, ![42, 64]⟩
abbrev S131072x64 : Shape := ⟨2, ![131072, 64]⟩
abbrev S4096x128 : Shape := ⟨2, ![4096, 128]⟩
abbrev S4096x6 : Shape := ⟨2, ![4096, 6]⟩
abbrev S4096x64 : Shape := ⟨2, ![4096, 64]⟩
abbrev S1x128 : Shape := ⟨2, ![1, 128]⟩
abbrev S1048576x64 : Shape := ⟨2, ![1048576, 64]⟩
abbrev S8192x42 : Shape := ⟨2, ![8192, 42]⟩
abbrev S8192x64 : Shape := ⟨2, ![8192, 64]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S2x128x128 : Shape := ⟨3, ![2, 128, 128]⟩
abbrev S2x128 : Shape := ⟨2, ![2, 128]⟩
abbrev S1x128x128 : Shape := ⟨3, ![1, 128, 128]⟩

abbrev nBuf : Space → Nat
  | .hbm => 55
  | .vmem => 30
  | .smem => 0
  | _ => 0

abbrev bufTy : (tb : Table) → Fin (tcTables nBuf tb) → BufTy
  | .hbm, ⟨0, _⟩ => ⟨S131072x128, .f32⟩
  | .hbm, ⟨1, _⟩ => ⟨S131072x6, .f32⟩
  | .hbm, ⟨2, _⟩ => ⟨S1048576x42, .f32⟩
  | .hbm, ⟨3, _⟩ => ⟨S1048576, .i32⟩
  | .hbm, ⟨4, _⟩ => ⟨S1048576, .i32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64x128, .f32⟩
  | .hbm, ⟨15, _⟩ => ⟨S1x2x128x128, .f32⟩
  | .hbm, ⟨16, _⟩ => ⟨S1x2x128, .f32⟩
  | .hbm, ⟨17, _⟩ => ⟨S128x128, .f32⟩
  | .hbm, ⟨18, _⟩ => ⟨S128, .f32⟩
  | .hbm, ⟨19, _⟩ => ⟨S2x2x128x128, .f32⟩
  | .hbm, ⟨20, _⟩ => ⟨S2x2x128, .f32⟩
  | .hbm, ⟨21, _⟩ => ⟨S6x128, .f32⟩
  | .hbm, ⟨22, _⟩ => ⟨S42x64, .f32⟩
  | .hbm, ⟨23, _⟩ => ⟨S131072x64, .f32⟩
  | .hbm, ⟨24, _⟩ => ⟨S1048576x64, .bf16⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1, .i32⟩
  | .hbm, ⟨34, _⟩ => ⟨S_, .i32⟩
  | .hbm, ⟨35, _⟩ => ⟨S1048576x1, .i32⟩
  | .hbm, ⟨36, _⟩ => ⟨S1048576x1, .i1⟩
  | .hbm, ⟨37, _⟩ => ⟨S1x1, .i32⟩
  | .hbm, ⟨38, _⟩ => ⟨S1048576x1, .i32⟩
  | .hbm, ⟨39, _⟩ => ⟨S1048576x1, .i1⟩
  | .hbm, ⟨40, _⟩ => ⟨S1048576x1, .i1⟩
  | .hbm, ⟨41, _⟩ => ⟨S_, .i1⟩
  | .hbm, ⟨42, _⟩ => ⟨S1048576, .i1⟩
  | .hbm, ⟨43, _⟩ => ⟨S1048576x64, .f32⟩
  | .hbm, ⟨44, _⟩ => ⟨S1048576x64, .i1⟩
  | .hbm, ⟨45, _⟩ => ⟨S_, .f32⟩
  | .hbm, ⟨46, _⟩ => ⟨S1048576x64, .f32⟩
  | .hbm, ⟨47, _⟩ => ⟨S1048576x64, .f32⟩
  | .hbm, ⟨48, _⟩ => ⟨S1048576x64, .f32⟩
  | .hbm, ⟨49, _⟩ => ⟨S1048576x64, .f32⟩
  | .hbm, ⟨50, _⟩ => ⟨S_, .f32⟩
  | .hbm, ⟨51, _⟩ => ⟨S131072x64, .f32⟩
  | .hbm, ⟨52, _⟩ => ⟨S1048576x1, .i32⟩
  | .hbm, ⟨53, _⟩ => ⟨S131072x64, .f32⟩
  | .hbm, ⟨54, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x6, .f32⟩
  | .local _ .vmem, ⟨3, _⟩ => ⟨S4096x6, .f32⟩
  | .local _ .vmem, ⟨4, _⟩ => ⟨S6x128, .f32⟩
  | .local _ .vmem, ⟨5, _⟩ => ⟨S128x128, .f32⟩
  | .local _ .vmem, ⟨6, _⟩ => ⟨S128, .f32⟩
  | .local _ .vmem, ⟨7, _⟩ => ⟨S128x64, .f32⟩
  | .local _ .vmem, ⟨8, _⟩ => ⟨S4096x64, .f32⟩
  | .local _ .vmem, ⟨9, _⟩ => ⟨S4096x64, .f32⟩
  | .local _ .vmem, ⟨10, _⟩ => ⟨S8192x42, .f32⟩
  | .local _ .vmem, ⟨11, _⟩ => ⟨S8192x42, .f32⟩
  | .local _ .vmem, ⟨12, _⟩ => ⟨S42x64, .f32⟩
  | .local _ .vmem, ⟨13, _⟩ => ⟨S8192x64, .bf16⟩
  | .local _ .vmem, ⟨14, _⟩ => ⟨S8192x64, .bf16⟩
  | .local _ .vmem, ⟨15, _⟩ => ⟨S4096x64, .f32⟩
  | .local _ .vmem, ⟨16, _⟩ => ⟨S4096x64, .f32⟩
  | .local _ .vmem, ⟨17, _⟩ => ⟨S4096x128, .f32⟩
  | .local _ .vmem, ⟨18, _⟩ => ⟨S4096x128, .f32⟩
  | .local _ .vmem, ⟨19, _⟩ => ⟨S128x128, .f32⟩
  | .local _ .vmem, ⟨20, _⟩ => ⟨S128, .f32⟩
  | .local _ .vmem, ⟨21, _⟩ => ⟨S64x128, .f32⟩
  | .local _ .vmem, ⟨22, _⟩ => ⟨S1x2x128x128, .f32⟩
  | .local _ .vmem, ⟨23, _⟩ => ⟨S1x2x128, .f32⟩
  | .local _ .vmem, ⟨24, _⟩ => ⟨S128x128, .f32⟩
  | .local _ .vmem, ⟨25, _⟩ => ⟨S128, .f32⟩
  | .local _ .vmem, ⟨26, _⟩ => ⟨S2x2x128x128, .f32⟩
  | .local _ .vmem, ⟨27, _⟩ => ⟨S2x2x128, .f32⟩
  | .local _ .vmem, ⟨28, _⟩ => ⟨S4096x128, .f32⟩
  | .local _ .vmem, ⟨29, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem11_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2x2x128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2x2x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4096x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S4096x6_S4096x6_0_0 : ∀ a, (![0, 0] : Fin 2 → Nat) a + S4096x6.size a ≤ S4096x6.size a
  h_S4096x6 : 0 < S4096x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  inb_S8192x42_S8192x42_0_0 : ∀ a, (![0, 0] : Fin 2 → Nat) a + S8192x42.size a ≤ S8192x42.size a
  h_S8192x42 : 0 < S8192x42.numel
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S8192x64_S8192x64_0_0 : ∀ a, (![0, 0] : Fin 2 → Nat) a + S8192x64.size a ≤ S8192x64.size a
  h_S8192x64 : 0 < S8192x64.numel
  packedbf16_S8192x64_S8192x64_0_0 : (Rect.unit (s := S8192x64) ![0, 0] S8192x64.size inb_S8192x64_S8192x64_0_0).PackedRows (EltTy.packing .bf16)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x64_0 : S1048576.BroadcastsInDim S1048576x64 (![0] : Fin 1 → Fin S1048576x64.rank)
  bcast_S_S1048576x64 : S_.BroadcastsInDim S1048576x64 (![] : Fin 0 → Fin S1048576x64.rank)
  bcast_S_S131072x64 : S_.BroadcastsInDim S131072x64 (![] : Fin 0 → Fin S131072x64.rank)
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S1x2x128x128_S1x2x128x128_0_0_0_0 : ∀ a, (![0, 0, 0, 0] : Fin 4 → Nat) a + S1x2x128x128.size a ≤ S1x2x128x128.size a
  h_S1x2x128x128 : 0 < S1x2x128x128.numel
  inb_S1x2x128_S1x2x128_0_0_0 : ∀ a, (![0, 0, 0] : Fin 3 → Nat) a + S1x2x128.size a ≤ S1x2x128.size a
  h_S1x2x128 : 0 < S1x2x128.numel
  shapeCasts_S1x2x128x128_S2x128x128 : S1x2x128x128.ShapeCasts S2x128x128
  shapeCasts_S1x2x128_S2x128 : S1x2x128.ShapeCasts S2x128
  slices_S2x128x128_o0_0_0_S1x128x128 : S2x128x128.Slices ![0, 0, 0] S1x128x128
  shapeCasts_S1x128x128_S128x128 : S1x128x128.ShapeCasts S128x128
  slices_S2x128_o0_0_S1x128 : S2x128.Slices ![0, 0] S1x128
  shapeCasts_S1x128_S128 : S1x128.ShapeCasts S128
  slices_S2x128x128_o1_0_0_S1x128x128 : S2x128x128.Slices ![1, 0, 0] S1x128x128
  slices_S2x128_o1_0_S1x128 : S2x128.Slices ![1, 0] S1x128
  inb_S2x2x128x128_S2x2x128x128_0_0_0_0 : ∀ a, (![0, 0, 0, 0] : Fin 4 → Nat) a + S2x2x128x128.size a ≤ S2x2x128x128.size a
  h_S2x2x128x128 : 0 < S2x2x128x128.numel
  inb_S2x2x128_S2x2x128_0_0_0 : ∀ a, (![0, 0, 0] : Fin 3 → Nat) a + S2x2x128.size a ≤ S2x2x128.size a
  h_S2x2x128 : 0 < S2x2x128.numel
  slices_S2x2x128x128_o0_0_0_0_S1x2x128x128 : S2x2x128x128.Slices ![0, 0, 0, 0] S1x2x128x128
  slices_S2x2x128_o0_0_0_S1x2x128 : S2x2x128.Slices ![0, 0, 0] S1x2x128
  slices_S2x2x128x128_o1_0_0_0_S1x2x128x128 : S2x2x128x128.Slices ![1, 0, 0, 0] S1x2x128x128
  slices_S2x2x128_o1_0_0_S1x2x128 : S2x2x128.Slices ![1, 0, 0] S1x2x128
  dot_S6x8_S8x128_S6x128_1_0_0_1_n_n_wf : DotDims.WF S6x8 S8x128 S6x128 [1] [0] [0] [1] [] []
  dot_S42x8_S8x64_S42x64_1_0_0_1_n_n_wf : DotDims.WF S42x8 S8x64 S42x64 [1] [0] [0] [1] [] []
  dot_S4096x6_S6x128_S4096x128_1_0_0_1_n_n_wf : DotDims.WF S4096x6 S6x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S8192x42_S42x64_S8192x64_1_0_0_1_n_n_wf : DotDims.WF S8192x42 S42x64 S8192x64 [1] [0] [0] [1] [] []
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S131072x6.size a
  hwx0_1 : ∀ i : grid0.Coords, EltTy.bits .f32 = 32 ∨ (Rect.block (s := S131072x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S131072x64.size a
  hwx0_6 : ∀ i : grid0.Coords, EltTy.bits .f32 = 32 ∨ (Rect.block (s := S131072x64) S4096x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x42.size a ≤ S1048576x42.size a
  hwx1_0 : ∀ i : grid1.Coords, EltTy.bits .f32 = 32 ∨ (Rect.block (s := S1048576x42) S8192x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x64.size a ≤ S42x64.size a
  hwx1_1 : ∀ i : grid1.Coords, EltTy.bits .f32 = 32 ∨ (Rect.block (s := S42x64) S42x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1048576x64.size a
  hwx1_2 : ∀ i : grid1.Coords, EltTy.bits .bf16 = 32 ∨ (Rect.block (s := S1048576x64) S8192x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S131072x128.size a
  hwx2_1 : ∀ i : grid2.Coords, EltTy.bits .f32 = 32 ∨ (Rect.block (s := S131072x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2x128x128.size a ≤ S1x2x128x128.size a
  hwx2_5 : ∀ i : grid2.Coords, EltTy.bits .f32 = 32 ∨ (Rect.block (s := S1x2x128x128) S1x2x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2x128.size a ≤ S1x2x128.size a
  hwx2_6 : ∀ i : grid2.Coords, EltTy.bits .f32 = 32 ∨ (Rect.block (s := S1x2x128) S1x2x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S2x2x128x128.size a ≤ S2x2x128x128.size a
  hwx2_9 : ∀ i : grid2.Coords, EltTy.bits .f32 = 32 ∨ (Rect.block (s := S2x2x128x128) S2x2x128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S2x2x128.size a ≤ S2x2x128.size a
  hwx2_10 : ∀ i : grid2.Coords, EltTy.bits .f32 = 32 ∨ (Rect.block (s := S2x2x128) S2x2x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4096x128.size a ≤ S131072x128.size a
  hwx2_11 : ∀ i : grid2.Coords, EltTy.bits .f32 = 32 ∨ (Rect.block (s := S131072x128) S4096x128.size (cc2_transform_11 i) (hinb2_11 i)).WholeWords (EltTy.packing .f32)

variable [Facts₀]

def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S42x8_S8x64_S42x64_1_0_0_1_n_n : DotDims S42x8 S8x64 S42x64 where
  lhsContracting := [1]
  rhsContracting := [0]
  lhsNonContracting := [0]
  rhsNonContracting := [1]
  lhsBatch := []
  rhsBatch := []
  wf := dot_S42x8_S8x64_S42x64_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x42_S42x64_S8192x64_1_0_0_1_n_n : DotDims S8192x42 S42x64 S8192x64 where
  lhsContracting := [1]
  rhsContracting := [0]
  lhsNonContracting := [0]
  rhsNonContracting := [1]
  lhsBatch := []
  rhsBatch := []
  wf := dot_S8192x42_S42x64_S8192x64_1_0_0_1_n_n_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S8192x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S42x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S1x2x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S1x2x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S2x2x128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg20) S2x2x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v10) S4096x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S131072x128 : Shape := ⟨2, ![131072, 128]⟩
abbrev S131072x6 : Shape := ⟨2, ![131072, 6]⟩
abbrev S1048576x42 : Shape := ⟨2, ![1048576, 42]⟩
abbrev S1048576 : Shape := ⟨1, ![1048576]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S131072x8 : Shape := ⟨2, ![131072, 8]⟩
abbrev S1048576x8 : Shape := ⟨2, ![1048576, 8]⟩
abbrev S1048576x64 : Shape := ⟨2, ![1048576, 64]⟩
abbrev S1x128 : Shape := ⟨2, ![1, 128]⟩
abbrev S_ : Shape := ⟨0, ![]⟩
abbrev S131072x64 : Shape := ⟨2, ![131072, 64]⟩
abbrev S1048576x1 : Shape := ⟨2, ![1048576, 1]⟩
abbrev S2x128x128 : Shape := ⟨3, ![2, 128, 128]⟩
abbrev S2x128 : Shape := ⟨2, ![2, 128]⟩
abbrev S1x128x128 : Shape := ⟨3, ![1, 128, 128]⟩

abbrev nBuf : Space → Nat
  | .hbm => 150
  | .vmem => 0
  | .smem => 0
  | _ => 0

abbrev hbmTy0_0 (i : Nat) : BufTy := match i % 128 with
  | 0 => ⟨S131072x128, .f32⟩
  | 1 => ⟨S131072x6, .f32⟩
  | 2 => ⟨S1048576x42, .f32⟩
  | 3 => ⟨S1048576, .i32⟩
  | 4 => ⟨S1048576, .i32⟩
  | 5 => ⟨S6x8, .f32⟩
  | 6 => ⟨S8x128, .f32⟩
  | 7 => ⟨S42x8, .f32⟩
  | 8 => ⟨S8x64, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64x128, .f32⟩
  | 15 => ⟨S1x2x128x128, .f32⟩
  | 16 => ⟨S1x2x128, .f32⟩
  | 17 => ⟨S128x128, .f32⟩
  | 18 => ⟨S128, .f32⟩
  | 19 => ⟨S2x2x128x128, .f32⟩
  | 20 => ⟨S2x2x128, .f32⟩
  | 21 => ⟨S131072x8, .f32⟩
  | 22 => ⟨S131072x128, .f32⟩
  | 23 => ⟨S1048576x8, .f32⟩
  | 24 => ⟨S1048576x64, .f32⟩
  | 25 => ⟨S131072x128, .f32⟩
  | 26 => ⟨S1x128, .f32⟩
  | 27 => ⟨S131072x128, .f32⟩
  | 28 => ⟨S131072x128, .f32⟩
  | 29 => ⟨S_, .f32⟩
  | 30 => ⟨S131072x128, .f32⟩
  | 31 => ⟨S131072x128, .f32⟩
  | 32 => ⟨S131072x128, .f32⟩
  | 33 => ⟨S1x128, .f32⟩
  | 34 => ⟨S131072x128, .f32⟩
  | 35 => ⟨S131072x128, .f32⟩
  | 36 => ⟨S_, .f32⟩
  | 37 => ⟨S131072x128, .f32⟩
  | 38 => ⟨S131072x128, .f32⟩
  | 39 => ⟨S131072x128, .f32⟩
  | 40 => ⟨S131072x64, .f32⟩
  | 41 => ⟨S_, .f32⟩
  | 42 => ⟨S131072x64, .f32⟩
  | 43 => ⟨S131072x64, .f32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x64, .f32⟩
  | 53 => ⟨S1048576x64, .f32⟩
  | 54 => ⟨S_, .f32⟩
  | 55 => ⟨S131072x64, .f32⟩
  | 56 => ⟨S1048576x1, .i32⟩
  | 57 => ⟨S131072x64, .f32⟩
  | 58 => ⟨S131072x128, .f32⟩
  | 59 => ⟨S_, .f32⟩
  | 60 => ⟨S131072x128, .f32⟩
  | 61 => ⟨S131072x128, .f32⟩
  | 62 => ⟨S131072x128, .f32⟩
  | 63 => ⟨S2x128x128, .f32⟩
  | 64 => ⟨S2x128, .f32⟩
  | 65 => ⟨S1x128x128, .f32⟩
  | 66 => ⟨S128x128, .f32⟩
  | 67 => ⟨S131072x128, .f32⟩
  | 68 => ⟨S1x128, .f32⟩
  | 69 => ⟨S128, .f32⟩
  | 70 => ⟨S1x128, .f32⟩
  | 71 => ⟨S131072x128, .f32⟩
  | 72 => ⟨S131072x128, .f32⟩
  | 73 => ⟨S_, .f32⟩
  | 74 => ⟨S131072x128, .f32⟩
  | 75 => ⟨S131072x128, .f32⟩
  | 76 => ⟨S1x128x128, .f32⟩
  | 77 => ⟨S128x128, .f32⟩
  | 78 => ⟨S131072x128, .f32⟩
  | 79 => ⟨S1x128, .f32⟩
  | 80 => ⟨S128, .f32⟩
  | 81 => ⟨S1x128, .f32⟩
  | 82 => ⟨S131072x128, .f32⟩
  | 83 => ⟨S131072x128, .f32⟩
  | 84 => ⟨S_, .f32⟩
  | 85 => ⟨S131072x128, .f32⟩
  | 86 => ⟨S131072x128, .f32⟩
  | 87 => ⟨S131072x128, .f32⟩
  | 88 => ⟨S131072x128, .f32⟩
  | 89 => ⟨S1x128, .f32⟩
  | 90 => ⟨S131072x128, .f32⟩
  | 91 => ⟨S131072x128, .f32⟩
  | 92 => ⟨S_, .f32⟩
  | 93 => ⟨S131072x128, .f32⟩
  | 94 => ⟨S131072x128, .f32⟩
  | 95 => ⟨S131072x128, .f32⟩
  | 96 => ⟨S1x2x128x128, .f32⟩
  | 97 => ⟨S2x128x128, .f32⟩
  | 98 => ⟨S1x2x128, .f32⟩
  | 99 => ⟨S2x128, .f32⟩
  | 100 => ⟨S1x128x128, .f32⟩
  | 101 => ⟨S128x128, .f32⟩
  | 102 => ⟨S131072x128, .f32⟩
  | 103 => ⟨S1x128, .f32⟩
  | 104 => ⟨S128, .f32⟩
  | 105 => ⟨S1x128, .f32⟩
  | 106 => ⟨S131072x128, .f32⟩
  | 107 => ⟨S131072x128, .f32⟩
  | 108 => ⟨S_, .f32⟩
  | 109 => ⟨S131072x128, .f32⟩
  | 110 => ⟨S131072x128, .f32⟩
  | 111 => ⟨S1x128x128, .f32⟩
  | 112 => ⟨S128x128, .f32⟩
  | 113 => ⟨S131072x128, .f32⟩
  | 114 => ⟨S1x128, .f32⟩
  | 115 => ⟨S128, .f32⟩
  | 116 => ⟨S1x128, .f32⟩
  | 117 => ⟨S131072x128, .f32⟩
  | 118 => ⟨S131072x128, .f32⟩
  | 119 => ⟨S_, .f32⟩
  | 120 => ⟨S131072x128, .f32⟩
  | 121 => ⟨S131072x128, .f32⟩
  | 122 => ⟨S131072x128, .f32⟩
  | 123 => ⟨S1x2x128x128, .f32⟩
  | 124 => ⟨S2x128x128, .f32⟩
  | 125 => ⟨S1x2x128, .f32⟩
  | 126 => ⟨S2x128, .f32⟩
  | 127 => ⟨S1x128x128, .f32⟩
  | _ => ⟨S131072x128, .f32⟩

abbrev hbmTy0_1 (i : Nat) : BufTy := match i % 128 with
  | 0 => ⟨S128x128, .f32⟩
  | 1 => ⟨S131072x128, .f32⟩
  | 2 => ⟨S1x128, .f32⟩
  | 3 => ⟨S128, .f32⟩
  | 4 => ⟨S1x128, .f32⟩
  | 5 => ⟨S131072x128, .f32⟩
  | 6 => ⟨S131072x128, .f32⟩
  | 7 => ⟨S_, .f32⟩
  | 8 => ⟨S131072x128, .f32⟩
  | 9 => ⟨S131072x128, .f32⟩
  | 10 => ⟨S1x128x128, .f32⟩
  | 11 => ⟨S128x128, .f32⟩
  | 12 => ⟨S131072x128, .f32⟩
  | 13 => ⟨S1x128, .f32⟩
  | 14 => ⟨S128, .f32⟩
  | 15 => ⟨S1x128, .f32⟩
  | 16 => ⟨S131072x128, .f32⟩
  | 17 => ⟨S131072x128, .f32⟩
  | 18 => ⟨S_, .f32⟩
  | 19 => ⟨S131072x128, .f32⟩
  | 20 => ⟨S131072x128, .f32⟩
  | 21 => ⟨S131072x128, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_cst : Ref sig .tc := ⟨.hbm, 29, rfl⟩
abbrev main_call0_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call1_cst : Ref sig .tc := ⟨.hbm, 36, rfl⟩
abbrev main_call1_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call2_cst : Ref sig .tc := ⟨.hbm, 41, rfl⟩
abbrev main_call2_v0 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call3_cst : Ref sig .tc := ⟨.hbm, 59, rfl⟩
abbrev main_call3_v0 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call4_cst : Ref sig .tc := ⟨.hbm, 73, rfl⟩
abbrev main_call4_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call5_cst : Ref sig .tc := ⟨.hbm, 84, rfl⟩
abbrev main_call5_v0 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call6_cst : Ref sig .tc := ⟨.hbm, 92, rfl⟩
abbrev main_call6_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call7_cst : Ref sig .tc := ⟨.hbm, 108, rfl⟩
abbrev main_call7_v0 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call8_cst : Ref sig .tc := ⟨.hbm, 119, rfl⟩
abbrev main_call8_v0 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call9_cst : Ref sig .tc := ⟨.hbm, 135, rfl⟩
abbrev main_call9_v0 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call10_cst : Ref sig .tc := ⟨.hbm, 146, rfl⟩
abbrev main_call10_v0 : Ref sig .tc := ⟨.hbm, 147, rfl⟩
abbrev main_v102 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S_S131072x64 : S_.BroadcastsInDim S131072x64 (![] : Fin 0 → Fin S131072x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1x2x128x128_S2x128x128 : S1x2x128x128.ShapeCasts S2x128x128
  shapeCasts_S1x2x128_S2x128 : S1x2x128.ShapeCasts S2x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  slices_S2x2x128x128_S1x2x128x128_0_0_0_0 : S2x2x128x128.Slices ![0, 0, 0, 0] S1x2x128x128
  slices_S2x2x128_S1x2x128_0_0_0 : S2x2x128.Slices ![0, 0, 0] S1x2x128
  slices_S2x2x128x128_S1x2x128x128_1_0_0_0 : S2x2x128x128.Slices ![1, 0, 0, 0] S1x2x128x128
  slices_S2x2x128_S1x2x128_1_0_0 : S2x2x128.Slices ![1, 0, 0] S1x2x128
  dot_S131072x6_S6x8_S131072x8_1_0_0_1_n_n_wf : DotDims.WF S131072x6 S6x8 S131072x8 [1] [0] [0] [1] [] []
  dot_S131072x8_S8x128_S131072x128_1_0_0_1_n_n_wf : DotDims.WF S131072x8 S8x128 S131072x128 [1] [0] [0] [1] [] []
  dot_S1048576x42_S42x8_S1048576x8_1_0_0_1_n_n_wf : DotDims.WF S1048576x42 S42x8 S1048576x8 [1] [0] [0] [1] [] []
  dot_S1048576x8_S8x64_S1048576x64_1_0_0_1_n_n_wf : DotDims.WF S1048576x8 S8x64 S1048576x64 [1] [0] [0] [1] [] []
  dot_S131072x128_S128x128_S131072x128_1_0_0_1_n_n_wf : DotDims.WF S131072x128 S128x128 S131072x128 [1] [0] [0] [1] [] []
  dot_S131072x128_S128x64_S131072x64_1_0_0_1_n_n_wf : DotDims.WF S131072x128 S128x64 S131072x64 [1] [0] [0] [1] [] []
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S131072x64_S64x128_S131072x128_1_0_0_1_n_n_wf : DotDims.WF S131072x64 S64x128 S131072x128 [1] [0] [0] [1] [] []

variable [Facts₀]

def dot_S131072x6_S6x8_S131072x8_1_0_0_1_n_n : DotDims S131072x6 S6x8 S131072x8 where
  lhsContracting := [1]
  rhsContracting := [0]
  lhsNonContracting := [0]
  rhsNonContracting := [1]
  lhsBatch := []
  rhsBatch := []
  wf := dot_S131072x6_S6x8_S131072x8_1_0_0_1_n_n_wf
def dot_S131072x8_S8x128_S131072x128_1_0_0_1_n_n : DotDims S131072x8 S8x128 S131072x128 where
  lhsContracting := [1]
  rhsContracting := [0]
  lhsNonContracting := [0]
  rhsNonContracting := [1]
  lhsBatch := []
  rhsBatch := []
  wf := dot_S131072x8_S8x128_S131072x128_1_0_0_1_n_n_wf
def dot_S1048576x42_S42x8_S1048576x8_1_0_0_1_n_n : DotDims S1048576x42 S42x8 S1048576x8 where
  lhsContracting := [1]
  rhsContracting := [0]
  lhsNonContracting := [0]
  rhsNonContracting := [1]
  lhsBatch := []
  rhsBatch := []
  wf := dot_S1048576x42_S42x8_S1048576x8_1_0_0_1_n_n_wf
def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf

class Facts : Prop extends Facts₀ where

variable [Facts]
-- ==== Proof.Spec.lean ====
/-
  The mathematics both programs compute, stated once over plain extended reals, row by row.

  An edge's hidden row goes through dense layers: a row times a matrix (`mm`), plus a bias (`lin`), clipped below
  at zero (`relu`), and a residual block `res` adds to a row its image under two such layers. Edge `e`'s message
  row (`xkdRow`) is `relu ((relu (x_e · W_kj + b_kj) ⊙ t_e) · W_down)`, where `t_e` is the edge's radial basis row
  after its two bias-free linear maps. The triplet stage between the first two kernels and the last is a gather of
  message rows, a product with the triplets' basis rows and a sum into the target edges; it is shared text of the two
  programs and is not restated here. The output row (`hRow`) of edge `e` is, from its aggregated row `a_e` and its
  own row `x_e`:
      h₀ = relu (x_e · W_ji + b_ji) + relu (a_e · W_up),   h₁ = res h₀ (W_bs, b_bs),
      h₂ = relu (h₁ · W_lin + b_lin) + x_e,                 h₃ = res h₂ (W_as[0], b_as[0]),   h = res h₃ (W_as[1], b_as[1]).
  The only law the two programs differ by is the associativity of the matrix product: one applies the two basis
  maps to a row one after the other, the other multiplies the two maps first. On the extended reals that law needs
  every entry to be a real number (`mm_assoc`).
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals of rank one to four, over literal extents. -/
abbrev Arr1 (N : Nat) : Type := (⟨1, ![N]⟩ : Shape).Idx → EReal
abbrev Arr2 (R C : Nat) : Type := (⟨2, ![R, C]⟩ : Shape).Idx → EReal
abbrev Arr3 (A B C : Nat) : Type := (⟨3, ![A, B, C]⟩ : Shape).Idx → EReal
abbrev Arr4 (A B C D : Nat) : Type := (⟨4, ![A, B, C, D]⟩ : Shape).Idx → EReal

/-- Row `r` of a matrix. -/
def row {R C : Nat} (X : Arr2 R C) (r : Fin R) : Fin C → EReal := fun k => X (ix2 r k)
/-- A matrix as a function of its two coordinates. -/
def mat {K N : Nat} (W : Arr2 K N) : Fin K → Fin N → EReal := fun k q => W (ix2 k q)
/-- A vector as a function of its coordinate. -/
def vec {N : Nat} (b : Arr1 N) : Fin N → EReal := fun q => b (ix1 q)
/-- Matrix `(a, b)` of a rank-4 stack of matrices. -/
def mat4 {A B K N : Nat} (W : Arr4 A B K N) (a : Fin A) (b : Fin B) : Fin K → Fin N → EReal := fun k q => W (ix4 a b k q)
/-- Vector `(a, b)` of a rank-3 stack of vectors. -/
def vec3 {A B N : Nat} (W : Arr3 A B N) (a : Fin A) (b : Fin B) : Fin N → EReal := fun q => W (ix3 a b q)

/-- A row times a matrix. -/
def mm {K N : Nat} (v : Fin K → EReal) (W : Fin K → Fin N → EReal) : Fin N → EReal := fun q => ∑ k : Fin K, v k * W k q
/-- A dense layer: a row times a matrix, plus a bias. -/
def lin {K N : Nat} (v : Fin K → EReal) (W : Fin K → Fin N → EReal) (b : Fin N → EReal) : Fin N → EReal := fun q => mm v W q + b q
/-- Clipping below at zero. -/
def relu {N : Nat} (v : Fin N → EReal) : Fin N → EReal := fun q => max (v q) 0
/-- A residual block: the row plus its image under two clipped dense layers. -/
def res {N : Nat} (h : Fin N → EReal) (Wa Wb : Fin N → Fin N → EReal) (ba bb : Fin N → EReal) : Fin N → EReal :=
  fun q => h q + relu (lin (relu (lin h Wa ba)) Wb bb) q

/-- An edge's message row from its hidden row `x` and its transformed radial basis row `t`. -/
def xkdRow (x t : Fin 128 → EReal) (Wkj : Fin 128 → Fin 128 → EReal) (bkj : Fin 128 → EReal) (Wdown : Fin 128 → Fin 64 → EReal) :
    Fin 64 → EReal :=
  relu (mm (fun k => relu (lin x Wkj bkj) k * t k) Wdown)

/-- The first half of an edge's output row, up to the skip connection: h₂ from the aggregated row `a` and the hidden row `x`. -/
def hMidRow (a : Fin 64 → EReal) (x : Fin 128 → EReal) (Wji : Fin 128 → Fin 128 → EReal) (bji : Fin 128 → EReal)
    (Wup : Fin 64 → Fin 128 → EReal) (Wbs : Arr4 1 2 128 128) (bbs : Arr3 1 2 128) (Wlin : Fin 128 → Fin 128 → EReal)
    (blin : Fin 128 → EReal) : Fin 128 → EReal :=
  fun q => relu (lin (res (fun q => relu (lin x Wji bji) q + relu (mm a Wup) q)
        (mat4 Wbs 0 0) (mat4 Wbs 0 1) (vec3 bbs 0 0) (vec3 bbs 0 1)) Wlin blin) q + x q

/-- The second half: the two residual blocks after the skip connection. -/
def tailRow (h : Fin 128 → EReal) (Was : Arr4 2 2 128 128) (bas : Arr3 2 2 128) : Fin 128 → EReal :=
  res (res h (mat4 Was 0 0) (mat4 Was 0 1) (vec3 bas 0 0) (vec3 bas 0 1))
    (mat4 Was 1 0) (mat4 Was 1 1) (vec3 bas 1 0) (vec3 bas 1 1)

/-- An edge's output row from its aggregated row `a` and its hidden row `x`. -/
def hRow (a : Fin 64 → EReal) (x : Fin 128 → EReal) (Wji : Fin 128 → Fin 128 → EReal) (bji : Fin 128 → EReal)
    (Wup : Fin 64 → Fin 128 → EReal) (Wbs : Arr4 1 2 128 128) (bbs : Arr3 1 2 128) (Wlin : Fin 128 → Fin 128 → EReal)
    (blin : Fin 128 → EReal) (Was : Arr4 2 2 128 128) (bas : Arr3 2 2 128) : Fin 128 → EReal :=
  tailRow (hMidRow a x Wji bji Wup Wbs bbs Wlin blin) Was bas

/-- The product of two matrices, as an array. -/
def mmArr {R K N : Nat} (X : Arr2 R K) (W : Arr2 K N) : Arr2 R N := fun i => mm (row X (i 0)) (mat W) (i 1)

/-- Every edge's message row, as an array, from the hidden rows and the transformed radial basis rows. -/
def xkdArr (x t : Arr2 131072 128) (Wkj : Arr2 128 128) (bkj : Arr1 128) (Wdown : Arr2 128 64) : Arr2 131072 64 :=
  fun i => xkdRow (row x (i 0)) (row t (i 0)) (mat Wkj) (vec bkj) (mat Wdown) (i 1)

/-- Every edge's output row, as an array, from the aggregated rows and the hidden rows. -/
def hArr (agg : Arr2 131072 64) (x : Arr2 131072 128) (Wji : Arr2 128 128) (bji : Arr1 128) (Wup : Arr2 64 128)
    (Wbs : Arr4 1 2 128 128) (bbs : Arr3 1 2 128) (Wlin : Arr2 128 128) (blin : Arr1 128) (Was : Arr4 2 2 128 128)
    (bas : Arr3 2 2 128) : Arr2 131072 128 :=
  fun i => hRow (row agg (i 0)) (row x (i 0)) (mat Wji) (vec bji) (mat Wup) Wbs bbs (mat Wlin) (vec blin) Was bas (i 1)

/-- The first half of every edge's output row, as an array. -/
def hMidArr (agg : Arr2 131072 64) (x : Arr2 131072 128) (Wji : Arr2 128 128) (bji : Arr1 128) (Wup : Arr2 64 128)
    (Wbs : Arr4 1 2 128 128) (bbs : Arr3 1 2 128) (Wlin : Arr2 128 128) (blin : Arr1 128) : Arr2 131072 128 :=
  fun i => hMidRow (row agg (i 0)) (row x (i 0)) (mat Wji) (vec bji) (mat Wup) Wbs bbs (mat Wlin) (vec blin) (i 1)

/-- The second half of every edge's output row, as an array, from the first half. -/
def tailArr (h : Arr2 131072 128) (Was : Arr4 2 2 128 128) (bas : Arr3 2 2 128) : Arr2 131072 128 :=
  fun i => tailRow (row h (i 0)) Was bas (i 1)

/-- The output array is the second half applied to the first. -/
theorem hArr_eq (agg : Arr2 131072 64) (x : Arr2 131072 128) (Wji : Arr2 128 128) (bji : Arr1 128) (Wup : Arr2 64 128)
    (Wbs : Arr4 1 2 128 128) (bbs : Arr3 1 2 128) (Wlin : Arr2 128 128) (blin : Arr1 128) (Was : Arr4 2 2 128 128)
    (bas : Arr3 2 2 128) :
    hArr agg x Wji bji Wup Wbs bbs Wlin blin Was bas = tailArr (hMidArr agg x Wji bji Wup Wbs bbs Wlin blin) Was bas := by
  funext i
  obtain ⟨p, q, rfl⟩ : ∃ (p : Fin 131072) (q : Fin 128), i = ix2 p q := ⟨i 0, i 1, eq_ix2 i⟩
  rfl

/-- An array all of whose entries are real numbers. -/
def Finite {s : Shape} (X : s.Idx → EReal) : Prop := ∀ i, ∃ r : ℝ, X i = (r : EReal)

/-- A finite sum of reals, coerced, is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the matrix product on real entries: a row through two maps one after the other is the row
    through the product of the maps. -/
theorem mm_assoc {A B C : Nat} (v : Fin A → EReal) (W1 : Fin A → Fin B → EReal) (W2 : Fin B → Fin C → EReal)
    (hv : ∀ a, ∃ r : ℝ, v a = (r : EReal)) (h1 : ∀ a b, ∃ r : ℝ, W1 a b = (r : EReal)) (h2 : ∀ b c, ∃ r : ℝ, W2 b c = (r : EReal)) :
    mm (mm v W1) W2 = mm v (fun a c => ∑ b : Fin B, W1 a b * W2 b c) := by
  choose rv hrv using hv
  choose r1 hr1 using h1
  choose r2 hr2 using h2
  funext c
  simp only [mm, hrv, hr1, hr2, ← EReal.coe_mul, ← coe_sum]
  refine congrArg _ ?_
  simp only [Finset.sum_mul, Finset.mul_sum]
  rw [Finset.sum_comm]
  refine Finset.sum_congr rfl fun a _ => Finset.sum_congr rfl fun b _ => ?_
  ring

/-- The same for whole arrays. -/
theorem mmArr_assoc {R A B C : Nat} (X : Arr2 R A) (W1 : Arr2 A B) (W2 : Arr2 B C)
    (hX : Finite X) (h1 : Finite W1) (h2 : Finite W2) : mmArr (mmArr X W1) W2 = mmArr X (mmArr W1 W2) := by
  funext i
  obtain ⟨p, q, rfl⟩ : ∃ (p : Fin R) (q : Fin C), i = ix2 p q := ⟨i 0, i 1, eq_ix2 i⟩
  show mm (mm (row X p) (mat W1)) (mat W2) q = mm (row X p) (mat (mmArr W1 W2)) q
  rw [mm_assoc (row X p) (mat W1) (mat W2) (fun a => hX _) (fun a b => h1 _) (fun b c => h2 _)]
  rfl

end Cert.Spec

end
-- ==== Proof.KernelMid.lean ====
/- The triplet stage of the kernel's program between its second and third kernels, as one function of the message
   array, the basis array and the two index arrays: the index array with negative entries wrapped (`normIdx`), the
   in-range mask of the wrapped indices (`takeMask`), the gathered rows with the fill value where the mask is clear
   (`takeK`), their product with the basis rows summed into the target edges (`midK`). Where every index lies in
   [0, 131072) the mask is set everywhere and the fill value is never taken (`takeK_eq`). -/
import proofs.«431230_j19146964206349_3_alg».proof.KernelIdeal
import proofs.«431230_j19146964206349_3_alg».proof.Proof.Gen.KernelIdeal
import proofs.«431230_j19146964206349_3_alg».proof.Proof.Spec
import Idealize.ShloMosaic.Lib.ReduceAll
import Idealize.ShloMosaic.Lib.ValueIdx
import Idealize.ShloMosaic.Lib.Pipeline.Value
import Idealize.ShloMosaic.Lib.StableHlo.Predicate

set_option maxRecDepth 16384

noncomputable section

open Idealize.ShloMosaic Idealize.ShloMosaic.TcCoe Idealize.SL.Sem

namespace Cert.KernelIdeal.Hand

open Cert.KernelIdeal Cert.KernelIdeal.Gen Idealize.ShloMosaic.ValueIdx

/-- A left fold by `and` from the one bit over a list all of whose bits are the one bit is the one bit. -/
theorem foldl_andi_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a (List.mem_cons_self ..)]
    exact foldl_andi_one f l fun n hn => hl n (List.mem_cons_of_mem _ hn)

/-- A reduction by `and` from the one bit of an array of one bits is the one bit at every result index. -/
theorem reduce_andi_of_all {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, x i = 1#1) : Host.reduce IntOp.andi x init hr hu j = 1#1 := by
  rw [Host.reduce_eq_foldl, hinit]
  exact foldl_andi_one x _ fun i _ => hx i

/-- A word that reads nonnegative does not test below zero. -/
theorem slt_zero_of_nonneg (x : BitVec 32) (h0 : 0 ≤ x.toInt) : IntOp.cmpi .slt x 0#32 = 0#1 := by
  refine eq_zero_of_ne_one fun e => ?_
  have hz : (0#32 : BitVec 32).toInt = 0 := by decide
  have := IntOp.cmpi_slt.1 e
  omega

/-- A word that reads nonnegative tests at least zero. -/
theorem sge_zero_of_nonneg (x : BitVec 32) (h0 : 0 ≤ x.toInt) : IntOp.cmpi .sge x 0#32 = 1#1 := by
  have hz : (0#32 : BitVec 32).toInt = 0 := by decide
  exact IntOp.cmpi_sge.2 (by omega)

/-- A word that reads below 131072 tests at most 131071. -/
theorem sle_top_of_lt (x : BitVec 32) (h1 : x.toInt < 131072) : IntOp.cmpi .sle x 131071#32 = 1#1 := by
  have hz : (131071#32 : BitVec 32).toInt = 131071 := by decide
  exact IntOp.cmpi_sle.2 (by omega)

/-- The gather's index column: a negative index has the table's length added. -/
def normIdx (ikj : IVec S1048576 32) : IVec S1048576x1 32 :=
  broadcastInDim S1048576x1 ![0] bcast_S1048576_S1048576x1_0
    (select (cmpi .slt ikj (broadcastInDim S1048576 ![] bcast_S_S1048576 (constantI S_ 32 0#32)))
      (addi ikj (broadcastInDim S1048576 ![] bcast_S_S1048576 (constantI S_ 32 131072#32))) ikj)

/-- The mask of the triplets whose wrapped index lies in [0, 131071], laid along the 64 columns. -/
def takeMask (ikj : IVec S1048576 32) : IVec S1048576x64 1 :=
  broadcastInDim S1048576x64 ![0] bcast_S1048576_S1048576x64_0
    (Host.reduce IntOp.andi
      (andi (cmpi .sge (normIdx ikj) (broadcastInDim S1048576x1 ![] bcast_S_S1048576x1 (constantI S_ 32 0#32)))
        (cmpi .sle (normIdx ikj) (broadcastInDim S1048576x1 ![0, 1] bcast_S1x1_S1048576x1_0_1
          (broadcastInDim S1x1 ![1] bcast_S1_S1x1_1 (constantI S1 32 131071#32)))))
      (constantI S_ 1 1#1) reducesTo_S1048576x1_S1048576_d1 h_S_)

/-- The gathered message rows, with the fill value where the mask is clear. -/
def takeK (xkd : FVec Ideal S131072x64 .f32) (ikj : IVec S1048576 32) : FVec Ideal S1048576x64 .f32 :=
  select (takeMask ikj) (Host.gather gather_S131072x64_S1048576x1_S1048576x64_1_0_n_n_0_1_164 xkd (normIdx ikj))
    (broadcastInDim S1048576x64 ![] bcast_S_S1048576x64 (constant S_ .f32 0x7FC00000#32))

/-- The aggregated array: the gathered rows times the basis rows, summed into the target edges. -/
def midK (xkd : FVec Ideal S131072x64 .f32) (sbft : FVec Ideal S1048576x64 .bf16) (ikj iji : IVec S1048576 32) :
    FVec Ideal S131072x64 .f32 :=
  Host.scatterAdd scatter_S131072x64_S1048576x1_S1048576x64_1_0_0_1
    (broadcastInDim S131072x64 ![] bcast_S_S131072x64 (constant S_ .f32 0x00000000#32))
    (broadcastInDim S1048576x1 ![0] bcast_S1048576_S1048576x1_0 iji)
    (mulf (takeK xkd ikj) (extf .f32 sbft bitsLt_bf16_f32))

/-- The wrapped index column at row `t` is the index itself where it reads nonnegative: nothing is added. -/
theorem normIdx_apply (ikj : IVec S1048576 32) (t : Fin 1048576) (q : Fin 1) (h0 : 0 ≤ (ikj (ix1 t)).toInt) :
    normIdx ikj (ix2 t q) = ikj (ix1 t) := by
  unfold normIdx
  rw [broadcastInDim_apply ![0] _ _ (ix2 t q) (ix1 t) (fun a => by match a with | ⟨0, _⟩ => rfl)]
  show Scalar.select (IntOp.cmpi .slt (ikj (ix1 t)) 0#32) _ (ikj (ix1 t)) = ikj (ix1 t)
  rw [slt_zero_of_nonneg _ h0]
  exact select_zero _ _

/-- Where every index lies in [0, 131072) the mask is set at every entry. -/
theorem takeMask_apply (ikj : IVec S1048576 32)
    (h : ∀ t : Fin 1048576, 0 ≤ (ikj (ix1 t)).toInt ∧ (ikj (ix1 t)).toInt < 131072) (t : Fin 1048576) (j : Fin 64) :
    takeMask ikj (ix2 t j) = 1#1 := by
  unfold takeMask
  rw [broadcastInDim_apply ![0] _ _ (ix2 t j) (ix1 t) (fun a => by match a with | ⟨0, _⟩ => rfl)]
  refine reduce_andi_of_all _ _ _ _ _ rfl fun i => ?_
  obtain ⟨p, q, rfl⟩ : ∃ (p : Fin 1048576) (q : Fin 1), i = ix2 p q := ⟨i 0, i 1, eq_ix2 i⟩
  show IntOp.andi (IntOp.cmpi .sge (normIdx ikj (ix2 p q)) 0#32) (IntOp.cmpi .sle (normIdx ikj (ix2 p q)) 131071#32) = 1#1
  rw [normIdx_apply ikj p q (h p).1]
  exact IntOp.andi_eq_one.2 ⟨sge_zero_of_nonneg _ (h p).1, sle_top_of_lt _ (h p).2⟩

/-- Where every index lies in [0, 131072) the gather's fill value is never taken. -/
theorem takeK_eq (xkd : FVec Ideal S131072x64 .f32) (ikj : IVec S1048576 32)
    (h : ∀ t : Fin 1048576, 0 ≤ (ikj (ix1 t)).toInt ∧ (ikj (ix1 t)).toInt < 131072) :
    takeK xkd ikj = Host.gather gather_S131072x64_S1048576x1_S1048576x64_1_0_n_n_0_1_164 xkd (normIdx ikj) := by
  funext i
  obtain ⟨t, j, rfl⟩ : ∃ (t : Fin 1048576) (j : Fin 64), i = ix2 t j := ⟨i 0, i 1, eq_ix2 i⟩
  unfold takeK
  rw [select_apply, takeMask_apply ikj h t j]
  exact select_one _ _

end Cert.KernelIdeal.Hand

end
-- ==== Proof.KernelHost.lean ====
/- The buffer contents at the boundaries of the kernel program's segments, read back to the launch memory: the two
   folded basis matrices after the first host stretch, the arrays the first two kernels leave, the aggregated array
   after the triplet stage (`Hand.midK` of those arrays and the two index arrays), and the argument arrays as the last
   kernel finds them. -/
import proofs.«431230_j19146964206349_3_alg».proof.Proof.Gen.KernelIdeal.Frame
import proofs.«431230_j19146964206349_3_alg».proof.Proof.KernelMid
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-! ## After the first host stretch: the two folded basis matrices; the arguments untouched -/

theorem W1_v0 (c : Dev nD) : W1 m ρ c (Proc.devRef .tc main_v0)
    = Host.dotGeneral (F := Ideal) (φ₁ := .f32) (φ₂ := .f32) dot_S6x8_S8x128_S6x128_1_0_0_1_n_n none (m ((c : Thread nD τ).loc main_arg5)) (m ((c : Thread nD τ).loc main_arg6)) := by
  show StableHlo.after hostOps0 (W0 m ρ c) (Proc.devRef .tc main_v0) = _
  after_results
theorem W1_v1 (c : Dev nD) : W1 m ρ c (Proc.devRef .tc main_v1)
    = Host.dotGeneral (F := Ideal) (φ₁ := .f32) (φ₂ := .f32) dot_S42x8_S8x64_S42x64_1_0_0_1_n_n none (m ((c : Thread nD τ).loc main_arg7)) (m ((c : Thread nD τ).loc main_arg8)) := by
  show StableHlo.after hostOps0 (W0 m ρ c) (Proc.devRef .tc main_v1) = _
  after_results
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg13 (c : Dev nD) : W1 m ρ c (Proc.devRef .tc main_arg13) = m ((c : Thread nD τ).loc main_arg13) := by
  show StableHlo.after hostOps0 (W0 m ρ c) (Proc.devRef .tc main_arg13) = _
  after_results

/-! ## After the first two kernels -/

theorem W2_v2 (c : Dev nD) : W2 m ρ c (Proc.devRef .tc main_v2) = (dat0 (V1 m ρ) c).arrAt 6 cfg0.N := W2_arr m ρ c 6
theorem W3_v3 (c : Dev nD) : W3 m ρ c (Proc.devRef .tc main_v3) = (dat1 (V2 m ρ) c).arrAt 2 cfg1.N := W3_arr m ρ c 2
theorem W3_v2 (c : Dev nD) : W3 m ρ c (Proc.devRef .tc main_v2) = (dat0 (V1 m ρ) c).arrAt 6 cfg0.N :=
  (W3_of_ne m ρ c main_v2 (by decide)).trans (W2_v2 m ρ c)
theorem W2_v1 (c : Dev nD) : W2 m ρ c (Proc.devRef .tc main_v1)
    = Host.dotGeneral (F := Ideal) (φ₁ := .f32) (φ₂ := .f32) dot_S42x8_S8x64_S42x64_1_0_0_1_n_n none (m ((c : Thread nD τ).loc main_arg7)) (m ((c : Thread nD τ).loc main_arg8)) :=
  (W2_of_ne m ρ c main_v1 (by decide)).trans (W1_v1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W3_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg3 m ρ c))
theorem W3_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_arg4 m ρ c))

/-! ## After the triplet stage: the aggregated array -/

/-- A typed reference's two casts, one after the other, are the identity. -/
theorem ofBuf_toBuf {T : BufTy} (x : TRef sig T) (v : T.Contents (Elt Ideal)) : x.ofBuf (x.toBuf v) = v := by
  simp [TRef.ofBuf, TRef.toBuf]

/-- A literal reference's cast from the buffer's own type is the identity. -/
theorem ofBuf_lit {T : BufTy} (r : Ref sig .tc) (h1 : r.ty = T) (h2 h3) (v : r.ty.Contents (Elt Ideal)) :
    HEq ((TRef.of r h1 h2 h3 : TRef sig T).ofBuf v) v := by
  subst h1; rfl

/-- A literal reference's cast to the buffer's own type is the identity. -/
theorem toBuf_lit {T : BufTy} (r : Ref sig .tc) (h1 : r.ty = T) (h2 h3) (v : T.Contents (Elt Ideal)) :
    HEq ((TRef.of r h1 h2 h3 : TRef sig T).toBuf v) v := by
  subst h1; rfl

set_option maxHeartbeats 2000000 in
/-- The two host stretches of the triplet stage, from ANY contents `W` at their start: the aggregated array is
    `midK` of the message array, the basis array and the two index arrays as `W` holds them. -/
theorem mid_fold (W : Valuation τ sig (Elt Ideal)) :
    StableHlo.after hostOps2_1 (StableHlo.after hostOps2 W) (Proc.devRef .tc main_v9)
      = midK (W (Proc.devRef .tc main_v2)) (W (Proc.devRef .tc main_v3)) (W (Proc.devRef .tc main_arg3)) (W (Proc.devRef .tc main_arg4)) := by
  after_results_simp
  simp only [ofBuf_toBuf]
  have e3 : ∀ h1 h2 h3, (TRef.of main_arg3 h1 h2 h3 : TRef sig ⟨S1048576, .i32⟩).ofBuf (W (Proc.devRef .tc main_arg3)) = W (Proc.devRef .tc main_arg3) :=
    fun h1 h2 h3 => eq_of_heq (ofBuf_lit main_arg3 h1 h2 h3 _)
  have e2 : ∀ h1 h2 h3, (TRef.of main_v2 h1 h2 h3 : TRef sig ⟨S131072x64, .f32⟩).ofBuf (W (Proc.devRef .tc main_v2)) = W (Proc.devRef .tc main_v2) :=
    fun h1 h2 h3 => eq_of_heq (ofBuf_lit main_v2 h1 h2 h3 _)
  have e4 : ∀ h1 h2 h3 (v : (⟨S1048576x64, .f32⟩ : BufTy).Contents (Elt Ideal)), (TRef.of main_v4 h1 h2 h3 : TRef sig ⟨S1048576x64, .f32⟩).toBuf v = v :=
    fun h1 h2 h3 v => eq_of_heq (toBuf_lit main_v4 h1 h2 h3 v)
  simp only [e3, e2, e4]
  rfl

/-- The aggregated array as the last kernel finds it: `midK` of what the first two kernels leave and of the two
    index arguments. -/
theorem V5_v9 (c : Dev nD) : V5 m ρ c main_v9
    = midK ((dat0 (V1 m ρ) c).arrAt 6 cfg0.N) ((dat1 (V2 m ρ) c).arrAt 2 cfg1.N)
        (m ((c : Thread nD τ).loc main_arg3)) (m ((c : Thread nD τ).loc main_arg4)) := by
  show StableHlo.after hostOps2_1 (StableHlo.after hostOps2 (W3 m ρ c)) (Proc.devRef .tc main_v9) = _
  rw [mid_fold (W3 m ρ c), W3_v2, W3_v3, W3_arg3, W3_arg4]

/-! ## The arrays the first two kernels find -/

theorem V1_v0 (c : Dev nD) : V1 m ρ c main_v0
    = Host.dotGeneral (F := Ideal) (φ₁ := .f32) (φ₂ := .f32) dot_S6x8_S8x128_S6x128_1_0_0_1_n_n none (m ((c : Thread nD τ).loc main_arg5)) (m ((c : Thread nD τ).loc main_arg6)) := W1_v0 m ρ c
theorem V1_arg0 (c : Dev nD) : V1 m ρ c main_arg0 = m ((c : Thread nD τ).loc main_arg0) := W1_arg0 m ρ c
theorem V1_arg1 (c : Dev nD) : V1 m ρ c main_arg1 = m ((c : Thread nD τ).loc main_arg1) := W1_arg1 m ρ c
theorem V1_arg9 (c : Dev nD) : V1 m ρ c main_arg9 = m ((c : Thread nD τ).loc main_arg9) := W1_arg9 m ρ c
theorem V1_arg10 (c : Dev nD) : V1 m ρ c main_arg10 = m ((c : Thread nD τ).loc main_arg10) := W1_arg10 m ρ c
theorem V1_arg13 (c : Dev nD) : V1 m ρ c main_arg13 = m ((c : Thread nD τ).loc main_arg13) := W1_arg13 m ρ c
theorem V2_v1 (c : Dev nD) : V2 m ρ c main_v1
    = Host.dotGeneral (F := Ideal) (φ₁ := .f32) (φ₂ := .f32) dot_S42x8_S8x64_S42x64_1_0_0_1_n_n none (m ((c : Thread nD τ).loc main_arg7)) (m ((c : Thread nD τ).loc main_arg8)) := W2_v1 m ρ c
theorem V2_arg2 (c : Dev nD) : V2 m ρ c main_arg2 = m ((c : Thread nD τ).loc main_arg2) := W2_arg2 m ρ c

/-! ## The argument arrays as the last kernel finds them -/

theorem V5_main_arg0 (c : Dev nD) : V5 m ρ c main_arg0 = m ((c : Thread nD τ).loc main_arg0) :=
  ((W6_arr m ρ c 1).trans (((dat2 (V5 m ρ) c).arrAt_in 1 rfl _).trans (A_eq2 (V5 m ρ) c 1))).symm.trans (W6_main_arg0 m ρ c)
theorem V5_main_arg11 (c : Dev nD) : V5 m ρ c main_arg11 = m ((c : Thread nD τ).loc main_arg11) :=
  ((W6_arr m ρ c 2).trans (((dat2 (V5 m ρ) c).arrAt_in 2 rfl _).trans (A_eq2 (V5 m ρ) c 2))).symm.trans (W6_main_arg11 m ρ c)
theorem V5_main_arg12 (c : Dev nD) : V5 m ρ c main_arg12 = m ((c : Thread nD τ).loc main_arg12) :=
  ((W6_arr m ρ c 3).trans (((dat2 (V5 m ρ) c).arrAt_in 3 rfl _).trans (A_eq2 (V5 m ρ) c 3))).symm.trans (W6_main_arg12 m ρ c)
theorem V5_main_arg14 (c : Dev nD) : V5 m ρ c main_arg14 = m ((c : Thread nD τ).loc main_arg14) :=
  ((W6_arr m ρ c 4).trans (((dat2 (V5 m ρ) c).arrAt_in 4 rfl _).trans (A_eq2 (V5 m ρ) c 4))).symm.trans (W6_main_arg14 m ρ c)
theorem V5_main_arg15 (c : Dev nD) : V5 m ρ c main_arg15 = m ((c : Thread nD τ).loc main_arg15) :=
  ((W6_arr m ρ c 5).trans (((dat2 (V5 m ρ) c).arrAt_in 5 rfl _).trans (A_eq2 (V5 m ρ) c 5))).symm.trans (W6_main_arg15 m ρ c)
theorem V5_main_arg16 (c : Dev nD) : V5 m ρ c main_arg16 = m ((c : Thread nD τ).loc main_arg16) :=
  ((W6_arr m ρ c 6).trans (((dat2 (V5 m ρ) c).arrAt_in 6 rfl _).trans (A_eq2 (V5 m ρ) c 6))).symm.trans (W6_main_arg16 m ρ c)
theorem V5_main_arg17 (c : Dev nD) : V5 m ρ c main_arg17 = m ((c : Thread nD τ).loc main_arg17) :=
  ((W6_arr m ρ c 7).trans (((dat2 (V5 m ρ) c).arrAt_in 7 rfl _).trans (A_eq2 (V5 m ρ) c 7))).symm.trans (W6_main_arg17 m ρ c)
theorem V5_main_arg18 (c : Dev nD) : V5 m ρ c main_arg18 = m ((c : Thread nD τ).loc main_arg18) :=
  ((W6_arr m ρ c 8).trans (((dat2 (V5 m ρ) c).arrAt_in 8 rfl _).trans (A_eq2 (V5 m ρ) c 8))).symm.trans (W6_main_arg18 m ρ c)
theorem V5_main_arg19 (c : Dev nD) : V5 m ρ c main_arg19 = m ((c : Thread nD τ).loc main_arg19) :=
  ((W6_arr m ρ c 9).trans (((dat2 (V5 m ρ) c).arrAt_in 9 rfl _).trans (A_eq2 (V5 m ρ) c 9))).symm.trans (W6_main_arg19 m ρ c)
theorem V5_main_arg20 (c : Dev nD) : V5 m ρ c main_arg20 = m ((c : Thread nD τ).loc main_arg20) :=
  ((W6_arr m ρ c 10).trans (((dat2 (V5 m ρ) c).arrAt_in 10 rfl _).trans (A_eq2 (V5 m ρ) c 10))).symm.trans (W6_main_arg20 m ρ c)

end Cert.KernelIdeal.Hand

end
-- ==== Proof.Region0.lean ====
/- Region 0 (the edge MLP): after its 32 grid points the message array holds, row by row, `Spec.xkdRow` of the
   hidden row and of the radial basis row times the folded basis matrix. -/
import proofs.«431230_j19146964206349_3_alg».proof.Proof.Gen.KernelIdeal.Frame
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

/-- The zero offset of a rank-2 block. -/
private theorem hz2 : (![0, 0] : Fin 2 → Nat) = fun _ => 0 := funext fun a => by fin_cases a <;> rfl
/-- The zero offset of a rank-1 block. -/
private theorem hz1 : (![0] : Fin 1 → Nat) = fun _ => 0 := funext fun a => by fin_cases a <;> rfl

/-- A rank-2 index whose coordinates have the values of `a` and `b` is `ix2 a b`. -/
private theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-1 index whose coordinate has the value of `a` is `ix1 a`. -/
private theorem idx1_eq {n : Nat} (j : (⟨1, ![n]⟩ : Shape).Idx) (a : Fin n) (h0 : (j 0).val = a.val) : j = ix1 a := by
  funext d
  match d with
  | ⟨0, _⟩ => exact Fin.ext h0

/-- The block index maps over the grid: a row-blocked window is at block row `t`, column block 0; a whole-array
    window is at block 0 on every axis. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of a block of 4096 rows, read where the blocks say, is row `R` of the arrays: the message row of the
    blocks is the message array's entry. -/
private theorem xkd_of_blocks (x : Cert.Spec.Arr2 131072 128) (rbf : Cert.Spec.Arr2 131072 6) (Wr : Cert.Spec.Arr2 6 128)
    (Wkj : Cert.Spec.Arr2 128 128) (bkj : Cert.Spec.Arr1 128) (Wdown : Cert.Spec.Arr2 128 64)
    (bx : Cert.Spec.Arr2 4096 128) (brbf : Cert.Spec.Arr2 4096 6) (bWr : Cert.Spec.Arr2 6 128)
    (bWkj : Cert.Spec.Arr2 128 128) (bbkj : Cert.Spec.Arr1 128) (bWdown : Cert.Spec.Arr2 128 64)
    (R : Fin 131072) (p : Fin 4096) (q : Fin 64)
    (hx : ∀ k : Fin 128, bx (ix2 p k) = x (ix2 R k)) (hrbf : ∀ k : Fin 6, brbf (ix2 p k) = rbf (ix2 R k))
    (hWr : ∀ (a : Fin 6) (b : Fin 128), bWr (ix2 a b) = Wr (ix2 a b))
    (hWkj : ∀ (a : Fin 128) (b : Fin 128), bWkj (ix2 a b) = Wkj (ix2 a b))
    (hbkj : ∀ a : Fin 128, bbkj (ix1 a) = bkj (ix1 a))
    (hWdown : ∀ (a : Fin 128) (b : Fin 64), bWdown (ix2 a b) = Wdown (ix2 a b)) :
    Cert.Spec.xkdRow (Cert.Spec.row bx p) (Cert.Spec.mm (Cert.Spec.row brbf p) (Cert.Spec.mat bWr)) (Cert.Spec.mat bWkj)
        (Cert.Spec.vec bbkj) (Cert.Spec.mat bWdown) q
      = Cert.Spec.xkdArr x (Cert.Spec.mmArr rbf Wr) Wkj bkj Wdown (ix2 R q) := by
  have e0 : Cert.Spec.row bx p = Cert.Spec.row x R := funext hx
  have e1 : Cert.Spec.row brbf p = Cert.Spec.row rbf R := funext hrbf
  have e2 : Cert.Spec.mat bWr = Cert.Spec.mat Wr := funext fun a => funext fun b => hWr a b
  have e3 : Cert.Spec.mat bWkj = Cert.Spec.mat Wkj := funext fun a => funext fun b => hWkj a b
  have e4 : Cert.Spec.vec bbkj = Cert.Spec.vec bkj := funext hbkj
  have e5 : Cert.Spec.mat bWdown = Cert.Spec.mat Wdown := funext fun a => funext fun b => hWdown a b
  rw [e0, e1, e2, e3, e4, e5]
  rfl

/-- The message array, as one function of the arrays the region finds. -/
private abbrev G0 (c : Dev nD) : Cert.Spec.Arr2 131072 64 :=
  Cert.Spec.xkdArr (V c main_arg0) (Cert.Spec.mmArr (V c main_arg1) (V c main_v0)) (V c main_arg9) (V c main_arg10) (V c main_arg13)

private theorem flushed_eq
    (hpay : ∀ (x : Vec Ideal S4096x128 .f32) (rbf : Vec Ideal S4096x6 .f32) (Wr : Vec Ideal S6x128 .f32)
      (Wkj : Vec Ideal S128x128 .f32) (bkj : Vec Ideal S128 .f32) (Wdown : Vec Ideal S128x64 .f32) (p : Fin 4096) (q : Fin 64),
      k0_pay1 (F := Ideal) x rbf Wr Wkj bkj Wdown (ix2 p q)
        = Cert.Spec.xkdRow (Cert.Spec.row x p) (Cert.Spec.mm (Cert.Spec.row rbf p) (Cert.Spec.mat Wr)) (Cert.Spec.mat Wkj) (Cert.Spec.vec bkj) (Cert.Spec.mat Wdown) q)
    (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz2]
  simp only [View.ld_unit_zero (S := S4096x128) hz2, View.ld_unit_zero (S := S4096x6) hz2, View.ld_unit_zero (S := S6x128) hz2,
    View.ld_unit_zero (S := S128x128) hz2, View.ld_unit_zero (S := S128) hz1, View.ld_unit_zero (S := S128x64) hz2]
  funext j
  obtain ⟨p, q, rfl⟩ : ∃ (p : Fin 4096) (q : Fin 64), j = ix2 p q := ⟨j 0, j 1, eq_ix2 (n0 := 4096) (n1 := 64) j⟩
  obtain ⟨a00, a01, a10, a11, a20, a21, a30, a31, a40, a50, a51, a60, a61⟩ := idx_facts t
  have hN : cfg0.N = 32 := N_0
  have hR : t.val * 4096 + p.val < 131072 := by
    have ht := t.isLt
    have hp := p.isLt
    omega
  refine (hpay (iblk0 V c 0 t) (iblk0 V c 1 t) (iblk0 V c 2 t) (iblk0 V c 3 t) (iblk0 V c 4 t) (iblk0 V c 5 t) p q).trans ?_
  refine (xkd_of_blocks (V c main_arg0) (V c main_arg1) (V c main_v0) (V c main_arg9) (V c main_arg10) (V c main_arg13)
    (iblk0 V c 0 t) (iblk0 V c 1 t) (iblk0 V c 2 t) (iblk0 V c 3 t) (iblk0 V c 4 t) (iblk0 V c 5 t)
    ⟨t.val * 4096 + p.val, hR⟩ p q ?_ ?_ ?_ ?_ ?_ ?_).trans ?_
  · intro k
    show V c main_arg0 (((cfg0.win 0).blk t).view.emb (ix2 p k)) = V c main_arg0 (ix2 ⟨t.val * 4096 + p.val, hR⟩ k)
    refine congrArg (V c main_arg0) (idx2_eq _ _ _ ?_ ?_)
    · show win0_0.index t (0 : Fin 2) * 4096 + 1 * p.val = t.val * 4096 + p.val
      omega
    · show win0_0.index t (1 : Fin 2) * 128 + 1 * k.val = k.val
      omega
  · intro k
    show V c main_arg1 (((cfg0.win 1).blk t).view.emb (ix2 p k)) = V c main_arg1 (ix2 ⟨t.val * 4096 + p.val, hR⟩ k)
    refine congrArg (V c main_arg1) (idx2_eq _ _ _ ?_ ?_)
    · show win0_1.index t (0 : Fin 2) * 4096 + 1 * p.val = t.val * 4096 + p.val
      omega
    · show win0_1.index t (1 : Fin 2) * 6 + 1 * k.val = k.val
      omega
  · intro a b
    show V c main_v0 (((cfg0.win 2).blk t).view.emb (ix2 a b)) = V c main_v0 (ix2 a b)
    refine congrArg (V c main_v0) (idx2_eq _ _ _ ?_ ?_)
    · show win0_2.index t (0 : Fin 2) * 6 + 1 * a.val = a.val
      omega
    · show win0_2.index t (1 : Fin 2) * 128 + 1 * b.val = b.val
      omega
  · intro a b
    show V c main_arg9 (((cfg0.win 3).blk t).view.emb (ix2 a b)) = V c main_arg9 (ix2 a b)
    refine congrArg (V c main_arg9) (idx2_eq _ _ _ ?_ ?_)
    · show win0_3.index t (0 : Fin 2) * 128 + 1 * a.val = a.val
      omega
    · show win0_3.index t (1 : Fin 2) * 128 + 1 * b.val = b.val
      omega
  · intro a
    show V c main_arg10 (((cfg0.win 4).blk t).view.emb (ix1 a)) = V c main_arg10 (ix1 a)
    refine congrArg (V c main_arg10) (idx1_eq _ _ ?_)
    show win0_4.index t (0 : Fin 1) * 128 + 1 * a.val = a.val
    omega
  · intro a b
    show V c main_arg13 (((cfg0.win 5).blk t).view.emb (ix2 a b)) = V c main_arg13 (ix2 a b)
    refine congrArg (V c main_arg13) (idx2_eq _ _ _ ?_ ?_)
    · show win0_5.index t (0 : Fin 2) * 128 + 1 * a.val = a.val
      omega
    · show win0_5.index t (1 : Fin 2) * 64 + 1 * b.val = b.val
      omega
  · show G0 V c (ix2 ⟨t.val * 4096 + p.val, hR⟩ q) = G0 V c (((cfg0.win 6).blk t).view.emb (ix2 p q))
    refine congrArg (G0 V c) (idx2_eq _ _ _ ?_ ?_).symm
    · show win0_6.index t (0 : Fin 2) * 4096 + 1 * p.val = t.val * 4096 + p.val
      omega
    · show win0_6.index t (1 : Fin 2) * 64 + 1 * q.val = q.val
      omega

/-- An index of the message array is in point `t`'s block iff each coordinate is in the block's range on its axis. -/
private theorem mem_blk (t : Fin cfg0.N) (i : S131072x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v2).slice (win0_6.rect t)).set ↔ _
  rw [View.set_slice_whole, Rect.mem_set_unit]
  exact Iff.rfl

/-- Row `r` of the message array is in the block of point `r / 4096`. -/
private theorem cover (i : S131072x64.Idx) :
    ∃ t : Fin cfg0.N, (cfg0.win 6).flush t = true ∧ i ∈ ((cfg0.win 6).blk t).view.set := by
  have hN : cfg0.N = 32 := N_0
  have hi0 : (i 0).val < 131072 := (i 0).isLt
  have hi1 : (i 1).val < 64 := (i 1).isLt
  refine ⟨⟨(i 0).val / 4096, by omega⟩, flush0_6 _, ?_⟩
  rw [mem_blk]
  obtain ⟨-, -, -, -, -, -, -, -, -, -, -, a60, a61⟩ := idx_facts ⟨(i 0).val / 4096, by omega⟩
  intro a
  match a with
  | ⟨0, _⟩ =>
    show win0_6.index ⟨(i 0).val / 4096, _⟩ (0 : Fin 2) * 4096 ≤ (i 0).val ∧ (i 0).val < win0_6.index ⟨(i 0).val / 4096, _⟩ (0 : Fin 2) * 4096 + 4096
    rw [a60]
    show (i 0).val / 4096 * 4096 ≤ (i 0).val ∧ (i 0).val < (i 0).val / 4096 * 4096 + 4096
    omega
  | ⟨1, _⟩ =>
    show win0_6.index ⟨(i 0).val / 4096, _⟩ (1 : Fin 2) * 64 ≤ (i 1).val ∧ (i 1).val < win0_6.index ⟨(i 0).val / 4096, _⟩ (1 : Fin 2) * 64 + 64
    rw [a61]
    omega

/-- The message array after region 0, as one function of the arrays the region finds, from the body's stored value
    read at an element (`hpay`). -/
theorem arr0_of
    (hpay : ∀ (x : Vec Ideal S4096x128 .f32) (rbf : Vec Ideal S4096x6 .f32) (Wr : Vec Ideal S6x128 .f32)
      (Wkj : Vec Ideal S128x128 .f32) (bkj : Vec Ideal S128 .f32) (Wdown : Vec Ideal S128x64 .f32) (p : Fin 4096) (q : Fin 64),
      k0_pay1 (F := Ideal) x rbf Wr Wkj bkj Wdown (ix2 p q)
        = Cert.Spec.xkdRow (Cert.Spec.row x p) (Cert.Spec.mm (Cert.Spec.row rbf p) (Cert.Spec.mat Wr)) (Cert.Spec.mat Wkj) (Cert.Spec.vec bkj) (Cert.Spec.mat Wdown) q)
    (c : Dev nD) :
    (dat0 (F := Ideal) V c).arrAt 6 cfg0.N
      = Cert.Spec.xkdArr (V c main_arg0) (Cert.Spec.mmArr (V c main_arg1) (V c main_v0)) (V c main_arg9) (V c main_arg10) (V c main_arg13) := by
  exact (dat0 (F := Ideal) V c).arrAt_eq_of_cover 6 (G0 V c) (fun t _ => flushed_eq V hpay c t) cover

end Cert.KernelIdeal.Hand

end
-- ==== Proof.Region1.lean ====
/- Region 1 (the triplet basis): after its 128 grid points the basis array holds the triplets' spherical basis rows
   times the folded basis matrix. -/
import proofs.«431230_j19146964206349_3_alg».proof.Proof.Gen.KernelIdeal.Frame
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

/-- The zero offsets of a whole-block access, as a function. -/
theorem zeroOff2 : (![0, 0] : Fin 2 → Nat) = fun _ => 0 := funext fun a => by fin_cases a <;> rfl

/-- The index maps over the grid: at point t the basis rows' block and the output's block are block t along the rows and
    block 0 along the columns; the folded matrix's block is block 0 on both axes. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The basis rows' block at point t holds rows 8192 t … 8192 t + 8191 of the array. -/
theorem rowsBlock1_apply (c : Dev nD) (t : Fin cfg1.N) (y : S8192x42.Idx) (k : S1048576x42.Idx)
    (hk0 : (k 0).val = 8192 * t.val + (y 0).val) (hk1 : (k 1).val = (y 1).val) :
    (iblk1 V c 0 t : Vec Ideal S8192x42 .f32) y = (V c main_arg2 : S1048576x42.Idx → EReal) k := by
  obtain ⟨e0, e1, -⟩ := blockIndex1 t
  unfold iblk1
  rw [View.read_apply]
  show (V c main_arg2 : S1048576x42.Idx → EReal) _ = V c main_arg2 k
  refine congrArg _ ?_
  funext a
  apply Fin.ext
  match a with
  | ⟨0, _⟩ => show win1_0.index t (0 : Fin 2) * 8192 + 1 * (y 0).val = (k 0).val; rw [e0, hk0]; omega
  | ⟨1, _⟩ => show win1_0.index t (1 : Fin 2) * 42 + 1 * (y 1).val = (k 1).val; rw [e1, hk1]; omega

/-- The folded matrix's block at every point is the whole matrix. -/
theorem matBlock1_apply (c : Dev nD) (t : Fin cfg1.N) (y : S42x64.Idx) (k : S42x64.Idx)
    (hk0 : (k 0).val = (y 0).val) (hk1 : (k 1).val = (y 1).val) :
    (iblk1 V c 1 t : Vec Ideal S42x64 .f32) y = (V c main_v1 : S42x64.Idx → EReal) k := by
  obtain ⟨-, -, e0, e1, -⟩ := blockIndex1 t
  unfold iblk1
  rw [View.read_apply]
  show (V c main_v1 : S42x64.Idx → EReal) _ = V c main_v1 k
  refine congrArg _ ?_
  funext a
  apply Fin.ext
  match a with
  | ⟨0, _⟩ => show win1_1.index t (0 : Fin 2) * 42 + 1 * (y 0).val = (k 0).val; rw [e0, hk0]; omega
  | ⟨1, _⟩ => show win1_1.index t (1 : Fin 2) * 64 + 1 * (y 1).val = (k 1).val; rw [e1, hk1]; omega

/-- A block's row p times a block matrix, at column q, is the product array at index i, once the block's row p is the
    array's row i 0 and the block matrix's column q is the matrix's column i 1. -/
theorem mmRow_eq_mmArr (X : Cert.Spec.Arr2 1048576 42) (W : Cert.Spec.Arr2 42 64) (x0 : Cert.Spec.Arr2 8192 42)
    (x1 : Cert.Spec.Arr2 42 64) (p : Fin 8192) (q : Fin 64) (i : S1048576x64.Idx)
    (h0 : ∀ k : Fin 42, x0 (ix2 p k) = X (ix2 (i 0) k)) (h1 : ∀ k : Fin 42, x1 (ix2 k q) = W (ix2 k (i 1))) :
    Cert.Spec.mm (Cert.Spec.row x0 p) (Cert.Spec.mat x1) q = Cert.Spec.mmArr X W i := by
  show ∑ k : Fin 42, x0 (ix2 p k) * x1 (ix2 k q) = ∑ k : Fin 42, X (ix2 (i 0) k) * W (ix2 k (i 1))
  exact Finset.sum_congr rfl fun k _ => by rw [h0 k, h1 k]

/-- WHAT POINT t WRITES BACK is block t of the product array of the basis rows and the folded matrix. -/
theorem flushed1_eq
    (hpay : ∀ (sbf : Vec Ideal S8192x42 .f32) (Ws : Vec Ideal S42x64 .f32) (p : Fin 8192) (q : Fin 64),
      k1_pay1 (F := Ideal) sbf Ws (ix2 p q) = Cert.Spec.mm (Cert.Spec.row sbf p) (Cert.Spec.mat Ws) q)
    (c : Dev nD) (t : Fin cfg1.N) :
    (dat1 (F := Ideal) V c).flushed 2 t
      = ((cfg1.win 2).blk t).view.read (Elt Ideal) (Cert.Spec.mmArr (V c main_arg2) (V c main_v1)) := by
  show (cfg1.win 2).cut (grid1.coords t) ((dat1 (F := Ideal) V c).after 2 t) = _
  rw [after1_2]
  unfold out1_2
  rw [View.canon_unit_zero zeroOff2]
  simp only [View.ld_unit_zero (S := S8192x42) zeroOff2, View.ld_unit_zero (S := S42x64) zeroOff2]
  obtain ⟨-, -, -, -, e0, e1⟩ := blockIndex1 t
  funext j
  obtain ⟨p, q, rfl⟩ : ∃ (p : Fin 8192) (q : Fin 64), j = ix2 p q := ⟨j 0, j 1, eq_ix2 j⟩
  rw [View.read_apply]
  -- the output's element (p, q) of block t sits at row 8192 t + p, column q of the array
  have h0 : ((((cfg1.win 2).blk t).view.emb (ix2 p q)) 0).val = 8192 * t.val + p.val := by
    show win1_2.index t (0 : Fin 2) * 8192 + 1 * p.val = _; rw [e0]; omega
  have h1 : ((((cfg1.win 2).blk t).view.emb (ix2 p q)) 1).val = q.val := by
    show win1_2.index t (1 : Fin 2) * 64 + 1 * q.val = _; rw [e1]; omega
  refine (hpay _ _ p q).trans (mmRow_eq_mmArr (V c main_arg2) (V c main_v1) (iblk1 V c 0 t) (iblk1 V c 1 t) p q
    (((cfg1.win 2).blk t).view.emb (ix2 p q)) (fun k => ?_) (fun k => ?_))
  · exact rowsBlock1_apply V c t (ix2 p k) (ix2 ((((cfg1.win 2).blk t).view.emb (ix2 p q)) 0) k) h0 rfl
  · exact matBlock1_apply V c t (ix2 k q) (ix2 k ((((cfg1.win 2).blk t).view.emb (ix2 p q)) 1)) rfl h1

/-- An index of the array is in point t's block iff each coordinate is in the block's range on its axis. -/
theorem mem_blk1 (t : Fin cfg1.N) (i : S1048576x64.Idx) :
    i ∈ ((cfg1.win 2).blk t).view.set
      ↔ ∀ a : Fin 2, win1_2.index t a * S8192x64.size a ≤ (i a).val ∧ (i a).val < win1_2.index t a * S8192x64.size a + S8192x64.size a := by
  show i ∈ ((View.whole main_v3).slice (win1_2.rect t)).set ↔ _
  rw [View.set_slice_whole, Rect.mem_set_unit]
  exact Iff.rfl

/-- Every row of the array is in some point's block: row r is in the block of point r / 8192. -/
theorem cover1 (i : S1048576x64.Idx) :
    ∃ t : Fin cfg1.N, (cfg1.win 2).flush t = true ∧ i ∈ ((cfg1.win 2).blk t).view.set := by
  have hi0 : (i 0).val < 1048576 := (i 0).isLt
  have hi1 : (i 1).val < 64 := (i 1).isLt
  have hN : (i 0).val / 8192 < cfg1.N := by show (i 0).val / 8192 < 128; omega
  refine ⟨⟨(i 0).val / 8192, hN⟩, flush1_2 _, ?_⟩
  rw [mem_blk1]
  obtain ⟨-, -, -, -, e0, e1⟩ := blockIndex1 ⟨(i 0).val / 8192, hN⟩
  intro a
  match a with
  | ⟨0, _⟩ =>
    show win1_2.index ⟨(i 0).val / 8192, hN⟩ (0 : Fin 2) * 8192 ≤ (i 0).val
      ∧ (i 0).val < win1_2.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win1_2.index ⟨(i 0).val / 8192, hN⟩ (1 : Fin 2) * 64 ≤ (i 1).val
      ∧ (i 1).val < win1_2.index ⟨(i 0).val / 8192, hN⟩ (1 : Fin 2) * 64 + 64
    rw [e1]; omega

/-- The basis array after region 1, as one function of the arrays the region finds, from the body's stored value
    read at an element (`hpay`). -/
theorem arr1_of
    (hpay : ∀ (sbf : Vec Ideal S8192x42 .f32) (Ws : Vec Ideal S42x64 .f32) (p : Fin 8192) (q : Fin 64),
      k1_pay1 (F := Ideal) sbf Ws (ix2 p q) = Cert.Spec.mm (Cert.Spec.row sbf p) (Cert.Spec.mat Ws) q)
    (c : Dev nD) :
    (dat1 (F := Ideal) V c).arrAt 2 cfg1.N = Cert.Spec.mmArr (V c main_arg2) (V c main_v1) := by
  exact (dat1 (F := Ideal) V c).arrAt_eq_of_cover 2 (Cert.Spec.mmArr (V c main_arg2) (V c main_v1))
    (fun t _ => flushed1_eq V hpay c t) cover1

end Cert.KernelIdeal.Hand

end
-- ==== Proof.Region2.lean ====
/- Region 2 (the final MLP): after its 32 grid points the result array holds, row by row, `Spec.hRow` of the
   aggregated row and the hidden row. -/
import proofs.«431230_j19146964206349_3_alg».proof.Proof.Gen.KernelIdeal.Frame
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

/-- The zero offsets of each rank, as printed, are the zero function. -/
theorem reg2_zero1 : (![0] : Fin 1 → Nat) = fun _ => 0 := funext fun a => by fin_cases a <;> rfl
theorem reg2_zero2 : (![0, 0] : Fin 2 → Nat) = fun _ => 0 := funext fun a => by fin_cases a <;> rfl
theorem reg2_zero3 : (![0, 0, 0] : Fin 3 → Nat) = fun _ => 0 := funext fun a => by fin_cases a <;> rfl
theorem reg2_zero4 : (![0, 0, 0, 0] : Fin 4 → Nat) = fun _ => 0 := funext fun a => by fin_cases a <;> rfl

/-- The printed index maps over the 32 grid points: a row-blocked window sits at block (t, 0), a whole-array window at block 0. -/
theorem reg2_index_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_11.index t (0 : Fin 2) = t.val ∧ win2_11.index t (1 : Fin 2) = 0 :=
  (by decide +kernel : ∀ t : Fin grid2.N, _)

theorem reg2_index_whole : ∀ t : Fin cfg2.N,
    win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 4) = 0 ∧ win2_5.index t (1 : Fin 4) = 0 ∧ win2_5.index t (2 : Fin 4) = 0 ∧ win2_5.index t (3 : Fin 4) = 0
    ∧ win2_6.index t (0 : Fin 3) = 0 ∧ win2_6.index t (1 : Fin 3) = 0 ∧ win2_6.index t (2 : Fin 3) = 0
    ∧ win2_7.index t (0 : Fin 2) = 0 ∧ win2_7.index t (1 : Fin 2) = 0
    ∧ win2_8.index t (0 : Fin 1) = 0
    ∧ win2_9.index t (0 : Fin 4) = 0 ∧ win2_9.index t (1 : Fin 4) = 0 ∧ win2_9.index t (2 : Fin 4) = 0 ∧ win2_9.index t (3 : Fin 4) = 0
    ∧ win2_10.index t (0 : Fin 3) = 0 ∧ win2_10.index t (1 : Fin 3) = 0 ∧ win2_10.index t (2 : Fin 3) = 0 :=
  (by decide +kernel : ∀ t : Fin grid2.N, _)

/-- A whole-array window's block is its array. -/
theorem reg2_blk_Wji (c : Dev nD) (t : Fin cfg2.N) : (iblk2 V c 2 t : Vec Ideal S128x128 .f32) = V c main_arg11 := by
  obtain ⟨e0, e1, -⟩ := reg2_index_whole t
  funext y
  show V c main_arg11 (((cfg2.win 2).blk t).view.emb y) = V c main_arg11 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem reg2_blk_bji (c : Dev nD) (t : Fin cfg2.N) : (iblk2 V c 3 t : Vec Ideal S128 .f32) = V c main_arg12 := by
  obtain ⟨-, -, e0, -⟩ := reg2_index_whole t
  funext y
  show V c main_arg12 (((cfg2.win 3).blk t).view.emb y) = V c main_arg12 y
  refine congrArg _ (funext fun a => Fin.ext ?_)
  match a with
  | ⟨0, _⟩ => show win2_3.index t (0 : Fin 1) * 128 + 1 * (y 0).val = (y 0).val; omega

theorem reg2_blk_Wup (c : Dev nD) (t : Fin cfg2.N) : (iblk2 V c 4 t : Vec Ideal S64x128 .f32) = V c main_arg14 := by
  obtain ⟨-, -, -, e0, e1, -⟩ := reg2_index_whole t
  funext y
  show V c main_arg14 (((cfg2.win 4).blk t).view.emb y) = V c main_arg14 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 128 + 1 * (y 1).val = (y 1).val; omega

theorem reg2_blk_Wbs (c : Dev nD) (t : Fin cfg2.N) : (iblk2 V c 5 t : Vec Ideal S1x2x128x128 .f32) = V c main_arg15 := by
  obtain ⟨-, -, -, -, -, e0, e1, e2, e3, -⟩ := reg2_index_whole t
  funext y
  show V c main_arg15 (((cfg2.win 5).blk t).view.emb y) = V c main_arg15 y
  refine congrArg _ (funext fun a => Fin.ext ?_)
  match a with
  | ⟨0, _⟩ => show win2_5.index t (0 : Fin 4) * 1 + 1 * (y 0).val = (y 0).val; omega
  | ⟨1, _⟩ => show win2_5.index t (1 : Fin 4) * 2 + 1 * (y 1).val = (y 1).val; omega
  | ⟨2, _⟩ => show win2_5.index t (2 : Fin 4) * 128 + 1 * (y 2).val = (y 2).val; omega
  | ⟨3, _⟩ => show win2_5.index t (3 : Fin 4) * 128 + 1 * (y 3).val = (y 3).val; omega

theorem reg2_blk_bbs (c : Dev nD) (t : Fin cfg2.N) : (iblk2 V c 6 t : Vec Ideal S1x2x128 .f32) = V c main_arg16 := by
  obtain ⟨-, -, -, -, -, -, -, -, -, e0, e1, e2, -⟩ := reg2_index_whole t
  funext y
  show V c main_arg16 (((cfg2.win 6).blk t).view.emb y) = V c main_arg16 y
  refine congrArg _ (funext fun a => Fin.ext ?_)
  match a with
  | ⟨0, _⟩ => show win2_6.index t (0 : Fin 3) * 1 + 1 * (y 0).val = (y 0).val; omega
  | ⟨1, _⟩ => show win2_6.index t (1 : Fin 3) * 2 + 1 * (y 1).val = (y 1).val; omega
  | ⟨2, _⟩ => show win2_6.index t (2 : Fin 3) * 128 + 1 * (y 2).val = (y 2).val; omega

theorem reg2_blk_Wlin (c : Dev nD) (t : Fin cfg2.N) : (iblk2 V c 7 t : Vec Ideal S128x128 .f32) = V c main_arg17 := by
  obtain ⟨-, -, -, -, -, -, -, -, -, -, -, -, e0, e1, -⟩ := reg2_index_whole t
  funext y
  show V c main_arg17 (((cfg2.win 7).blk t).view.emb y) = V c main_arg17 y
  refine congrArg _ (funext fun a => Fin.ext ?_)
  match a with
  | ⟨0, _⟩ => show win2_7.index t (0 : Fin 2) * 128 + 1 * (y 0).val = (y 0).val; omega
  | ⟨1, _⟩ => show win2_7.index t (1 : Fin 2) * 128 + 1 * (y 1).val = (y 1).val; omega

theorem reg2_blk_blin (c : Dev nD) (t : Fin cfg2.N) : (iblk2 V c 8 t : Vec Ideal S128 .f32) = V c main_arg18 := by
  obtain ⟨-, -, -, -, -, -, -, -, -, -, -, -, -, -, e0, -⟩ := reg2_index_whole t
  funext y
  show V c main_arg18 (((cfg2.win 8).blk t).view.emb y) = V c main_arg18 y
  refine congrArg _ (funext fun a => Fin.ext ?_)
  match a with
  | ⟨0, _⟩ => show win2_8.index t (0 : Fin 1) * 128 + 1 * (y 0).val = (y 0).val; omega

theorem reg2_blk_Was (c : Dev nD) (t : Fin cfg2.N) : (iblk2 V c 9 t : Vec Ideal S2x2x128x128 .f32) = V c main_arg19 := by
  obtain ⟨-, -, -, -, -, -, -, -, -, -, -, -, -, -, -, e0, e1, e2, e3, -⟩ := reg2_index_whole t
  funext y
  show V c main_arg19 (((cfg2.win 9).blk t).view.emb y) = V c main_arg19 y
  refine congrArg _ (funext fun a => Fin.ext ?_)
  match a with
  | ⟨0, _⟩ => show win2_9.index t (0 : Fin 4) * 2 + 1 * (y 0).val = (y 0).val; omega
  | ⟨1, _⟩ => show win2_9.index t (1 : Fin 4) * 2 + 1 * (y 1).val = (y 1).val; omega
  | ⟨2, _⟩ => show win2_9.index t (2 : Fin 4) * 128 + 1 * (y 2).val = (y 2).val; omega
  | ⟨3, _⟩ => show win2_9.index t (3 : Fin 4) * 128 + 1 * (y 3).val = (y 3).val; omega

theorem reg2_blk_bas (c : Dev nD) (t : Fin cfg2.N) : (iblk2 V c 10 t : Vec Ideal S2x2x128 .f32) = V c main_arg20 := by
  obtain ⟨-, -, -, -, -, -, -, -, -, -, -, -, -, -, -, -, -, -, -, e0, e1, e2⟩ := reg2_index_whole t
  funext y
  show V c main_arg20 (((cfg2.win 10).blk t).view.emb y) = V c main_arg20 y
  refine congrArg _ (funext fun a => Fin.ext ?_)
  match a with
  | ⟨0, _⟩ => show win2_10.index t (0 : Fin 3) * 2 + 1 * (y 0).val = (y 0).val; omega
  | ⟨1, _⟩ => show win2_10.index t (1 : Fin 3) * 2 + 1 * (y 1).val = (y 1).val; omega
  | ⟨2, _⟩ => show win2_10.index t (2 : Fin 3) * 128 + 1 * (y 2).val = (y 2).val; omega

/-- Row p of point t's block of a row-blocked window is row 4096 t + p of its array. -/
theorem reg2_blk_agg_row (c : Dev nD) (t : Fin cfg2.N) (p : Fin 4096) (P : Fin 131072) (hP : P.val = t.val * 4096 + p.val) :
    Cert.Spec.row (iblk2 V c 0 t : Vec Ideal S4096x64 .f32) p = Cert.Spec.row (V c main_v9) P := by
  obtain ⟨e0, e1, -⟩ := reg2_index_rows t
  funext k
  show V c main_v9 (((cfg2.win 0).blk t).view.emb (ix2 p k)) = V c main_v9 (ix2 P k)
  refine congrArg _ (funext fun a => Fin.ext ?_)
  match a with
  | ⟨0, _⟩ => show win2_0.index t (0 : Fin 2) * 4096 + 1 * p.val = P.val; omega
  | ⟨1, _⟩ => show win2_0.index t (1 : Fin 2) * 64 + 1 * k.val = k.val; omega

theorem reg2_blk_x_row (c : Dev nD) (t : Fin cfg2.N) (p : Fin 4096) (P : Fin 131072) (hP : P.val = t.val * 4096 + p.val) :
    Cert.Spec.row (iblk2 V c 1 t : Vec Ideal S4096x128 .f32) p = Cert.Spec.row (V c main_arg0) P := by
  obtain ⟨-, -, e0, e1, -⟩ := reg2_index_rows t
  funext k
  show V c main_arg0 (((cfg2.win 1).blk t).view.emb (ix2 p k)) = V c main_arg0 (ix2 P k)
  refine congrArg _ (funext fun a => Fin.ext ?_)
  match a with
  | ⟨0, _⟩ => show win2_1.index t (0 : Fin 2) * 4096 + 1 * p.val = P.val; omega
  | ⟨1, _⟩ => show win2_1.index t (1 : Fin 2) * 128 + 1 * k.val = k.val; omega

/-- The stored payload over blocks that are rows of the arrays (the row-blocked ones) or the arrays themselves (the weights)
    is the output array's function at the block's row. -/
theorem reg2_pay_at
    (hpay : ∀ (agg : Vec Ideal S4096x64 .f32) (x : Vec Ideal S4096x128 .f32) (Wji : Vec Ideal S128x128 .f32)
      (bji : Vec Ideal S128 .f32) (Wup : Vec Ideal S64x128 .f32) (Wbs : Vec Ideal S1x2x128x128 .f32) (bbs : Vec Ideal S1x2x128 .f32)
      (Wlin : Vec Ideal S128x128 .f32) (blin : Vec Ideal S128 .f32) (Was : Vec Ideal S2x2x128x128 .f32) (bas : Vec Ideal S2x2x128 .f32)
      (p : Fin 4096) (q : Fin 128),
      k2_pay1 (F := Ideal) (k2_pay6 x (k2_pay2 x Wji bji agg Wup) (k2_pay3 Wbs) (k2_pay4 bbs) (k2_pay5 x Wji bji agg Wup Wbs bbs) Wlin blin)
          Was bas (k2_pay8 bas)
          (k2_pay9 x (k2_pay2 x Wji bji agg Wup) (k2_pay3 Wbs) (k2_pay4 bbs) (k2_pay5 x Wji bji agg Wup Wbs bbs) Wlin blin Was bas)
          (k2_pay10 Was) (ix2 p q)
        = Cert.Spec.hRow (Cert.Spec.row agg p) (Cert.Spec.row x p) (Cert.Spec.mat Wji) (Cert.Spec.vec bji) (Cert.Spec.mat Wup) Wbs bbs
            (Cert.Spec.mat Wlin) (Cert.Spec.vec blin) Was bas q)
    (agg : Vec Ideal S4096x64 .f32) (x : Vec Ideal S4096x128 .f32) (wji : Vec Ideal S128x128 .f32)
    (bji : Vec Ideal S128 .f32) (wup : Vec Ideal S64x128 .f32) (wbs : Vec Ideal S1x2x128x128 .f32) (bbs : Vec Ideal S1x2x128 .f32)
    (wlin : Vec Ideal S128x128 .f32) (blin : Vec Ideal S128 .f32) (was : Vec Ideal S2x2x128x128 .f32) (bas : Vec Ideal S2x2x128 .f32)
    (Agg : Cert.Spec.Arr2 131072 64) (X : Cert.Spec.Arr2 131072 128) (Wji : Cert.Spec.Arr2 128 128) (Bji : Cert.Spec.Arr1 128)
    (Wup : Cert.Spec.Arr2 64 128) (Wbs : Cert.Spec.Arr4 1 2 128 128) (Bbs : Cert.Spec.Arr3 1 2 128) (Wlin : Cert.Spec.Arr2 128 128)
    (Blin : Cert.Spec.Arr1 128) (Was : Cert.Spec.Arr4 2 2 128 128) (Bas : Cert.Spec.Arr3 2 2 128)
    (p : Fin 4096) (P : Fin 131072) (q : Fin 128)
    (h0 : Cert.Spec.row agg p = Cert.Spec.row Agg P) (h1 : Cert.Spec.row x p = Cert.Spec.row X P)
    (h2 : wji = Wji) (h3 : bji = Bji) (h4 : wup = Wup) (h5 : wbs = Wbs) (h6 : bbs = Bbs) (h7 : wlin = Wlin) (h8 : blin = Blin)
    (h9 : was = Was) (h10 : bas = Bas) :
    k2_pay1 (F := Ideal) (k2_pay6 x (k2_pay2 x wji bji agg wup) (k2_pay3 wbs) (k2_pay4 bbs) (k2_pay5 x wji bji agg wup wbs bbs) wlin blin)
          was bas (k2_pay8 bas)
          (k2_pay9 x (k2_pay2 x wji bji agg wup) (k2_pay3 wbs) (k2_pay4 bbs) (k2_pay5 x wji bji agg wup wbs bbs) wlin blin was bas)
          (k2_pay10 was) (ix2 p q)
      = Cert.Spec.hArr Agg X Wji Bji Wup Wbs Bbs Wlin Blin Was Bas (ix2 P q) := by
  subst h2 h3 h4 h5 h6 h7 h8 h9 h10
  rw [hpay, h0, h1]
  rfl

/-- WHAT POINT t WRITES BACK is block t of the output array's function of the arrays the region finds. -/
theorem reg2_flushed_eq
    (hpay : ∀ (agg : Vec Ideal S4096x64 .f32) (x : Vec Ideal S4096x128 .f32) (Wji : Vec Ideal S128x128 .f32)
      (bji : Vec Ideal S128 .f32) (Wup : Vec Ideal S64x128 .f32) (Wbs : Vec Ideal S1x2x128x128 .f32) (bbs : Vec Ideal S1x2x128 .f32)
      (Wlin : Vec Ideal S128x128 .f32) (blin : Vec Ideal S128 .f32) (Was : Vec Ideal S2x2x128x128 .f32) (bas : Vec Ideal S2x2x128 .f32)
      (p : Fin 4096) (q : Fin 128),
      k2_pay1 (F := Ideal) (k2_pay6 x (k2_pay2 x Wji bji agg Wup) (k2_pay3 Wbs) (k2_pay4 bbs) (k2_pay5 x Wji bji agg Wup Wbs bbs) Wlin blin)
          Was bas (k2_pay8 bas)
          (k2_pay9 x (k2_pay2 x Wji bji agg Wup) (k2_pay3 Wbs) (k2_pay4 bbs) (k2_pay5 x Wji bji agg Wup Wbs bbs) Wlin blin Was bas)
          (k2_pay10 Was) (ix2 p q)
        = Cert.Spec.hRow (Cert.Spec.row agg p) (Cert.Spec.row x p) (Cert.Spec.mat Wji) (Cert.Spec.vec bji) (Cert.Spec.mat Wup) Wbs bbs
            (Cert.Spec.mat Wlin) (Cert.Spec.vec blin) Was bas q)
    (c : Dev nD) (t : Fin cfg2.N) :
    (dat2 (F := Ideal) V c).flushed 11 t = ((cfg2.win 11).blk t).view.read (Elt Ideal)
      (Cert.Spec.hArr (V c main_v9) (V c main_arg0) (V c main_arg11) (V c main_arg12) (V c main_arg14) (V c main_arg15)
          (V c main_arg16) (V c main_arg17) (V c main_arg18) (V c main_arg19) (V c main_arg20)) := by
  show (cfg2.win 11).cut (grid2.coords t) ((dat2 V c).after 11 t) = _
  rw [after2_11]
  unfold out2_11
  rw [View.canon_unit_zero reg2_zero2]
  simp only [View.ld_unit_zero (S := S4096x128) reg2_zero2, View.ld_unit_zero (S := S128x128) reg2_zero2, View.ld_unit_zero (S := S128) reg2_zero1,
    View.ld_unit_zero (S := S4096x64) reg2_zero2, View.ld_unit_zero (S := S64x128) reg2_zero2, View.ld_unit_zero (S := S1x2x128x128) reg2_zero4,
    View.ld_unit_zero (S := S1x2x128) reg2_zero3, View.ld_unit_zero (S := S2x2x128x128) reg2_zero4, View.ld_unit_zero (S := S2x2x128) reg2_zero3]
  obtain ⟨-, -, -, -, e0, e1⟩ := reg2_index_rows t
  have hN : t.val < 32 := lt_of_lt_of_eq t.isLt (show cfg2.N = 32 from N_2)
  funext j
  obtain ⟨p, q, rfl⟩ : ∃ (p : Fin 4096) (q : Fin 128), j = ix2 p q := ⟨j 0, j 1, eq_ix2 j⟩
  have hP : t.val * 4096 + p.val < 131072 := by have := p.isLt; omega
  refine (reg2_pay_at hpay (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t)
    (V c main_v9) (V c main_arg0) (V c main_arg11) (V c main_arg12) (V c main_arg14) (V c main_arg15)
    (V c main_arg16) (V c main_arg17) (V c main_arg18) (V c main_arg19) (V c main_arg20)
    p ⟨t.val * 4096 + p.val, hP⟩ q (reg2_blk_agg_row V c t p _ rfl) (reg2_blk_x_row V c t p _ rfl)
    (reg2_blk_Wji V c t) (reg2_blk_bji V c t) (reg2_blk_Wup V c t) (reg2_blk_Wbs V c t) (reg2_blk_bbs V c t) (reg2_blk_Wlin V c t) (reg2_blk_blin V c t)
    (reg2_blk_Was V c t) (reg2_blk_bas V c t)).trans ?_
  show Cert.Spec.hArr (V c main_v9) (V c main_arg0) (V c main_arg11) (V c main_arg12) (V c main_arg14) (V c main_arg15)
          (V c main_arg16) (V c main_arg17) (V c main_arg18) (V c main_arg19) (V c main_arg20) (ix2 ⟨t.val * 4096 + p.val, hP⟩ q)
      = Cert.Spec.hArr (V c main_v9) (V c main_arg0) (V c main_arg11) (V c main_arg12) (V c main_arg14) (V c main_arg15)
          (V c main_arg16) (V c main_arg17) (V c main_arg18) (V c main_arg19) (V c main_arg20) (((cfg2.win 11).blk t).view.emb (ix2 p q))
  refine congrArg _ (funext fun a => Fin.ext ?_)
  match a with
  | ⟨0, _⟩ => show t.val * 4096 + p.val = win2_11.index t (0 : Fin 2) * 4096 + 1 * p.val; omega
  | ⟨1, _⟩ => show q.val = win2_11.index t (1 : Fin 2) * 128 + 1 * q.val; omega

/-- An index of the array is in point t's block iff each coordinate is in the block's range on its axis. -/
theorem reg2_mem_blk (t : Fin cfg2.N) (i : S131072x128.Idx) :
    i ∈ ((cfg2.win 11).blk t).view.set ↔ ∀ a : Fin 2, win2_11.index t a * S4096x128.size a ≤ (i a).val ∧ (i a).val < win2_11.index t a * S4096x128.size a + S4096x128.size a := by
  show i ∈ ((View.whole main_v10).slice (win2_11.rect t)).set ↔ _
  rw [View.set_slice_whole, Rect.mem_set_unit]
  exact Iff.rfl

/-- Row r of the array is in the block of point r / 4096. -/
theorem reg2_cover (i : S131072x128.Idx) :
    ∃ t : Fin cfg2.N, (cfg2.win 11).flush t = true ∧ i ∈ ((cfg2.win 11).blk t).view.set := by
  have hi0 : (i 0).val < 131072 := (i 0).isLt
  have hi1 : (i 1).val < 128 := (i 1).isLt
  have hN : cfg2.N = 32 := N_2
  have ht : (i 0).val / 4096 < cfg2.N := by rw [hN]; omega
  obtain ⟨-, -, -, -, e0, e1⟩ := reg2_index_rows ⟨(i 0).val / 4096, ht⟩
  refine ⟨⟨(i 0).val / 4096, ht⟩, flush2_11 _, ?_⟩
  rw [reg2_mem_blk]
  intro a
  match a with
  | ⟨0, _⟩ =>
    show win2_11.index ⟨(i 0).val / 4096, ht⟩ (0 : Fin 2) * 4096 ≤ (i 0).val ∧ (i 0).val < win2_11.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win2_11.index ⟨(i 0).val / 4096, ht⟩ (1 : Fin 2) * 128 ≤ (i 1).val ∧ (i 1).val < win2_11.index ⟨(i 0).val / 4096, ht⟩ (1 : Fin 2) * 128 + 128
    rw [e1]; omega

/-- The result array after region 2, as one function of the arrays the region finds, from the body's stored value
    read at an element (`hpay`: the stored payload over the loaded blocks, exactly as the generated `out2_11` composes it). -/
theorem arr2_of
    (hpay : ∀ (agg : Vec Ideal S4096x64 .f32) (x : Vec Ideal S4096x128 .f32) (Wji : Vec Ideal S128x128 .f32)
      (bji : Vec Ideal S128 .f32) (Wup : Vec Ideal S64x128 .f32) (Wbs : Vec Ideal S1x2x128x128 .f32) (bbs : Vec Ideal S1x2x128 .f32)
      (Wlin : Vec Ideal S128x128 .f32) (blin : Vec Ideal S128 .f32) (Was : Vec Ideal S2x2x128x128 .f32) (bas : Vec Ideal S2x2x128 .f32)
      (p : Fin 4096) (q : Fin 128),
      k2_pay1 (F := Ideal) (k2_pay6 x (k2_pay2 x Wji bji agg Wup) (k2_pay3 Wbs) (k2_pay4 bbs) (k2_pay5 x Wji bji agg Wup Wbs bbs) Wlin blin)
          Was bas (k2_pay8 bas)
          (k2_pay9 x (k2_pay2 x Wji bji agg Wup) (k2_pay3 Wbs) (k2_pay4 bbs) (k2_pay5 x Wji bji agg Wup Wbs bbs) Wlin blin Was bas)
          (k2_pay10 Was) (ix2 p q)
        = Cert.Spec.hRow (Cert.Spec.row agg p) (Cert.Spec.row x p) (Cert.Spec.mat Wji) (Cert.Spec.vec bji) (Cert.Spec.mat Wup) Wbs bbs
            (Cert.Spec.mat Wlin) (Cert.Spec.vec blin) Was bas q)
    (c : Dev nD) :
    (dat2 (F := Ideal) V c).arrAt 11 cfg2.N
      = Cert.Spec.hArr (V c main_v9) (V c main_arg0) (V c main_arg11) (V c main_arg12) (V c main_arg14) (V c main_arg15)
          (V c main_arg16) (V c main_arg17) (V c main_arg18) (V c main_arg19) (V c main_arg20) :=
  (dat2 (F := Ideal) V c).arrAt_eq_of_cover 11 _ (fun t _ => reg2_flushed_eq V hpay c t) reg2_cover

end Cert.KernelIdeal.Hand

end
-- ==== Proof.Pay01.lean ====
/- What the bodies of the first two kernels store, read at one element of the block: the edge MLP's store at
   (p, q) is `Spec.xkdRow` of row p of the hidden block and of row p of the radial basis block times the folded basis
   matrix; the triplet kernel's is row p of the spherical basis block times the folded basis matrix. -/
import proofs.«431230_j19146964206349_3_alg».proof.Proof.Gen.KernelIdeal.Skeleton
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem

namespace Cert.KernelIdeal.Hand

open Cert.KernelIdeal Cert.KernelIdeal.Gen Idealize.ShloMosaic.ValueIdx Cert.Spec

/-- A matrix product accumulated into the zero splat, for the plain dimension record (rows by contraction times
    contraction by columns), read at (a, b): the sum over the contracted coordinate of the products of the entries. -/
theorem matmul_zero_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- Each dimension record of the two kernels is the plain one: it contracts the left operand's columns with the right
    operand's rows and has no batch axis. -/
theorem dot_4096x6x128_eq : dot_S4096x6_S6x128_S4096x128_1_0_0_1_n_n = DotDims.plain 4096 6 128 := rfl
theorem dot_4096x128x128_eq : dot_S4096x128_S128x128_S4096x128_1_0_0_1_n_n = DotDims.plain 4096 128 128 := rfl
theorem dot_4096x128x64_eq : dot_S4096x128_S128x64_S4096x64_1_0_0_1_n_n = DotDims.plain 4096 128 64 := rfl
theorem dot_8192x42x64_eq : dot_S8192x42_S42x64_S8192x64_1_0_0_1_n_n = DotDims.plain 8192 42 64 := rfl

/-- A vector of n entries cast to one row and laid along each of m rows, read at (p, q), is the vector's entry q. -/
theorem biasRow_apply {m n : Nat} (b : (⟨1, ![n]⟩ : Shape).Idx → EReal)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ b h1) hb (ix2 p q) = b (ix1 q) := by
  have e1 := broadcastTo_apply (shapeCast ⟨2, ![1, n]⟩ b h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply b h1 (ix2 (0 : Fin 1) q) (ix1 q) (by
    rw [Shape.rowMajor_val_two, Shape.rowMajor_val_one]; show q.val = 0 * n + q.val; omega)
  exact e1.trans e2

/-- The edge MLP's stored value at row p, column q of its block. -/
theorem pay0_apply (x : Vec Ideal S4096x128 .f32) (rbf : Vec Ideal S4096x6 .f32) (Wr : Vec Ideal S6x128 .f32)
    (Wkj : Vec Ideal S128x128 .f32) (bkj : Vec Ideal S128 .f32) (Wdown : Vec Ideal S128x64 .f32) (p : Fin 4096) (q : Fin 64) :
    k0_pay1 (F := Ideal) x rbf Wr Wkj bkj Wdown (ix2 p q)
      = xkdRow (row x p) (mm (row rbf p) (mat Wr)) (mat Wkj) (vec bkj) (mat Wdown) q := by
  -- the outer clip: the stored value is the maximum of the last product and zero
  unfold k0_pay1
  simp only [maximumf_apply, broadcast_apply]
  rw [dot_4096x128x64_eq, matmul_zero_plain_apply]
  show max (∑ c : Fin 128, _ * _) (Ideal.ofBits .f32 0x00000000#32) = _
  rw [Ideal.ofBits_zero_f32]
  simp only [xkdRow, relu, mm, lin]
  -- term by term in the contracted coordinate: the left factor is the clipped dense layer times the basis row
  refine congrArg (fun t => max t 0) (Finset.sum_congr rfl fun c _ => ?_)
  refine congrArg (· * _) ?_
  simp only [truncf_apply, mulf_apply, maximumf_apply, addf_apply, broadcast_apply]
  rw [dot_4096x6x128_eq, dot_4096x128x128_eq, matmul_zero_plain_apply, matmul_zero_plain_apply, biasRow_apply,
    shapeCast_self]
  show max _ (Ideal.ofBits .f32 0x00000000#32) * _ = _
  rw [Ideal.ofBits_zero_f32]
  rfl

/-- The triplet basis kernel's stored value at row p, column q of its block. -/
theorem pay1_apply (sbf : Vec Ideal S8192x42 .f32) (Ws : Vec Ideal S42x64 .f32) (p : Fin 8192) (q : Fin 64) :
    k1_pay1 (F := Ideal) sbf Ws (ix2 p q) = mm (row sbf p) (mat Ws) q := by
  unfold k1_pay1
  show matmul dot_S8192x42_S42x64_S8192x64_1_0_0_1_n_n none (truncf .bf16 sbf bitsLt_bf16_f32)
      (truncf .bf16 (shapeCast S42x64 Ws shapeCasts_S42x64_S42x64) bitsLt_bf16_f32)
      (constant (F := Ideal) S8192x64 .f32 0x00000000#32) (ix2 p q) = _
  rw [dot_8192x42x64_eq, matmul_zero_plain_apply, shapeCast_self]
  rfl

end Cert.KernelIdeal.Hand

end
-- ==== Proof.Pay2Mid.lean ====
/- The final MLP's body up to the skip connection, read at one element of the block: the value `%59` at (p, q) is
   `Spec.hMidRow` of row p of the aggregated block and row p of the hidden block. -/
import proofs.«431230_j19146964206349_3_alg».proof.Proof.Gen.KernelIdeal.Skeleton
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem

namespace Cert.KernelIdeal.Hand

open Cert.KernelIdeal Cert.KernelIdeal.Gen Idealize.ShloMosaic.ValueIdx Cert.Spec

namespace Pay2Mid

/-! ## A product of matrices into the zero block, read at an index -/

/-- The dimension numbers of a [4096,128] by [128,128] product are the plain ones. -/
theorem dot128_eq : dot_S4096x128_S128x128_S4096x128_1_0_0_1_n_n = DotDims.plain 4096 128 128 := rfl
/-- The dimension numbers of a [4096,64] by [64,128] product are the plain ones. -/
theorem dot64_eq : dot_S4096x64_S64x128_S4096x128_1_0_0_1_n_n = DotDims.plain 4096 64 128 := rfl

/-- A [4096,128] by [128,128] product accumulated into zero, at (p, q): the sum over k of A(p,k) · B(k,q). -/
theorem mm128_apply (A : FVec Ideal S4096x128 .bf16) (B : FVec Ideal S128x128 .bf16) (p : Fin 4096) (q : Fin 128) :
    matmul dot_S4096x128_S128x128_S4096x128_1_0_0_1_n_n none A B (constant (F := Ideal) S4096x128 .f32 0x00000000#32) (ix2 p q)
      = ∑ k : Fin 128, A (ix2 p k) * B (ix2 k q) := by
  rw [matmul_zero_eq_dotGeneral, dot128_eq]
  exact StackMember.dotGeneral_plain_apply none A B p q

/-- A [4096,64] by [64,128] product accumulated into zero, at (p, q): the sum over k of A(p,k) · B(k,q). -/
theorem mm64_apply (A : FVec Ideal S4096x64 .bf16) (B : FVec Ideal S64x128 .bf16) (p : Fin 4096) (q : Fin 128) :
    matmul dot_S4096x64_S64x128_S4096x128_1_0_0_1_n_n none A B (constant (F := Ideal) S4096x128 .f32 0x00000000#32) (ix2 p q)
      = ∑ k : Fin 64, A (ix2 p k) * B (ix2 k q) := by
  rw [matmul_zero_eq_dotGeneral, dot64_eq]
  exact StackMember.dotGeneral_plain_apply none A B p q

/-! ## The weights and biases as the body slices them out of their stacks -/

variable {α : Type}

/-- A rank-3 array cut along axis 0 from `o` reads, at (j, c, e), the source at (k, c, e) with k = o + j. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (c : Fin n1) (e : Fin n2) (k : Fin n0) (hk : k.val = o + j.val) :
    extractStridedSlice ⟨3, ![m, n1, n2]⟩ ![o, 0, 0] X h (ix3 j c e) = X (ix3 k c e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The first weight matrix of the stack, as the body slices it out. -/
theorem w0_apply (Wbs : Vec Ideal S1x2x128x128 .f32) (k q : Fin 128) :
    shapeCast S128x128 (extractStridedSlice S1x128x128 ![0, 0, 0] (k2_pay3 (F := Ideal) Wbs) slices_S2x128x128_o0_0_0_S1x128x128)
      shapeCasts_S1x128x128_S128x128 (ix2 k q) = Wbs (ix4 (0 : Fin 1) (0 : Fin 2) k q) := by
  refine (shapeCast_1ab_ab_apply _ _ k q).trans ?_
  refine (slice3_axis0_apply 0 _ _ (0 : Fin 1) k q (0 : Fin 2) rfl).trans ?_
  unfold k2_pay3
  exact shapeCast_1abc_abc_apply _ _ (0 : Fin 2) k q

/-- The second weight matrix of the stack, as the body slices it out. -/
theorem w1_apply (Wbs : Vec Ideal S1x2x128x128 .f32) (k q : Fin 128) :
    shapeCast S128x128 (extractStridedSlice S1x128x128 ![1, 0, 0] (k2_pay3 (F := Ideal) Wbs) slices_S2x128x128_o1_0_0_S1x128x128)
      shapeCasts_S1x128x128_S128x128 (ix2 k q) = Wbs (ix4 (0 : Fin 1) (1 : Fin 2) k q) := by
  refine (shapeCast_1ab_ab_apply _ _ k q).trans ?_
  refine (slice3_axis0_apply 1 _ _ (0 : Fin 1) k q (1 : Fin 2) rfl).trans ?_
  unfold k2_pay3
  exact shapeCast_1abc_abc_apply _ _ (1 : Fin 2) k q

/-- The first bias vector of the stack, as the body slices it out. -/
theorem b0_apply (bbs : Vec Ideal S1x2x128 .f32) (q : Fin 128) :
    shapeCast S128 (extractStridedSlice S1x128 ![0, 0] (k2_pay4 (F := Ideal) bbs) slices_S2x128_o0_0_S1x128)
      shapeCasts_S1x128_S128 (ix1 q) = bbs (ix3 (0 : Fin 1) (0 : Fin 2) q) := by
  refine (shapeCast_1a_a_apply _ _ q).trans ?_
  refine (slice2_axis0_apply 0 _ _ (0 : Fin 1) q (0 : Fin 2) rfl).trans ?_
  unfold k2_pay4
  exact shapeCast_1ab_ab_apply _ _ (0 : Fin 2) q

/-- The second bias vector of the stack, as the body slices it out. -/
theorem b1_apply (bbs : Vec Ideal S1x2x128 .f32) (q : Fin 128) :
    shapeCast S128 (extractStridedSlice S1x128 ![1, 0] (k2_pay4 (F := Ideal) bbs) slices_S2x128_o1_0_S1x128)
      shapeCasts_S1x128_S128 (ix1 q) = bbs (ix3 (0 : Fin 1) (1 : Fin 2) q) := by
  refine (shapeCast_1a_a_apply _ _ q).trans ?_
  refine (slice2_axis0_apply 1 _ _ (0 : Fin 1) q (1 : Fin 2) rfl).trans ?_
  unfold k2_pay4
  exact shapeCast_1ab_ab_apply _ _ (1 : Fin 2) q

/-- A bias vector laid along the rows, read at (p, q), is its entry q. -/
theorem bias_apply (b : FVec Ideal S128 .f32) (p : Fin 4096) (q : Fin 128) :
    broadcastTo S4096x128 (shapeCast S1x128 b shapeCasts_S128_S1x128) broadcasts_S1x128_S4096x128 (ix2 p q) = b (ix1 q) := by
  refine (broadcastTo_1b_ab_apply _ _ p q).trans ?_
  exact shapeCast_a_1a_apply _ _ (0 : Fin 1) q

/-! ## The layers, read at an index -/

/-- A clipped dense layer of the body, read at (p, q): the row p of the left operand through the layer. -/
theorem dense_apply (A : FVec Ideal S4096x128 .bf16) (W : FVec Ideal S128x128 .f32) (b : FVec Ideal S128 .f32)
    (p : Fin 4096) (q : Fin 128) :
    maximumf (addf (matmul dot_S4096x128_S128x128_S4096x128_1_0_0_1_n_n none A (truncf .bf16 W bitsLt_bf16_f32)
          (constant (F := Ideal) S4096x128 .f32 0x00000000#32))
        (broadcastTo S4096x128 (shapeCast S1x128 b shapeCasts_S128_S1x128) broadcasts_S1x128_S4096x128))
      (broadcast S4096x128 (Scalar.ofBits (F := Ideal) .f32 0x00000000#32)) (ix2 p q)
      = relu (lin (row A p) (mat W) (vec b)) q := by
  rw [maximumf_apply, addf_apply, broadcast_apply, mm128_apply, bias_apply]
  show max _ (Ideal.ofBits .f32 0x00000000#32) = max _ 0
  rw [Ideal.ofBits_zero_f32]
  rfl

/-- The clipped bias-free layer on the aggregated block, read at (p, q). -/
theorem up_apply (agg : FVec Ideal S4096x64 .f32) (Wup : FVec Ideal S64x128 .f32) (p : Fin 4096) (q : Fin 128) :
    maximumf (matmul dot_S4096x64_S64x128_S4096x128_1_0_0_1_n_n none
          (truncf .bf16 (shapeCast S4096x64 agg shapeCasts_S4096x64_S4096x64) bitsLt_bf16_f32) (truncf .bf16 Wup bitsLt_bf16_f32)
          (constant (F := Ideal) S4096x128 .f32 0x00000000#32))
      (broadcast S4096x128 (Scalar.ofBits (F := Ideal) .f32 0x00000000#32)) (ix2 p q)
      = relu (mm (row agg p) (mat Wup)) q := by
  rw [shapeCast_self, maximumf_apply, broadcast_apply, mm64_apply]
  show max _ (Ideal.ofBits .f32 0x00000000#32) = max _ 0
  rw [Ideal.ofBits_zero_f32]
  rfl

/-- The sum of the two first layers (the body's `%19`), read at (p, q). -/
theorem pay2_apply (agg : Vec Ideal S4096x64 .f32) (x : Vec Ideal S4096x128 .f32) (Wji : Vec Ideal S128x128 .f32)
    (bji : Vec Ideal S128 .f32) (Wup : Vec Ideal S64x128 .f32) (p : Fin 4096) (q : Fin 128) :
    k2_pay2 (F := Ideal) x Wji bji agg Wup (ix2 p q)
      = relu (lin (row x p) (mat Wji) (vec bji)) q + relu (mm (row agg p) (mat Wup)) q :=
  congrArg₂ (· + ·) (dense_apply (truncf .bf16 x bitsLt_bf16_f32) Wji bji p q) (up_apply agg Wup p q)

/-- The first weight matrix of the stack, as a function of its coordinates. -/
theorem mat_w0 (Wbs : Vec Ideal S1x2x128x128 .f32) :
    mat (shapeCast S128x128 (extractStridedSlice S1x128x128 ![0, 0, 0] (k2_pay3 (F := Ideal) Wbs) slices_S2x128x128_o0_0_0_S1x128x128)
      shapeCasts_S1x128x128_S128x128) = mat4 Wbs 0 0 :=
  funext fun k => funext fun q => w0_apply Wbs k q

/-- The second weight matrix of the stack, as a function of its coordinates. -/
theorem mat_w1 (Wbs : Vec Ideal S1x2x128x128 .f32) :
    mat (shapeCast S128x128 (extractStridedSlice S1x128x128 ![1, 0, 0] (k2_pay3 (F := Ideal) Wbs) slices_S2x128x128_o1_0_0_S1x128x128)
      shapeCasts_S1x128x128_S128x128) = mat4 Wbs 0 1 :=
  funext fun k => funext fun q => w1_apply Wbs k q

/-- The first bias vector of the stack, as a function of its coordinate. -/
theorem vec_b0 (bbs : Vec Ideal S1x2x128 .f32) :
    vec (shapeCast S128 (extractStridedSlice S1x128 ![0, 0] (k2_pay4 (F := Ideal) bbs) slices_S2x128_o0_0_S1x128)
      shapeCasts_S1x128_S128) = vec3 bbs 0 0 :=
  funext fun q => b0_apply bbs q

/-- The second bias vector of the stack, as a function of its coordinate. -/
theorem vec_b1 (bbs : Vec Ideal S1x2x128 .f32) :
    vec (shapeCast S128 (extractStridedSlice S1x128 ![1, 0] (k2_pay4 (F := Ideal) bbs) slices_S2x128_o1_0_S1x128)
      shapeCasts_S1x128_S128) = vec3 bbs 0 1 :=
  funext fun q => b1_apply bbs q

/-- The first layer of the residual block (the body's `%36`), read at (p, q). -/
theorem pay5_apply (agg : Vec Ideal S4096x64 .f32) (x : Vec Ideal S4096x128 .f32) (Wji : Vec Ideal S128x128 .f32)
    (bji : Vec Ideal S128 .f32) (Wup : Vec Ideal S64x128 .f32) (Wbs : Vec Ideal S1x2x128x128 .f32) (bbs : Vec Ideal S1x2x128 .f32)
    (p : Fin 4096) (q : Fin 128) :
    k2_pay5 (F := Ideal) x Wji bji agg Wup Wbs bbs (ix2 p q)
      = relu (lin (fun k => relu (lin (row x p) (mat Wji) (vec bji)) k + relu (mm (row agg p) (mat Wup)) k)
          (mat4 Wbs 0 0) (vec3 bbs 0 0)) q := by
  have h := dense_apply (truncf .bf16 (k2_pay2 (F := Ideal) x Wji bji agg Wup) bitsLt_bf16_f32)
    (shapeCast S128x128 (extractStridedSlice S1x128x128 ![0, 0, 0] (k2_pay3 (F := Ideal) Wbs) slices_S2x128x128_o0_0_0_S1x128x128)
      shapeCasts_S1x128x128_S128x128)
    (shapeCast S128 (extractStridedSlice S1x128 ![0, 0] (k2_pay4 (F := Ideal) bbs) slices_S2x128_o0_0_S1x128) shapeCasts_S1x128_S128) p q
  have hrow : row (truncf .bf16 (k2_pay2 (F := Ideal) x Wji bji agg Wup) bitsLt_bf16_f32) p
      = fun k => relu (lin (row x p) (mat Wji) (vec bji)) k + relu (mm (row agg p) (mat Wup)) k :=
    funext fun k => pay2_apply agg x Wji bji Wup p k
  rw [mat_w0, vec_b0, hrow] at h
  exact h

/-- The body's value after the skip connection over arbitrary earlier values: the second layer of the residual
    block on the row p of `v36`, added to `v19`, through the last clipped layer, plus the hidden entry. -/
theorem pay6_apply (x : Vec Ideal S4096x128 .f32) (v19 : FVec Ideal S4096x128 .f32) (Wbs : Vec Ideal S1x2x128x128 .f32)
    (bbs : Vec Ideal S1x2x128 .f32) (v36 : FVec Ideal S4096x128 .bf16) (Wlin : Vec Ideal S128x128 .f32) (blin : Vec Ideal S128 .f32)
    (p : Fin 4096) (q : Fin 128) :
    k2_pay6 (F := Ideal) x v19 (k2_pay3 Wbs) (k2_pay4 bbs) v36 Wlin blin (ix2 p q)
      = relu (lin (fun k => v19 (ix2 p k) + relu (lin (row v36 p) (mat4 Wbs 0 1) (vec3 bbs 0 1)) k) (mat Wlin) (vec blin)) q
        + x (ix2 p q) := by
  unfold k2_pay6
  rw [addf_apply, dense_apply]
  refine congrArg (fun r => relu (lin r (mat Wlin) (vec blin)) q + x (ix2 p q)) ?_
  funext k
  show addf v19 _ (ix2 p k) = _
  rw [addf_apply, dense_apply, mat_w1, vec_b1]

end Pay2Mid

open Pay2Mid

/-- The body's value after the skip connection (its `%59`), over the values the first part hands on, at (p, q). -/
theorem pay2_mid_apply (agg : Vec Ideal S4096x64 .f32) (x : Vec Ideal S4096x128 .f32) (Wji : Vec Ideal S128x128 .f32)
    (bji : Vec Ideal S128 .f32) (Wup : Vec Ideal S64x128 .f32) (Wbs : Vec Ideal S1x2x128x128 .f32) (bbs : Vec Ideal S1x2x128 .f32)
    (Wlin : Vec Ideal S128x128 .f32) (blin : Vec Ideal S128 .f32) (p : Fin 4096) (q : Fin 128) :
    k2_pay6 (F := Ideal) x (k2_pay2 x Wji bji agg Wup) (k2_pay3 Wbs) (k2_pay4 bbs) (k2_pay5 x Wji bji agg Wup Wbs bbs) Wlin blin (ix2 p q)
      = hMidRow (row agg p) (row x p) (mat Wji) (vec bji) (mat Wup) Wbs bbs (mat Wlin) (vec blin) q := by
  rw [pay6_apply]
  have h5 : row (k2_pay5 (F := Ideal) x Wji bji agg Wup Wbs bbs) p
      = relu (lin (fun k => relu (lin (row x p) (mat Wji) (vec bji)) k + relu (mm (row agg p) (mat Wup)) k)
          (mat4 Wbs 0 0) (vec3 bbs 0 0)) :=
    funext fun k => pay5_apply agg x Wji bji Wup Wbs bbs p k
  rw [h5]
  simp only [pay2_apply]
  rfl

end Cert.KernelIdeal.Hand

end
-- ==== Proof.Pay2Tail.lean ====
/- The final MLP's body after the skip connection, read at one element of the block: from ANY value `h` after the
   skip connection, the stored value at (p, q) is `Spec.tailRow` of row p of `h`. -/
import proofs.«431230_j19146964206349_3_alg».proof.Proof.Gen.KernelIdeal.Skeleton
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem

namespace Cert.KernelIdeal.Hand

open Cert.KernelIdeal Cert.KernelIdeal.Gen Idealize.ShloMosaic.ValueIdx Cert.Spec

/-- The first dense layer of the first residual block after the skip connection (the body's `%78`), over any `h`,
    as the stored payload takes it: its whole value, so that the stored payload can be read over it. -/
def tail78 (h : FVec Ideal S4096x128 .f32) (Was : Vec Ideal S2x2x128x128 .f32) (bas : Vec Ideal S2x2x128 .f32) : FVec Ideal S4096x128 .bf16 :=
  truncf .bf16 (maximumf (addf (matmul dot_S4096x128_S128x128_S4096x128_1_0_0_1_n_n none (truncf .bf16 h bitsLt_bf16_f32)
        (truncf .bf16 (shapeCast S128x128 (extractStridedSlice S1x128x128 ![0, 0, 0] (k2_pay7 Was) slices_S2x128x128_o0_0_0_S1x128x128) shapeCasts_S1x128x128_S128x128) bitsLt_bf16_f32)
        (constant S4096x128 .f32 0x00000000#32))
      (broadcastTo S4096x128 (shapeCast S1x128 (shapeCast S128 (extractStridedSlice S1x128 ![0, 0] (k2_pay8 bas) slices_S2x128_o0_0_S1x128) shapeCasts_S1x128_S128) shapeCasts_S128_S1x128) broadcasts_S1x128_S4096x128))
    (broadcast S4096x128 (Scalar.ofBits .f32 0x00000000#32))) bitsLt_bf16_f32

/-- `k2_pay9` is `tail78` of `k2_pay6`'s value. -/
theorem pay9_eq (v0 : Vec Ideal S4096x128 .f32) (v19 : FVec Ideal S4096x128 .f32) (v22 : FVec Ideal S2x128x128 .f32) (v23 : FVec Ideal S2x128 .f32)
    (v36 : FVec Ideal S4096x128 .bf16) (v50 : Vec Ideal S128x128 .f32) (v53 : Vec Ideal S128 .f32) (Was : Vec Ideal S2x2x128x128 .f32) (bas : Vec Ideal S2x2x128 .f32) :
    k2_pay9 (F := Ideal) v0 v19 v22 v23 v36 v50 v53 Was bas = tail78 (k2_pay6 v0 v19 v22 v23 v36 v50 v53) Was bas := by
  rfl

/-- The plain product into the zero splat, read at an index: the sum over the contracted coordinate. -/
private theorem mm_apply {φ₁ φ₂ : FTy} (A : FVec Ideal S4096x128 φ₁) (B : FVec Ideal S128x128 φ₂) (p : Fin 4096) (q : Fin 128) :
    matmul dot_S4096x128_S128x128_S4096x128_1_0_0_1_n_n none A B (constant S4096x128 .f32 0x00000000#32) (ix2 p q)
      = ∑ k : Fin 128, A (ix2 p k) * B (ix2 k q) := by
  rw [matmul_zero_eq_dotGeneral]
  exact StackMember.dotGeneral_plain_apply none A B p q

/-- A vector laid along every row, read at (p, q), is its entry q. -/
private theorem bias_apply {α : Type} (b : S128.Idx → α) (p : Fin 4096) (q : Fin 128) :
    broadcastTo S4096x128 (shapeCast S1x128 b shapeCasts_S128_S1x128) broadcasts_S1x128_S4096x128 (ix2 p q) = b (ix1 q) := by
  refine (broadcastTo_apply _ broadcasts_S1x128_S4096x128 (ix2 p q) (ix2 (0 : Fin 1) q) ?_).trans ?_
  · intro a
    match a with
    | ⟨0, _⟩ => rfl
    | ⟨1, _⟩ => rfl
  · refine shapeCast_apply b shapeCasts_S128_S1x128 (ix2 (0 : Fin 1) q) (ix1 q) ?_
    rw [Shape.rowMajor_val_two, Shape.rowMajor_val_one]
    show q.val = 0 * 128 + q.val
    omega

/-- Row r of a two-row matrix, as a vector. -/
private theorem brow_apply {α : Type} (r : Nat) (hr : r < 2) (v : S2x128.Idx → α) (hs : S2x128.Slices ![r, 0] S1x128) (q : Fin 128) :
    shapeCast S128 (extractStridedSlice S1x128 ![r, 0] v hs) shapeCasts_S1x128_S128 (ix1 q) = v (ix2 (⟨r, hr⟩ : Fin 2) q) := by
  refine (shapeCast_apply _ shapeCasts_S1x128_S128 (ix1 q) (ix2 (0 : Fin 1) q) ?_).trans ?_
  · rw [Shape.rowMajor_val_two, Shape.rowMajor_val_one]
    show 0 * 128 + q.val = q.val
    omega
  · refine extractStridedSlice_apply ![r, 0] v hs (ix2 (0 : Fin 1) q) (ix2 (⟨r, hr⟩ : Fin 2) q) ?_
    intro a
    match a with
    | ⟨0, _⟩ => rfl
    | ⟨1, _⟩ => show q.val = 0 + q.val; omega

/-- Matrix r of a stack of two matrices. -/
private theorem wmat_apply {α : Type} (r : Nat) (hr : r < 2) (V : S2x128x128.Idx → α) (hs : S2x128x128.Slices ![r, 0, 0] S1x128x128)
    (k q : Fin 128) :
    shapeCast S128x128 (extractStridedSlice S1x128x128 ![r, 0, 0] V hs) shapeCasts_S1x128x128_S128x128 (ix2 k q)
      = V (ix3 (⟨r, hr⟩ : Fin 2) k q) := by
  refine (shapeCast_apply _ shapeCasts_S1x128x128_S128x128 (ix2 k q) (ix3 (0 : Fin 1) k q) ?_).trans ?_
  · rw [Shape.rowMajor_val_three, Shape.rowMajor_val_two]
    show (0 * 128 + k.val) * 128 + q.val = k.val * 128 + q.val
    omega
  · refine extractStridedSlice_apply ![r, 0, 0] V hs (ix3 (0 : Fin 1) k q) (ix3 (⟨r, hr⟩ : Fin 2) k q) ?_
    intro a
    match a with
    | ⟨0, _⟩ => rfl
    | ⟨1, _⟩ => show k.val = 0 + k.val; omega
    | ⟨2, _⟩ => show q.val = 0 + q.val; omega

/-- Stack r of a stack of two stacks of two matrices. -/
private theorem wstack_apply {α : Type} (r : Nat) (hr : r < 2) (W : S2x2x128x128.Idx → α) (hs : S2x2x128x128.Slices ![r, 0, 0, 0] S1x2x128x128)
    (a : Fin 2) (k q : Fin 128) :
    shapeCast S2x128x128 (extractStridedSlice S1x2x128x128 ![r, 0, 0, 0] W hs) shapeCasts_S1x2x128x128_S2x128x128 (ix3 a k q)
      = W (ix4 (⟨r, hr⟩ : Fin 2) a k q) := by
  refine (shapeCast_apply _ shapeCasts_S1x2x128x128_S2x128x128 (ix3 a k q) (ix4 (0 : Fin 1) a k q) ?_).trans ?_
  · rw [Shape.rowMajor_val_four, Shape.rowMajor_val_three]
    show ((0 * 2 + a.val) * 128 + k.val) * 128 + q.val = (a.val * 128 + k.val) * 128 + q.val
    omega
  · refine extractStridedSlice_apply ![r, 0, 0, 0] W hs (ix4 (0 : Fin 1) a k q) (ix4 (⟨r, hr⟩ : Fin 2) a k q) ?_
    intro c
    match c with
    | ⟨0, _⟩ => rfl
    | ⟨1, _⟩ => show a.val = 0 + a.val; omega
    | ⟨2, _⟩ => show k.val = 0 + k.val; omega
    | ⟨3, _⟩ => show q.val = 0 + q.val; omega

/-- Stack r of a stack of two stacks of two vectors. -/
private theorem bstack_apply {α : Type} (r : Nat) (hr : r < 2) (b : S2x2x128.Idx → α) (hs : S2x2x128.Slices ![r, 0, 0] S1x2x128)
    (a : Fin 2) (q : Fin 128) :
    shapeCast S2x128 (extractStridedSlice S1x2x128 ![r, 0, 0] b hs) shapeCasts_S1x2x128_S2x128 (ix2 a q)
      = b (ix3 (⟨r, hr⟩ : Fin 2) a q) := by
  refine (shapeCast_apply _ shapeCasts_S1x2x128_S2x128 (ix2 a q) (ix3 (0 : Fin 1) a q) ?_).trans ?_
  · rw [Shape.rowMajor_val_three, Shape.rowMajor_val_two]
    show (0 * 2 + a.val) * 128 + q.val = a.val * 128 + q.val
    omega
  · refine extractStridedSlice_apply ![r, 0, 0] b hs (ix3 (0 : Fin 1) a q) (ix3 (⟨r, hr⟩ : Fin 2) a q) ?_
    intro c
    match c with
    | ⟨0, _⟩ => rfl
    | ⟨1, _⟩ => show a.val = 0 + a.val; omega
    | ⟨2, _⟩ => show q.val = 0 + q.val; omega

/-- One clipped dense layer on a whole block: the product with the weights, the bias along the rows, clipped at zero. -/
private def denseArr (x : FVec Ideal S4096x128 .bf16) (W : FVec Ideal S128x128 .f32) (b : FVec Ideal S128 .f32) : FVec Ideal S4096x128 .f32 :=
  maximumf (addf (matmul dot_S4096x128_S128x128_S4096x128_1_0_0_1_n_n none x (truncf .bf16 W bitsLt_bf16_f32) (constant S4096x128 .f32 0x00000000#32))
      (broadcastTo S4096x128 (shapeCast S1x128 b shapeCasts_S128_S1x128) broadcasts_S1x128_S4096x128))
    (broadcast S4096x128 (Scalar.ofBits .f32 0x00000000#32))

/-- The layer at (p, q) is the row-level layer of row p. -/
private theorem denseArr_apply (x : FVec Ideal S4096x128 .bf16) (W : FVec Ideal S128x128 .f32) (b : FVec Ideal S128 .f32)
    (p : Fin 4096) (q : Fin 128) :
    denseArr x W b (ix2 p q) = relu (lin (row x p) (mat W) (vec b)) q := by
  unfold denseArr
  rw [maximumf_apply, addf_apply, mm_apply, bias_apply, broadcast_apply]
  show max (∑ k : Fin 128, x (ix2 p k) * W (ix2 k q) + b (ix1 q)) (Ideal.ofBits .f32 0x00000000#32)
      = max (∑ k : Fin 128, x (ix2 p k) * W (ix2 k q) + b (ix1 q)) 0
  rw [Ideal.ofBits_zero_f32]

/-- One residual block on a whole block. -/
private def blockArr (x : FVec Ideal S4096x128 .f32) (Wa Wb : FVec Ideal S128x128 .f32) (ba bb : FVec Ideal S128 .f32) : FVec Ideal S4096x128 .f32 :=
  addf x (denseArr (truncf .bf16 (denseArr (truncf .bf16 x bitsLt_bf16_f32) Wa ba) bitsLt_bf16_f32) Wb bb)

/-- The residual block at (p, q) is the row-level block of row p. -/
private theorem blockArr_apply (x : FVec Ideal S4096x128 .f32) (Wa Wb : FVec Ideal S128x128 .f32) (ba bb : FVec Ideal S128 .f32)
    (p : Fin 4096) (q : Fin 128) :
    blockArr x Wa Wb ba bb (ix2 p q) = res (row x p) (mat Wa) (mat Wb) (vec ba) (vec bb) q := by
  unfold blockArr
  rw [addf_apply, denseArr_apply]
  have hrow : row (truncf .bf16 (denseArr (truncf .bf16 x bitsLt_bf16_f32) Wa ba) bitsLt_bf16_f32) p
      = relu (lin (row x p) (mat Wa) (vec ba)) := by
    funext k
    show denseArr (truncf .bf16 x bitsLt_bf16_f32) Wa ba (ix2 p k) = _
    rw [denseArr_apply]
    rfl
  rw [hrow]
  rfl

/-- The four weight matrices and the four bias vectors of the two residual blocks, as the payloads slice them
    out of the stacks. -/
private def W00 (Was : Vec Ideal S2x2x128x128 .f32) : FVec Ideal S128x128 .f32 :=
  shapeCast S128x128 (extractStridedSlice S1x128x128 ![0, 0, 0] (k2_pay7 Was) slices_S2x128x128_o0_0_0_S1x128x128) shapeCasts_S1x128x128_S128x128
private def W1 (Was : Vec Ideal S2x2x128x128 .f32) : FVec Ideal S2x128x128 .f32 :=
  shapeCast S2x128x128 (extractStridedSlice S1x2x128x128 ![1, 0, 0, 0] Was slices_S2x2x128x128_o1_0_0_0_S1x2x128x128) shapeCasts_S1x2x128x128_S2x128x128
private def W10 (Was : Vec Ideal S2x2x128x128 .f32) : FVec Ideal S128x128 .f32 :=
  shapeCast S128x128 (extractStridedSlice S1x128x128 ![0, 0, 0] (W1 Was) slices_S2x128x128_o0_0_0_S1x128x128) shapeCasts_S1x128x128_S128x128
private def W11 (Was : Vec Ideal S2x2x128x128 .f32) : FVec Ideal S128x128 .f32 :=
  shapeCast S128x128 (extractStridedSlice S1x128x128 ![1, 0, 0] (W1 Was) slices_S2x128x128_o1_0_0_S1x128x128) shapeCasts_S1x128x128_S128x128
private def b00 (bas : Vec Ideal S2x2x128 .f32) : FVec Ideal S128 .f32 :=
  shapeCast S128 (extractStridedSlice S1x128 ![0, 0] (k2_pay8 bas) slices_S2x128_o0_0_S1x128) shapeCasts_S1x128_S128
private def b01 (bas : Vec Ideal S2x2x128 .f32) : FVec Ideal S128 .f32 :=
  shapeCast S128 (extractStridedSlice S1x128 ![1, 0] (k2_pay8 bas) slices_S2x128_o1_0_S1x128) shapeCasts_S1x128_S128
private def b1 (bas : Vec Ideal S2x2x128 .f32) : FVec Ideal S2x128 .f32 :=
  shapeCast S2x128 (extractStridedSlice S1x2x128 ![1, 0, 0] bas slices_S2x2x128_o1_0_0_S1x2x128) shapeCasts_S1x2x128_S2x128
private def b10 (bas : Vec Ideal S2x2x128 .f32) : FVec Ideal S128 .f32 :=
  shapeCast S128 (extractStridedSlice S1x128 ![0, 0] (b1 bas) slices_S2x128_o0_0_S1x128) shapeCasts_S1x128_S128
private def b11 (bas : Vec Ideal S2x2x128 .f32) : FVec Ideal S128 .f32 :=
  shapeCast S128 (extractStridedSlice S1x128 ![1, 0] (b1 bas) slices_S2x128_o1_0_S1x128) shapeCasts_S1x128_S128

/-- The stored payload is two residual blocks, one after the other. -/
private theorem pay1_eq_blocks (h : FVec Ideal S4096x128 .f32) (Was : Vec Ideal S2x2x128x128 .f32) (bas : Vec Ideal S2x2x128 .f32) :
    k2_pay1 (F := Ideal) h Was bas (k2_pay8 bas) (tail78 h Was bas) (k2_pay10 Was)
      = blockArr (blockArr h (W00 Was) (k2_pay10 Was) (b00 bas) (b01 bas)) (W10 Was) (W11 Was) (b10 bas) (b11 bas) := by
  rfl

private theorem W00_eq (Was : Vec Ideal S2x2x128x128 .f32) : mat (W00 Was) = mat4 Was 0 0 := by
  funext k q
  show W00 Was (ix2 k q) = Was (ix4 0 0 k q)
  unfold W00 k2_pay7
  rw [wmat_apply 0 (by omega), wstack_apply 0 (by omega)]
  rfl
private theorem W01_eq (Was : Vec Ideal S2x2x128x128 .f32) : mat (k2_pay10 Was) = mat4 Was 0 1 := by
  funext k q
  show k2_pay10 Was (ix2 k q) = Was (ix4 0 1 k q)
  unfold k2_pay10 k2_pay7
  rw [wmat_apply 1 (by omega), wstack_apply 0 (by omega)]
  rfl
private theorem W10_eq (Was : Vec Ideal S2x2x128x128 .f32) : mat (W10 Was) = mat4 Was 1 0 := by
  funext k q
  show W10 Was (ix2 k q) = Was (ix4 1 0 k q)
  unfold W10 W1
  rw [wmat_apply 0 (by omega), wstack_apply 1 (by omega)]
  rfl
private theorem W11_eq (Was : Vec Ideal S2x2x128x128 .f32) : mat (W11 Was) = mat4 Was 1 1 := by
  funext k q
  show W11 Was (ix2 k q) = Was (ix4 1 1 k q)
  unfold W11 W1
  rw [wmat_apply 1 (by omega), wstack_apply 1 (by omega)]
  rfl
private theorem b00_eq (bas : Vec Ideal S2x2x128 .f32) : vec (b00 bas) = vec3 bas 0 0 := by
  funext q
  show b00 bas (ix1 q) = bas (ix3 0 0 q)
  unfold b00 k2_pay8
  rw [brow_apply 0 (by omega), bstack_apply 0 (by omega)]
  rfl
private theorem b01_eq (bas : Vec Ideal S2x2x128 .f32) : vec (b01 bas) = vec3 bas 0 1 := by
  funext q
  show b01 bas (ix1 q) = bas (ix3 0 1 q)
  unfold b01 k2_pay8
  rw [brow_apply 1 (by omega), bstack_apply 0 (by omega)]
  rfl
private theorem b10_eq (bas : Vec Ideal S2x2x128 .f32) : vec (b10 bas) = vec3 bas 1 0 := by
  funext q
  show b10 bas (ix1 q) = bas (ix3 1 0 q)
  unfold b10 b1
  rw [brow_apply 0 (by omega), bstack_apply 1 (by omega)]
  rfl
private theorem b11_eq (bas : Vec Ideal S2x2x128 .f32) : vec (b11 bas) = vec3 bas 1 1 := by
  funext q
  show b11 bas (ix1 q) = bas (ix3 1 1 q)
  unfold b11 b1
  rw [brow_apply 1 (by omega), bstack_apply 1 (by omega)]
  rfl

/-- The stored value at (p, q), from any value `h` after the skip connection. -/
theorem pay2_tail_apply (h : FVec Ideal S4096x128 .f32) (Was : Vec Ideal S2x2x128x128 .f32) (bas : Vec Ideal S2x2x128 .f32)
    (p : Fin 4096) (q : Fin 128) :
    k2_pay1 (F := Ideal) h Was bas (k2_pay8 bas) (tail78 h Was bas) (k2_pay10 Was) (ix2 p q)
      = tailRow (row h p) Was bas q := by
  rw [pay1_eq_blocks, blockArr_apply]
  have hrow : row (blockArr h (W00 Was) (k2_pay10 Was) (b00 bas) (b01 bas)) p
      = res (row h p) (mat4 Was 0 0) (mat4 Was 0 1) (vec3 bas 0 0) (vec3 bas 0 1) := by
    funext k
    show blockArr h (W00 Was) (k2_pay10 Was) (b00 bas) (b01 bas) (ix2 p k) = _
    rw [blockArr_apply, W00_eq, W01_eq, b00_eq, b01_eq]
  rw [hrow, W10_eq, W11_eq, b10_eq, b11_eq]
  rfl

end Cert.KernelIdeal.Hand

end
-- ==== Proof.KernelValue.lean ====
/- The kernel program's result as one function of its arguments. Each kernel's array is its specification's array
   function of the arrays it finds (the three regions' block-to-array lemmas over the bodies' stored values); the host
   stretches between them are the two folded basis matrices and the triplet stage; composed, the result array is
   `Spec.hArr` of `Hand.midK` of the first two kernels' arrays. -/
import proofs.«431230_j19146964206349_3_alg».proof.Proof.KernelHost
import proofs.«431230_j19146964206349_3_alg».proof.Proof.Region0
import proofs.«431230_j19146964206349_3_alg».proof.Proof.Region1
import proofs.«431230_j19146964206349_3_alg».proof.Proof.Region2
import proofs.«431230_j19146964206349_3_alg».proof.Proof.Pay01
import proofs.«431230_j19146964206349_3_alg».proof.Proof.Pay2Mid
import proofs.«431230_j19146964206349_3_alg».proof.Proof.Pay2Tail

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Spec

/-- The last kernel's stored value at row p, column q of its block: the second half of the output row applied to
    the first. -/
theorem pay2_apply (agg : Vec Ideal S4096x64 .f32) (x : Vec Ideal S4096x128 .f32) (Wji : Vec Ideal S128x128 .f32)
    (bji : Vec Ideal S128 .f32) (Wup : Vec Ideal S64x128 .f32) (Wbs : Vec Ideal S1x2x128x128 .f32) (bbs : Vec Ideal S1x2x128 .f32)
    (Wlin : Vec Ideal S128x128 .f32) (blin : Vec Ideal S128 .f32) (Was : Vec Ideal S2x2x128x128 .f32) (bas : Vec Ideal S2x2x128 .f32)
    (p : Fin 4096) (q : Fin 128) :
    k2_pay1 (F := Ideal) (k2_pay6 x (k2_pay2 x Wji bji agg Wup) (k2_pay3 Wbs) (k2_pay4 bbs) (k2_pay5 x Wji bji agg Wup Wbs bbs) Wlin blin)
        Was bas (k2_pay8 bas)
        (k2_pay9 x (k2_pay2 x Wji bji agg Wup) (k2_pay3 Wbs) (k2_pay4 bbs) (k2_pay5 x Wji bji agg Wup Wbs bbs) Wlin blin Was bas)
        (k2_pay10 Was) (ix2 p q)
      = hRow (row agg p) (row x p) (mat Wji) (vec bji) (mat Wup) Wbs bbs (mat Wlin) (vec blin) Was bas q := by
  rw [pay9_eq, pay2_tail_apply]
  have e : row (k2_pay6 (F := Ideal) x (k2_pay2 x Wji bji agg Wup) (k2_pay3 Wbs) (k2_pay4 bbs) (k2_pay5 x Wji bji agg Wup Wbs bbs) Wlin blin) p
      = hMidRow (row agg p) (row x p) (mat Wji) (vec bji) (mat Wup) Wbs bbs (mat Wlin) (vec blin) :=
    funext fun k => pay2_mid_apply agg x Wji bji Wup Wbs bbs Wlin blin p k
  rw [e]
  rfl

/-- The host's product of the two radial basis maps is their matrix product. -/
theorem dot_6x8x128 (A : FVec Ideal S6x8 .f32) (B : FVec Ideal S8x128 .f32) :
    Host.dotGeneral (F := Ideal) (φ₁ := .f32) (φ₂ := .f32) dot_S6x8_S8x128_S6x128_1_0_0_1_n_n none A B = mmArr A B := by
  funext i
  obtain ⟨p, q, rfl⟩ : ∃ (p : Fin 6) (q : Fin 128), i = ix2 p q := ⟨i 0, i 1, eq_ix2 i⟩
  rw [show dot_S6x8_S8x128_S6x128_1_0_0_1_n_n = DotDims.plain 6 8 128 from rfl]
  exact StackMember.dotGeneral_plain_apply none A B p q

/-- The host's product of the two spherical basis maps is their matrix product. -/
theorem dot_42x8x64 (A : FVec Ideal S42x8 .f32) (B : FVec Ideal S8x64 .f32) :
    Host.dotGeneral (F := Ideal) (φ₁ := .f32) (φ₂ := .f32) dot_S42x8_S8x64_S42x64_1_0_0_1_n_n none A B = mmArr A B := by
  funext i
  obtain ⟨p, q, rfl⟩ : ∃ (p : Fin 42) (q : Fin 64), i = ix2 p q := ⟨i 0, i 1, eq_ix2 i⟩
  rw [show dot_S42x8_S8x64_S42x64_1_0_0_1_n_n = DotDims.plain 42 8 64 from rfl]
  exact StackMember.dotGeneral_plain_apply none A B p q

variable (m : (ℓ : Loc nD τ sig) → Buf (Elt Ideal) ℓ) (ρ : Dev nD → PrngReg)

/-- The message array the first kernel leaves, over the arguments. -/
theorem arr0_args (c : Dev nD) : (dat0 (V1 m ρ) c).arrAt 6 cfg0.N
    = xkdArr (m ((c : Thread nD τ).loc main_arg0)) (mmArr (m ((c : Thread nD τ).loc main_arg1)) (mmArr (m ((c : Thread nD τ).loc main_arg5)) (m ((c : Thread nD τ).loc main_arg6)))) (m ((c : Thread nD τ).loc main_arg9)) (m ((c : Thread nD τ).loc main_arg10)) (m ((c : Thread nD τ).loc main_arg13)) := by
  rw [arr0_of (V1 m ρ) pay0_apply c, V1_arg0, V1_arg1, V1_v0, V1_arg9, V1_arg10, V1_arg13, dot_6x8x128]

/-- The basis array the second kernel leaves, over the arguments. -/
theorem arr1_args (c : Dev nD) : (dat1 (V2 m ρ) c).arrAt 2 cfg1.N
    = mmArr (m ((c : Thread nD τ).loc main_arg2)) (mmArr (m ((c : Thread nD τ).loc main_arg7)) (m ((c : Thread nD τ).loc main_arg8))) := by
  rw [arr1_of (V2 m ρ) pay1_apply c, V2_arg2, V2_v1, dot_42x8x64]

/-- THE KERNEL PROGRAM'S RESULT, over the arguments. -/
theorem result_eq (c : Dev nD) : (dat2 (V5 m ρ) c).arrAt 11 cfg2.N
    = hArr (midK (xkdArr (m ((c : Thread nD τ).loc main_arg0)) (mmArr (m ((c : Thread nD τ).loc main_arg1)) (mmArr (m ((c : Thread nD τ).loc main_arg5)) (m ((c : Thread nD τ).loc main_arg6)))) (m ((c : Thread nD τ).loc main_arg9)) (m ((c : Thread nD τ).loc main_arg10)) (m ((c : Thread nD τ).loc main_arg13)))
          (mmArr (m ((c : Thread nD τ).loc main_arg2)) (mmArr (m ((c : Thread nD τ).loc main_arg7)) (m ((c : Thread nD τ).loc main_arg8)))) (m ((c : Thread nD τ).loc main_arg3)) (m ((c : Thread nD τ).loc main_arg4)))
        (m ((c : Thread nD τ).loc main_arg0)) (m ((c : Thread nD τ).loc main_arg11)) (m ((c : Thread nD τ).loc main_arg12)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [arr2_of (V5 m ρ) pay2_apply c, V5_v9, arr0_args, arr1_args, V5_main_arg0, V5_main_arg11, V5_main_arg12, V5_main_arg14,
    V5_main_arg15, V5_main_arg16, V5_main_arg17, V5_main_arg18, V5_main_arg19, V5_main_arg20]

end Cert.KernelIdeal.Hand

end
-- ==== Proof.RefA.lean ====
/- The reference's first stages as arrays: the radial and spherical basis rows through their two linear maps one
   after the other, and every edge's message row. -/
import proofs.«431230_j19146964206349_3_alg».proof.Proof.Gen.ReferenceIdeal.Read
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Idealize.ShloMosaic.ValueIdx Cert.Spec

/-- A rank-2 index whose coordinates have the values of `a` and `b` is `ix2 a b`. -/
private theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- The radial basis through its two maps: a product of a product. -/
theorem v1_eq (x1 : (⟨S131072x6, .f32⟩ : BufTy).Contents (Elt Ideal)) (x5 : (⟨S6x8, .f32⟩ : BufTy).Contents (Elt Ideal)) (x6 : (⟨S8x128, .f32⟩ : BufTy).Contents (Elt Ideal)) :
    val_main_v1 (F := Ideal) x1 x5 x6 = mmArr (mmArr x1 x5) x6 := by
  funext i
  obtain ⟨r, q, rfl⟩ : ∃ (r : Fin 131072) (q : Fin 128), i = ix2 r q := ⟨i 0, i 1, eq_ix2 i⟩
  rw [val_main_v1_apply]
  show _ = ∑ k : Fin 8, (∑ c : Fin 6, x1 (ix2 r c) * x5 (ix2 c k)) * x6 (ix2 k q)
  refine Finset.sum_congr rfl fun k _ => ?_
  rw [idx2_eq (lidx_main_v1 (ix2 r q) k) r k rfl rfl, idx2_eq (ridx_main_v1 (ix2 r q) k) k q rfl rfl, val_main_v0_apply]
  refine congrArg (· * _) (Finset.sum_congr rfl fun c _ => ?_)
  rw [idx2_eq (lidx_main_v0 (ix2 r k) c) r c rfl rfl, idx2_eq (ridx_main_v0 (ix2 r k) c) c k rfl rfl]

/-- The spherical basis through its two maps. -/
theorem v3_eq (x2 : (⟨S1048576x42, .f32⟩ : BufTy).Contents (Elt Ideal)) (x7 : (⟨S42x8, .f32⟩ : BufTy).Contents (Elt Ideal)) (x8 : (⟨S8x64, .f32⟩ : BufTy).Contents (Elt Ideal)) :
    val_main_v3 (F := Ideal) x2 x7 x8 = mmArr (mmArr x2 x7) x8 := by
  funext i
  obtain ⟨r, q, rfl⟩ : ∃ (r : Fin 1048576) (q : Fin 64), i = ix2 r q := ⟨i 0, i 1, eq_ix2 i⟩
  rw [val_main_v3_apply]
  show _ = ∑ k : Fin 8, (∑ c : Fin 42, x2 (ix2 r c) * x7 (ix2 c k)) * x8 (ix2 k q)
  refine Finset.sum_congr rfl fun k _ => ?_
  rw [idx2_eq (lidx_main_v3 (ix2 r q) k) r k rfl rfl, idx2_eq (ridx_main_v3 (ix2 r q) k) k q rfl rfl, val_main_v2_apply]
  refine congrArg (· * _) (Finset.sum_congr rfl fun c _ => ?_)
  rw [idx2_eq (lidx_main_v2 (ix2 r k) c) r c rfl rfl, idx2_eq (ridx_main_v2 (ix2 r k) c) c k rfl rfl]

/-- The clipping constant of the hidden-row stage is zero. -/
private theorem call1_zero (i : S131072x128.Idx) : val_main_call1_v0 (F := Ideal) i = 0 := by
  rw [val_main_call1_v0_apply, val_main_call1_cst_apply]
  exact Ideal.ofBits_zero_f32

/-- The clipping constant of the message stage is zero. -/
private theorem call2_zero (i : S131072x64.Idx) : val_main_call2_v0 (F := Ideal) i = 0 := by
  rw [val_main_call2_v0_apply, val_main_call2_cst_apply]
  exact Ideal.ofBits_zero_f32

/-- The broadcast bias reads the bias vector at the column. -/
private theorem v11_at (x10 : (⟨S128, .f32⟩ : BufTy).Contents (Elt Ideal)) (r : Fin 131072) (k : Fin 128) :
    val_main_v11 (F := Ideal) x10 (ix2 r k) = x10 (ix1 k) := by
  rw [val_main_v11_apply, val_main_v10_apply]
  refine congrArg x10 ?_
  funext d
  match d with
  | ⟨0, _⟩ => rfl

/-- The hidden row through its dense layer, before the bias. -/
private theorem v9_at (x0 : (⟨S131072x128, .f32⟩ : BufTy).Contents (Elt Ideal)) (x9 : (⟨S128x128, .f32⟩ : BufTy).Contents (Elt Ideal))
    (r : Fin 131072) (k : Fin 128) :
    val_main_v9 (F := Ideal) x0 x9 (ix2 r k) = mm (row x0 r) (mat x9) k := by
  rw [val_main_v9_apply]
  show _ = ∑ c : Fin 128, x0 (ix2 r c) * x9 (ix2 c k)
  refine Finset.sum_congr rfl fun c _ => ?_
  rw [idx2_eq (lidx_main_v9 (ix2 r k) c) r c rfl rfl, idx2_eq (ridx_main_v9 (ix2 r k) c) c k rfl rfl]

/-- The clipped dense layer of the hidden row. -/
private theorem v13_at (x0 : (⟨S131072x128, .f32⟩ : BufTy).Contents (Elt Ideal)) (x9 : (⟨S128x128, .f32⟩ : BufTy).Contents (Elt Ideal))
    (x10 : (⟨S128, .f32⟩ : BufTy).Contents (Elt Ideal)) (r : Fin 131072) (k : Fin 128) :
    val_main_v13 (F := Ideal) x0 x9 x10 (ix2 r k) = relu (lin (row x0 r) (mat x9) (vec x10)) k := by
  rw [val_main_v13_apply, val_main_v12_apply, call1_zero, v9_at, v11_at]
  rfl

/-- Every edge's message row, over the transformed radial basis. -/
theorem v16_eq (x0 : (⟨S131072x128, .f32⟩ : BufTy).Contents (Elt Ideal)) (x1 : (⟨S131072x6, .f32⟩ : BufTy).Contents (Elt Ideal)) (x5 : (⟨S6x8, .f32⟩ : BufTy).Contents (Elt Ideal)) (x6 : (⟨S8x128, .f32⟩ : BufTy).Contents (Elt Ideal)) (x9 : (⟨S128x128, .f32⟩ : BufTy).Contents (Elt Ideal)) (x10 : (⟨S128, .f32⟩ : BufTy).Contents (Elt Ideal)) (x13 : (⟨S128x64, .f32⟩ : BufTy).Contents (Elt Ideal)) :
    val_main_v16 (F := Ideal) x0 x1 x5 x6 x9 x10 x13 = xkdArr x0 (val_main_v1 (F := Ideal) x1 x5 x6) x9 x10 x13 := by
  funext i
  obtain ⟨r, q, rfl⟩ : ∃ (r : Fin 131072) (q : Fin 64), i = ix2 r q := ⟨i 0, i 1, eq_ix2 i⟩
  rw [val_main_v16_apply, call2_zero, val_main_v15_apply]
  show max _ 0 = max (∑ k : Fin 128, (relu (lin (row x0 r) (mat x9) (vec x10)) k * val_main_v1 (F := Ideal) x1 x5 x6 (ix2 r k)) * x13 (ix2 k q)) 0
  refine congrArg (max · 0) (Finset.sum_congr rfl fun k _ => ?_)
  rw [idx2_eq (lidx_main_v15 (ix2 r q) k) r k rfl rfl, idx2_eq (ridx_main_v15 (ix2 r q) k) k q rfl rfl,
    val_main_v14_apply, v13_at]
  rfl

end Cert.ReferenceIdeal.Hand

end
-- ==== Proof.RefB1.lean ====
/- The reference's stages from the aggregated array to the skip connection: row by row `Spec.hMidRow`. -/
import proofs.«431230_j19146964206349_3_alg».proof.Proof.Gen.ReferenceIdeal.Read
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Idealize.ShloMosaic.ValueIdx Cert.Spec

/- The aggregated array is carried as one opaque function: nothing here opens it. -/
attribute [local irreducible] val_main_v27

/-! ## The float operations at the ideal instance on atoms, and the row functions opened one step -/

/-- The ideal sum of two extended reals is their sum. -/
private theorem add_eq (a b : EReal) : FloatOps.addf (F := Ideal) (φ := .f32) a b = a + b := rfl
/-- The ideal maximum against zero is the maximum against zero. -/
private theorem max_eq (a : EReal) : FloatOps.maximumf (F := Ideal) (φ := .f32) a (0 : EReal) = max a 0 := rfl
/-- Clipping read at a column. -/
private theorem relu_apply {N : Nat} (v : Fin N → EReal) (q : Fin N) : relu v q = max (v q) 0 := rfl
/-- A dense layer read at a column. -/
private theorem lin_apply {K N : Nat} (v : Fin K → EReal) (W : Fin K → Fin N → EReal) (b : Fin N → EReal) (q : Fin N) :
    lin v W b q = mm v W q + b q := rfl
/-- A residual block read at a column. -/
private theorem res_apply {N : Nat} (h : Fin N → EReal) (Wa Wb : Fin N → Fin N → EReal) (ba bb : Fin N → EReal) (q : Fin N) :
    res h Wa Wb ba bb q = h q + relu (lin (relu (lin h Wa ba)) Wb bb) q := rfl

/-- A row's entry. -/
private theorem row_apply {R C : Nat} (X : Arr2 R C) (r : Fin R) (k : Fin C) : row X r k = X (ix2 r k) := rfl
/-- A matrix's entry. -/
private theorem mat_apply {K N : Nat} (W : Arr2 K N) (k : Fin K) (q : Fin N) : mat W k q = W (ix2 k q) := rfl

/-- A sum of products whose factors are, term by term, a row's entries and a matrix's column is the row times the
    matrix at that column. -/
private theorem sum_mul_eq_mm {K N : Nat} (v : Fin K → EReal) (W : Fin K → Fin N → EReal) (q : Fin N)
    (f g : Fin K → EReal) (hf : ∀ k, f k = v k) (hg : ∀ k, g k = W k q) :
    ∑ k : Fin K, f k * g k = mm v W q := by
  refine Finset.sum_congr rfl fun k _ => ?_
  rw [hf, hg]

/-- The row entering the residual block: the clipped first dense layer of the hidden row plus the clipped image of
    the aggregated row. -/
private def inRow (agg : Arr2 131072 64) (x : Arr2 131072 128) (Wji : Arr2 128 128) (bji : Arr1 128) (Wup : Arr2 64 128)
    (r : Fin 131072) : Fin 128 → EReal :=
  fun q => relu (lin (row x r) (mat Wji) (vec bji)) q + relu (mm (row agg r) (mat Wup)) q

/-- That row read at a column. -/
private theorem inRow_apply (agg : Arr2 131072 64) (x : Arr2 131072 128) (Wji : Arr2 128 128) (bji : Arr1 128)
    (Wup : Arr2 64 128) (r : Fin 131072) (q : Fin 128) :
    inRow agg x Wji bji Wup r q = relu (lin (row x r) (mat Wji) (vec bji)) q + relu (mm (row agg r) (mat Wup)) q := rfl

/-- The specification's array read at coordinates is its row function on the two arrays' rows. -/
private theorem hMidArr_apply (agg : Arr2 131072 64) (x : Arr2 131072 128) (Wji : Arr2 128 128) (bji : Arr1 128)
    (Wup : Arr2 64 128) (Wbs : Arr4 1 2 128 128) (bbs : Arr3 1 2 128) (Wlin : Arr2 128 128) (blin : Arr1 128)
    (r : Fin 131072) (q : Fin 128) :
    hMidArr agg x Wji bji Wup Wbs bbs Wlin blin (ix2 r q)
      = hMidRow (row agg r) (row x r) (mat Wji) (vec bji) (mat Wup) Wbs bbs (mat Wlin) (vec blin) q := rfl

/-- The specification's row function, opened one step: the last clipped dense layer of the residual block's output,
    plus the hidden row's entry. -/
private theorem hMidRow_apply (agg : Arr2 131072 64) (x : Arr2 131072 128) (Wji : Arr2 128 128) (bji : Arr1 128)
    (Wup : Arr2 64 128) (Wbs : Arr4 1 2 128 128) (bbs : Arr3 1 2 128) (Wlin : Arr2 128 128) (blin : Arr1 128)
    (r : Fin 131072) (q : Fin 128) :
    hMidRow (row agg r) (row x r) (mat Wji) (vec bji) (mat Wup) Wbs bbs (mat Wlin) (vec blin) q
      = relu (lin (res (inRow agg x Wji bji Wup r) (mat4 Wbs 0 0) (mat4 Wbs 0 1) (vec3 bbs 0 0) (vec3 bbs 0 1))
          (mat Wlin) (vec blin)) q + x (ix2 r q) := rfl

/-! ## The leaves: zero splats, dot index functions, biases and weight slices read at coordinates -/

/-- The zero splat of the clip of the first dense layer reads zero. -/
private theorem zero0 (i : S131072x128.Idx) : val_main_call0_v0 (F := Ideal) i = (0 : EReal) := by
  rw [val_main_call0_v0_apply, val_main_call0_cst_apply]; exact Ideal.ofBits_zero_f32
/-- The zero splat of the clip of the aggregated row's image reads zero. -/
private theorem zero3 (i : S131072x128.Idx) : val_main_call3_v0 (F := Ideal) i = (0 : EReal) := by
  rw [val_main_call3_v0_apply, val_main_call3_cst_apply]; exact Ideal.ofBits_zero_f32
/-- The zero splat of the residual block's first clip reads zero. -/
private theorem zero4 (i : S131072x128.Idx) : val_main_call4_v0 (F := Ideal) i = (0 : EReal) := by
  rw [val_main_call4_v0_apply, val_main_call4_cst_apply]; exact Ideal.ofBits_zero_f32
/-- The zero splat of the residual block's second clip reads zero. -/
private theorem zero5 (i : S131072x128.Idx) : val_main_call5_v0 (F := Ideal) i = (0 : EReal) := by
  rw [val_main_call5_v0_apply, val_main_call5_cst_apply]; exact Ideal.ofBits_zero_f32
/-- The zero splat of the last clip reads zero. -/
private theorem zero6 (i : S131072x128.Idx) : val_main_call6_v0 (F := Ideal) i = (0 : EReal) := by
  rw [val_main_call6_v0_apply, val_main_call6_cst_apply]; exact Ideal.ofBits_zero_f32

/-- A dot's left index at coordinates: row `r`, contraction coordinate `k`. -/
private theorem lidx4 (r : Fin 131072) (q k : Fin 128) : lidx_main_v4 (ix2 r q) k = ix2 r k := by
  funext a; match a with | ⟨0, _⟩ => rfl | ⟨1, _⟩ => rfl
/-- A dot's right index at coordinates: contraction coordinate `k`, column `q`. -/
private theorem ridx4 (r : Fin 131072) (q k : Fin 128) : ridx_main_v4 (ix2 r q) k = ix2 k q := by
  funext a; match a with | ⟨0, _⟩ => rfl | ⟨1, _⟩ => rfl
private theorem lidx28 (r : Fin 131072) (q : Fin 128) (k : Fin 64) : lidx_main_v28 (ix2 r q) k = ix2 r k := by
  funext a; match a with | ⟨0, _⟩ => rfl | ⟨1, _⟩ => rfl
private theorem ridx28 (r : Fin 131072) (q : Fin 128) (k : Fin 64) : ridx_main_v28 (ix2 r q) k = ix2 k q := by
  funext a; match a with | ⟨0, _⟩ => rfl | ⟨1, _⟩ => rfl
private theorem lidx35 (r : Fin 131072) (q k : Fin 128) : lidx_main_v35 (ix2 r q) k = ix2 r k := by
  funext a; match a with | ⟨0, _⟩ => rfl | ⟨1, _⟩ => rfl
private theorem ridx35 (r : Fin 131072) (q k : Fin 128) : ridx_main_v35 (ix2 r q) k = ix2 k q := by
  funext a; match a with | ⟨0, _⟩ => rfl | ⟨1, _⟩ => rfl
private theorem lidx44 (r : Fin 131072) (q k : Fin 128) : lidx_main_v44 (ix2 r q) k = ix2 r k := by
  funext a; match a with | ⟨0, _⟩ => rfl | ⟨1, _⟩ => rfl
private theorem ridx44 (r : Fin 131072) (q k : Fin 128) : ridx_main_v44 (ix2 r q) k = ix2 k q := by
  funext a; match a with | ⟨0, _⟩ => rfl | ⟨1, _⟩ => rfl
private theorem lidx52 (r : Fin 131072) (q k : Fin 128) : lidx_main_v52 (ix2 r q) k = ix2 r k := by
  funext a; match a with | ⟨0, _⟩ => rfl | ⟨1, _⟩ => rfl
private theorem ridx52 (r : Fin 131072) (q k : Fin 128) : ridx_main_v52 (ix2 r q) k = ix2 k q := by
  funext a; match a with | ⟨0, _⟩ => rfl | ⟨1, _⟩ => rfl

/-- The first dense layer's bias, broadcast over the rows, reads the bias at the column. -/
private theorem bias6 (x12 : (⟨S128, .f32⟩ : BufTy).Contents (Elt Ideal)) (r : Fin 131072) (q : Fin 128) :
    val_main_v6 (F := Ideal) x12 (ix2 r q) = vec x12 q := by
  rw [val_main_v6_apply, val_main_v5_apply]
  show x12 _ = x12 (ix1 q)
  refine congrArg x12 ?_
  funext a; match a with | ⟨0, _⟩ => rfl
/-- The last dense layer's bias, broadcast over the rows, reads the bias at the column. -/
private theorem bias54 (x18 : (⟨S128, .f32⟩ : BufTy).Contents (Elt Ideal)) (r : Fin 131072) (q : Fin 128) :
    val_main_v54 (F := Ideal) x18 (ix2 r q) = vec x18 q := by
  rw [val_main_v54_apply, val_main_v53_apply]
  show x18 _ = x18 (ix1 q)
  refine congrArg x18 ?_
  funext a; match a with | ⟨0, _⟩ => rfl

/-- The residual block's first matrix (reshape, slice 0, reshape of the stack) reads the stack at `(0, 0, k, q)`. -/
private theorem w34 (x15 : (⟨S1x2x128x128, .f32⟩ : BufTy).Contents (Elt Ideal)) (k q : Fin 128) :
    val_main_v34 (F := Ideal) x15 (ix2 k q) = mat4 x15 0 0 k q := by
  rw [val_main_v34_apply, val_main_v33_apply, val_main_v31_apply]
  show x15 _ = x15 (ix4 0 0 k q)
  refine congrArg x15 ?_
  have hk := k.isLt
  have hq := q.isLt
  funext a
  match a with
  | ⟨0, _⟩ => rfl
  | ⟨1, _⟩ => exact Fin.ext (by
      show ((0 * 128 + (k.val * 128 + q.val) / 128 % 128) * 128 + (k.val * 128 + q.val) % 128) / 16384 % 2 = 0
      omega)
  | ⟨2, _⟩ => exact Fin.ext (by
      show ((0 * 128 + (k.val * 128 + q.val) / 128 % 128) * 128 + (k.val * 128 + q.val) % 128) / 128 % 128 = k.val
      omega)
  | ⟨3, _⟩ => exact Fin.ext (by
      show ((0 * 128 + (k.val * 128 + q.val) / 128 % 128) * 128 + (k.val * 128 + q.val) % 128) % 128 = q.val
      omega)
/-- The residual block's second matrix (reshape, slice 1, reshape of the stack) reads the stack at `(0, 1, k, q)`. -/
private theorem w43 (x15 : (⟨S1x2x128x128, .f32⟩ : BufTy).Contents (Elt Ideal)) (k q : Fin 128) :
    val_main_v43 (F := Ideal) x15 (ix2 k q) = mat4 x15 0 1 k q := by
  rw [val_main_v43_apply, val_main_v42_apply, val_main_v31_apply]
  show x15 _ = x15 (ix4 0 1 k q)
  refine congrArg x15 ?_
  have hk := k.isLt
  have hq := q.isLt
  funext a
  match a with
  | ⟨0, _⟩ => rfl
  | ⟨1, _⟩ => exact Fin.ext (by
      show (((1 + 0) * 128 + (k.val * 128 + q.val) / 128 % 128) * 128 + (k.val * 128 + q.val) % 128) / 16384 % 2 = 1
      omega)
  | ⟨2, _⟩ => exact Fin.ext (by
      show (((1 + 0) * 128 + (k.val * 128 + q.val) / 128 % 128) * 128 + (k.val * 128 + q.val) % 128) / 128 % 128 = k.val
      omega)
  | ⟨3, _⟩ => exact Fin.ext (by
      show (((1 + 0) * 128 + (k.val * 128 + q.val) / 128 % 128) * 128 + (k.val * 128 + q.val) % 128) % 128 = q.val
      omega)
/-- The residual block's first bias (reshape, slice 0, reshape, two broadcasts) reads the stack at `(0, 0, q)`. -/
private theorem bias39 (x16 : (⟨S1x2x128, .f32⟩ : BufTy).Contents (Elt Ideal)) (r : Fin 131072) (q : Fin 128) :
    val_main_v39 (F := Ideal) x16 (ix2 r q) = vec3 x16 0 0 q := by
  rw [val_main_v39_apply, val_main_v38_apply, val_main_v37_apply, val_main_v36_apply, val_main_v32_apply]
  show x16 _ = x16 (ix3 0 0 q)
  refine congrArg x16 ?_
  have hq := q.isLt
  funext a
  match a with
  | ⟨0, _⟩ => rfl
  | ⟨1, _⟩ => exact Fin.ext (by
      show (0 * 128 + q.val % 128) / 128 % 2 = 0
      omega)
  | ⟨2, _⟩ => exact Fin.ext (by
      show (0 * 128 + q.val % 128) % 128 = q.val
      omega)
/-- The residual block's second bias (reshape, slice 1, reshape, two broadcasts) reads the stack at `(0, 1, q)`. -/
private theorem bias48 (x16 : (⟨S1x2x128, .f32⟩ : BufTy).Contents (Elt Ideal)) (r : Fin 131072) (q : Fin 128) :
    val_main_v48 (F := Ideal) x16 (ix2 r q) = vec3 x16 0 1 q := by
  rw [val_main_v48_apply, val_main_v47_apply, val_main_v46_apply, val_main_v45_apply, val_main_v32_apply]
  show x16 _ = x16 (ix3 0 1 q)
  refine congrArg x16 ?_
  have hq := q.isLt
  funext a
  match a with
  | ⟨0, _⟩ => rfl
  | ⟨1, _⟩ => exact Fin.ext (by
      show ((1 + 0) * 128 + q.val % 128) / 128 % 2 = 1
      omega)
  | ⟨2, _⟩ => exact Fin.ext (by
      show ((1 + 0) * 128 + q.val % 128) % 128 = q.val
      omega)

/-! ## The stages, one row at a time -/

section Stages

variable (x0 : (⟨S131072x128, .f32⟩ : BufTy).Contents (Elt Ideal)) (x1 : (⟨S131072x6, .f32⟩ : BufTy).Contents (Elt Ideal)) (x2 : (⟨S1048576x42, .f32⟩ : BufTy).Contents (Elt Ideal)) (x3 x4 : (⟨S1048576, .i32⟩ : BufTy).Contents (Elt Ideal)) (x5 : (⟨S6x8, .f32⟩ : BufTy).Contents (Elt Ideal)) (x6 : (⟨S8x128, .f32⟩ : BufTy).Contents (Elt Ideal)) (x7 : (⟨S42x8, .f32⟩ : BufTy).Contents (Elt Ideal)) (x8 : (⟨S8x64, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64x128, .f32⟩ : BufTy).Contents (Elt Ideal)) (x15 : (⟨S1x2x128x128, .f32⟩ : BufTy).Contents (Elt Ideal)) (x16 : (⟨S1x2x128, .f32⟩ : BufTy).Contents (Elt Ideal)) (x17 : (⟨S128x128, .f32⟩ : BufTy).Contents (Elt Ideal)) (x18 : (⟨S128, .f32⟩ : BufTy).Contents (Elt Ideal))

/-- The first dot: the hidden row times the first matrix. -/
private theorem d4 (r : Fin 131072) (q : Fin 128) :
    val_main_v4 (F := Ideal) x0 x11 (ix2 r q) = mm (row x0 r) (mat x11) q :=
  (val_main_v4_apply x0 x11 (ix2 r q)).trans
    (sum_mul_eq_mm (row x0 r) (mat x11) q (fun k => x0 (lidx_main_v4 (ix2 r q) k)) (fun k => x11 (ridx_main_v4 (ix2 r q) k))
      (fun k => by rw [lidx4]; exact (row_apply x0 r k).symm) (fun k => by rw [ridx4]; exact (mat_apply x11 k q).symm))

/-- The clipped first dense layer of the hidden row. -/
private theorem s8 (r : Fin 131072) (q : Fin 128) :
    val_main_v8 (F := Ideal) x0 x11 x12 (ix2 r q) = relu (lin (row x0 r) (mat x11) (vec x12)) q := by
  rw [val_main_v8_apply, val_main_v7_apply, d4, bias6, zero0, add_eq, max_eq, relu_apply, lin_apply]

/-- The dot of the aggregated array: the aggregated row times the up-projection. -/
private theorem d28 (r : Fin 131072) (q : Fin 128) :
    val_main_v28 (F := Ideal) x0 x1 x2 x3 x4 x5 x6 x7 x8 x9 x10 x13 x14 (ix2 r q) = mm (row (val_main_v27 (F := Ideal) x0 x1 x2 x3 x4 x5 x6 x7 x8 x9 x10 x13) r) (mat x14) q :=
  (val_main_v28_apply x0 x1 x2 x3 x4 x5 x6 x7 x8 x9 x10 x13 x14 (ix2 r q)).trans
    (sum_mul_eq_mm (row (val_main_v27 (F := Ideal) x0 x1 x2 x3 x4 x5 x6 x7 x8 x9 x10 x13) r) (mat x14) q
      (fun k => (val_main_v27 (F := Ideal) x0 x1 x2 x3 x4 x5 x6 x7 x8 x9 x10 x13) (lidx_main_v28 (ix2 r q) k)) (fun k => x14 (ridx_main_v28 (ix2 r q) k))
      (fun k => by rw [lidx28]; exact (row_apply (val_main_v27 (F := Ideal) x0 x1 x2 x3 x4 x5 x6 x7 x8 x9 x10 x13) r k).symm) (fun k => by rw [ridx28]; exact (mat_apply x14 k q).symm))

/-- The clipped image of the aggregated row. -/
private theorem s29 (r : Fin 131072) (q : Fin 128) :
    val_main_v29 (F := Ideal) x0 x1 x2 x3 x4 x5 x6 x7 x8 x9 x10 x13 x14 (ix2 r q) = relu (mm (row (val_main_v27 (F := Ideal) x0 x1 x2 x3 x4 x5 x6 x7 x8 x9 x10 x13) r) (mat x14)) q := by
  rw [val_main_v29_apply, d28, zero3, max_eq, relu_apply]

/-- The sum of the two: the row entering the residual block. -/
private theorem s30 (r : Fin 131072) (q : Fin 128) :
    val_main_v30 (F := Ideal) x0 x1 x2 x3 x4 x5 x6 x7 x8 x9 x10 x11 x12 x13 x14 (ix2 r q)
      = inRow (val_main_v27 (F := Ideal) x0 x1 x2 x3 x4 x5 x6 x7 x8 x9 x10 x13) x0 x11 x12 x14 r q := by
  rw [val_main_v30_apply, s8, s29, add_eq, inRow_apply]

/-- The residual block's first dot. -/
private theorem d35 (r : Fin 131072) (q : Fin 128) :
    val_main_v35 (F := Ideal) x0 x1 x2 x3 x4 x5 x6 x7 x8 x9 x10 x11 x12 x13 x14 x15 (ix2 r q)
      = mm (inRow (val_main_v27 (F := Ideal) x0 x1 x2 x3 x4 x5 x6 x7 x8 x9 x10 x13) x0 x11 x12 x14 r) (mat4 x15 0 0) q :=
  (val_main_v35_apply x0 x1 x2 x3 x4 x5 x6 x7 x8 x9 x10 x11 x12 x13 x14 x15 (ix2 r q)).trans
    (sum_mul_eq_mm (inRow (val_main_v27 (F := Ideal) x0 x1 x2 x3 x4 x5 x6 x7 x8 x9 x10 x13) x0 x11 x12 x14 r) (mat4 x15 0 0) q
      (fun k => val_main_v30 (F := Ideal) x0 x1 x2 x3 x4 x5 x6 x7 x8 x9 x10 x11 x12 x13 x14 (lidx_main_v35 (ix2 r q) k))
      (fun k => val_main_v34 (F := Ideal) x15 (ridx_main_v35 (ix2 r q) k))
      (fun k => by rw [lidx35]; exact s30 x0 x1 x2 x3 x4 x5 x6 x7 x8 x9 x10 x11 x12 x13 x14 r k)
      (fun k => by rw [ridx35]; exact w34 x15 k q))

/-- The residual block's first clipped dense layer. -/
private theorem s41 (r : Fin 131072) (q : Fin 128) :
    val_main_v41 (F := Ideal) x0 x1 x2 x3 x4 x5 x6 x7 x8 x9 x10 x11 x12 x13 x14 x15 x16 (ix2 r q)
      = relu (lin (inRow (val_main_v27 (F := Ideal) x0 x1 x2 x3 x4 x5 x6 x7 x8 x9 x10 x13) x0 x11 x12 x14 r) (mat4 x15 0 0) (vec3 x16 0 0)) q := by
  rw [val_main_v41_apply, val_main_v40_apply, d35, bias39, zero4, add_eq, max_eq, relu_apply, lin_apply]

/-- The residual block's second dot. -/
private theorem d44 (r : Fin 131072) (q : Fin 128) :
    val_main_v44 (F := Ideal) x0 x1 x2 x3 x4 x5 x6 x7 x8 x9 x10 x11 x12 x13 x14 x15 x16 (ix2 r q)
      = mm (relu (lin (inRow (val_main_v27 (F := Ideal) x0 x1 x2 x3 x4 x5 x6 x7 x8 x9 x10 x13) x0 x11 x12 x14 r) (mat4 x15 0 0) (vec3 x16 0 0))) (mat4 x15 0 1) q :=
  (val_main_v44_apply x0 x1 x2 x3 x4 x5 x6 x7 x8 x9 x10 x11 x12 x13 x14 x15 x16 (ix2 r q)).trans
    (sum_mul_eq_mm (relu (lin (inRow (val_main_v27 (F := Ideal) x0 x1 x2 x3 x4 x5 x6 x7 x8 x9 x10 x13) x0 x11 x12 x14 r) (mat4 x15 0 0) (vec3 x16 0 0))) (mat4 x15 0 1) q
      (fun k => val_main_v41 (F := Ideal) x0 x1 x2 x3 x4 x5 x6 x7 x8 x9 x10 x11 x12 x13 x14 x15 x16 (lidx_main_v44 (ix2 r q) k))
      (fun k => val_main_v43 (F := Ideal) x15 (ridx_main_v44 (ix2 r q) k))
      (fun k => by rw [lidx44]; exact s41 x0 x1 x2 x3 x4 x5 x6 x7 x8 x9 x10 x11 x12 x13 x14 x15 x16 r k)
      (fun k => by rw [ridx44]; exact w43 x15 k q))

/-- The residual block's second clipped dense layer. -/
private theorem s50 (r : Fin 131072) (q : Fin 128) :
    val_main_v50 (F := Ideal) x0 x1 x2 x3 x4 x5 x6 x7 x8 x9 x10 x11 x12 x13 x14 x15 x16 (ix2 r q)
      = relu (lin (relu (lin (inRow (val_main_v27 (F := Ideal) x0 x1 x2 x3 x4 x5 x6 x7 x8 x9 x10 x13) x0 x11 x12 x14 r) (mat4 x15 0 0) (vec3 x16 0 0)))
          (mat4 x15 0 1) (vec3 x16 0 1)) q := by
  rw [val_main_v50_apply, val_main_v49_apply, d44, bias48, zero5, add_eq, max_eq, relu_apply, lin_apply]

/-- The residual block's output. -/
private theorem s51 (r : Fin 131072) (q : Fin 128) :
    val_main_v51 (F := Ideal) x0 x1 x2 x3 x4 x5 x6 x7 x8 x9 x10 x11 x12 x13 x14 x15 x16 (ix2 r q)
      = res (inRow (val_main_v27 (F := Ideal) x0 x1 x2 x3 x4 x5 x6 x7 x8 x9 x10 x13) x0 x11 x12 x14 r) (mat4 x15 0 0) (mat4 x15 0 1) (vec3 x16 0 0) (vec3 x16 0 1) q := by
  rw [val_main_v51_apply, s30, s50, add_eq, res_apply]

/-- The last dot. -/
private theorem d52 (r : Fin 131072) (q : Fin 128) :
    val_main_v52 (F := Ideal) x0 x1 x2 x3 x4 x5 x6 x7 x8 x9 x10 x11 x12 x13 x14 x15 x16 x17 (ix2 r q)
      = mm (res (inRow (val_main_v27 (F := Ideal) x0 x1 x2 x3 x4 x5 x6 x7 x8 x9 x10 x13) x0 x11 x12 x14 r) (mat4 x15 0 0) (mat4 x15 0 1) (vec3 x16 0 0) (vec3 x16 0 1)) (mat x17) q :=
  (val_main_v52_apply x0 x1 x2 x3 x4 x5 x6 x7 x8 x9 x10 x11 x12 x13 x14 x15 x16 x17 (ix2 r q)).trans
    (sum_mul_eq_mm (res (inRow (val_main_v27 (F := Ideal) x0 x1 x2 x3 x4 x5 x6 x7 x8 x9 x10 x13) x0 x11 x12 x14 r) (mat4 x15 0 0) (mat4 x15 0 1) (vec3 x16 0 0) (vec3 x16 0 1)) (mat x17) q
      (fun k => val_main_v51 (F := Ideal) x0 x1 x2 x3 x4 x5 x6 x7 x8 x9 x10 x11 x12 x13 x14 x15 x16 (lidx_main_v52 (ix2 r q) k))
      (fun k => x17 (ridx_main_v52 (ix2 r q) k))
      (fun k => by rw [lidx52]; exact s51 x0 x1 x2 x3 x4 x5 x6 x7 x8 x9 x10 x11 x12 x13 x14 x15 x16 r k)
      (fun k => by rw [ridx52]; exact (mat_apply x17 k q).symm))

/-- The last clipped dense layer. -/
private theorem s56 (r : Fin 131072) (q : Fin 128) :
    val_main_v56 (F := Ideal) x0 x1 x2 x3 x4 x5 x6 x7 x8 x9 x10 x11 x12 x13 x14 x15 x16 x17 x18 (ix2 r q)
      = relu (lin (res (inRow (val_main_v27 (F := Ideal) x0 x1 x2 x3 x4 x5 x6 x7 x8 x9 x10 x13) x0 x11 x12 x14 r) (mat4 x15 0 0) (mat4 x15 0 1) (vec3 x16 0 0) (vec3 x16 0 1))
          (mat x17) (vec x18)) q := by
  rw [val_main_v56_apply, val_main_v55_apply, d52, bias54, zero6, add_eq, max_eq, relu_apply, lin_apply]

end Stages

/-- The value after the skip connection, over the aggregated array. -/
theorem v57_eq (x0 : (⟨S131072x128, .f32⟩ : BufTy).Contents (Elt Ideal)) (x1 : (⟨S131072x6, .f32⟩ : BufTy).Contents (Elt Ideal)) (x2 : (⟨S1048576x42, .f32⟩ : BufTy).Contents (Elt Ideal)) (x3 x4 : (⟨S1048576, .i32⟩ : BufTy).Contents (Elt Ideal)) (x5 : (⟨S6x8, .f32⟩ : BufTy).Contents (Elt Ideal)) (x6 : (⟨S8x128, .f32⟩ : BufTy).Contents (Elt Ideal)) (x7 : (⟨S42x8, .f32⟩ : BufTy).Contents (Elt Ideal)) (x8 : (⟨S8x64, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64x128, .f32⟩ : BufTy).Contents (Elt Ideal)) (x15 : (⟨S1x2x128x128, .f32⟩ : BufTy).Contents (Elt Ideal)) (x16 : (⟨S1x2x128, .f32⟩ : BufTy).Contents (Elt Ideal)) (x17 : (⟨S128x128, .f32⟩ : BufTy).Contents (Elt Ideal)) (x18 : (⟨S128, .f32⟩ : BufTy).Contents (Elt Ideal)) :
    val_main_v57 (F := Ideal) x0 x1 x2 x3 x4 x5 x6 x7 x8 x9 x10 x11 x12 x13 x14 x15 x16 x17 x18
      = hMidArr (val_main_v27 (F := Ideal) x0 x1 x2 x3 x4 x5 x6 x7 x8 x9 x10 x13) x0 x11 x12 x14 x15 x16 x17 x18 := by
  funext i
  obtain ⟨r, q, rfl⟩ : ∃ (r : Fin 131072) (q : Fin 128), i = ix2 r q := ⟨i 0, i 1, eq_ix2 i⟩
  rw [val_main_v57_apply, s56, add_eq, hMidArr_apply, hMidRow_apply]

end Cert.ReferenceIdeal.Hand

end
-- ==== Proof.RefB2.lean ====
/- The reference's stages after the skip connection: row by row `Spec.tailRow` of the value after the skip. -/
import proofs.«431230_j19146964206349_3_alg».proof.Proof.Gen.ReferenceIdeal.Read
import proofs.«431230_j19146964206349_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Read Idealize.ShloMosaic.ValueIdx Cert.Spec

/-! ## The dense layer and the residual block, for arbitrary operands -/

/-- The printed dimension record of the products of 131072×128 by 128×128 is the plain one: the left operand's
    second axis against the right operand's first, no batch axes. -/
private theorem dot_eq_plain : dot_S131072x128_S128x128_S131072x128_1_0_0_1_n_n = DotDims.plain 131072 128 128 := rfl

/-- Such a product read at (r, q): row r of the left operand times the matrix. -/
private theorem dot_read (A : FVec Ideal S131072x128 .f32) (W : FVec Ideal S128x128 .f32) (r : Fin 131072) (q : Fin 128) :
    Host.dotGeneral (F := Ideal) dot_S131072x128_S128x128_S131072x128_1_0_0_1_n_n none A W (ix2 r q) = mm (row A r) (mat W) q := by
  rw [dot_eq_plain]
  exact StackMember.dotGeneral_plain_apply none A W r q

/-- One residual block as the reference writes it, over arbitrary operands: the input plus the clipping of a dense
    layer of the clipping of a dense layer of the input. The two matrices read as Wa, Wb, the two broadcast biases read
    at (r, q) as ba q, bb q, and the two splats read zero. At (r, q) it is the residual block of row r. -/
private theorem block_read (h : FVec Ideal S131072x128 .f32) (W1 W2 : FVec Ideal S128x128 .f32)
    (B1 B2 Z1 Z2 : FVec Ideal S131072x128 .f32) (Wa Wb : Fin 128 → Fin 128 → EReal) (ba bb : Fin 128 → EReal)
    (hW1 : ∀ k q, W1 (ix2 k q) = Wa k q) (hW2 : ∀ k q, W2 (ix2 k q) = Wb k q)
    (hB1 : ∀ r q, B1 (ix2 r q) = ba q) (hB2 : ∀ r q, B2 (ix2 r q) = bb q)
    (hZ1 : ∀ i, Z1 i = 0) (hZ2 : ∀ i, Z2 i = 0) (r : Fin 131072) (q : Fin 128) :
    addf h (maximumf (addf (Host.dotGeneral (F := Ideal) dot_S131072x128_S128x128_S131072x128_1_0_0_1_n_n none
        (maximumf (addf (Host.dotGeneral (F := Ideal) dot_S131072x128_S128x128_S131072x128_1_0_0_1_n_n none h W1) B1) Z1) W2) B2) Z2) (ix2 r q)
      = res (row h r) Wa Wb ba bb q := by
  have eW1 : mat W1 = Wa := funext fun k => funext fun q => hW1 k q
  have eW2 : mat W2 = Wb := funext fun k => funext fun q => hW2 k q
  -- the inner layer, a whole row at a time
  have inner : row (maximumf (addf (Host.dotGeneral (F := Ideal) dot_S131072x128_S128x128_S131072x128_1_0_0_1_n_n none h W1) B1) Z1) r
      = relu (lin (row h r) Wa ba) := by
    funext k
    show maximumf (addf (Host.dotGeneral (F := Ideal) dot_S131072x128_S128x128_S131072x128_1_0_0_1_n_n none h W1) B1) Z1 (ix2 r k) = _
    rw [maximumf_apply, addf_apply, dot_read, hB1, hZ1, eW1]
    rfl
  -- the outer layer over it, and the input added
  rw [addf_apply, maximumf_apply, addf_apply, dot_read, hB2, hZ2, eW2, inner]
  rfl

/-! ## The sliced weights and biases, and the zero splats

A matrix of the stack reaches its product through a slice of the first axis, a regrouping of the row-major order that
drops that axis, a slice of the (new) first axis and a second regrouping. Read backwards from (k, q): the second
regrouping sends (k, q) to (0, k, q) (the flat position k·128 + q has the digits k, q), the slice adds its offset b to
the first coordinate, the first regrouping sends (b, k, q) to (0, b, k, q), and the first slice adds its offset a.
A bias goes the same way with one axis fewer, after two broadcasts that forget the row. -/

/-- The first block's first matrix is matrix (0, 0) of the stack. -/
private theorem w63 (x19 : (⟨S2x2x128x128, .f32⟩ : BufTy).Contents (Elt Ideal)) (k q : Fin 128) :
    val_main_v63 (F := Ideal) x19 (ix2 k q) = x19 (ix4 0 0 k q) := by
  rw [val_main_v63_apply, val_main_v62_apply, val_main_v59_apply, val_main_v58_apply]
  refine congrArg x19 (funext fun a => Fin.ext ?_)
  have hk := k.isLt
  have hq := q.isLt
  match a with
  | ⟨0, _⟩ => rfl
  | ⟨1, _⟩ => show ((0 * 128 + (k.val * 128 + q.val) / 128 % 128) * 128 + (k.val * 128 + q.val) % 128) / 16384 % 2 = 0; omega
  | ⟨2, _⟩ => show ((0 * 128 + (k.val * 128 + q.val) / 128 % 128) * 128 + (k.val * 128 + q.val) % 128) / 128 % 128 = k.val; omega
  | ⟨3, _⟩ => show ((0 * 128 + (k.val * 128 + q.val) / 128 % 128) * 128 + (k.val * 128 + q.val) % 128) % 128 = q.val; omega

/-- The first block's second matrix is matrix (0, 1) of the stack. -/
private theorem w72 (x19 : (⟨S2x2x128x128, .f32⟩ : BufTy).Contents (Elt Ideal)) (k q : Fin 128) :
    val_main_v72 (F := Ideal) x19 (ix2 k q) = x19 (ix4 0 1 k q) := by
  rw [val_main_v72_apply, val_main_v71_apply, val_main_v59_apply, val_main_v58_apply]
  refine congrArg x19 (funext fun a => Fin.ext ?_)
  have hk := k.isLt
  have hq := q.isLt
  match a with
  | ⟨0, _⟩ => rfl
  | ⟨1, _⟩ => show (((1 + 0) * 128 + (k.val * 128 + q.val) / 128 % 128) * 128 + (k.val * 128 + q.val) % 128) / 16384 % 2 = 1; omega
  | ⟨2, _⟩ => show (((1 + 0) * 128 + (k.val * 128 + q.val) / 128 % 128) * 128 + (k.val * 128 + q.val) % 128) / 128 % 128 = k.val; omega
  | ⟨3, _⟩ => show (((1 + 0) * 128 + (k.val * 128 + q.val) / 128 % 128) * 128 + (k.val * 128 + q.val) % 128) % 128 = q.val; omega

/-- The second block's first matrix is matrix (1, 0) of the stack. -/
private theorem w86 (x19 : (⟨S2x2x128x128, .f32⟩ : BufTy).Contents (Elt Ideal)) (k q : Fin 128) :
    val_main_v86 (F := Ideal) x19 (ix2 k q) = x19 (ix4 1 0 k q) := by
  rw [val_main_v86_apply, val_main_v85_apply, val_main_v82_apply, val_main_v81_apply]
  refine congrArg x19 (funext fun a => Fin.ext ?_)
  have hk := k.isLt
  have hq := q.isLt
  match a with
  | ⟨0, _⟩ => rfl
  | ⟨1, _⟩ => show ((0 * 128 + (k.val * 128 + q.val) / 128 % 128) * 128 + (k.val * 128 + q.val) % 128) / 16384 % 2 = 0; omega
  | ⟨2, _⟩ => show ((0 * 128 + (k.val * 128 + q.val) / 128 % 128) * 128 + (k.val * 128 + q.val) % 128) / 128 % 128 = k.val; omega
  | ⟨3, _⟩ => show ((0 * 128 + (k.val * 128 + q.val) / 128 % 128) * 128 + (k.val * 128 + q.val) % 128) % 128 = q.val; omega

/-- The second block's second matrix is matrix (1, 1) of the stack. -/
private theorem w95 (x19 : (⟨S2x2x128x128, .f32⟩ : BufTy).Contents (Elt Ideal)) (k q : Fin 128) :
    val_main_v95 (F := Ideal) x19 (ix2 k q) = x19 (ix4 1 1 k q) := by
  rw [val_main_v95_apply, val_main_v94_apply, val_main_v82_apply, val_main_v81_apply]
  refine congrArg x19 (funext fun a => Fin.ext ?_)
  have hk := k.isLt
  have hq := q.isLt
  match a with
  | ⟨0, _⟩ => rfl
  | ⟨1, _⟩ => show (((1 + 0) * 128 + (k.val * 128 + q.val) / 128 % 128) * 128 + (k.val * 128 + q.val) % 128) / 16384 % 2 = 1; omega
  | ⟨2, _⟩ => show (((1 + 0) * 128 + (k.val * 128 + q.val) / 128 % 128) * 128 + (k.val * 128 + q.val) % 128) / 128 % 128 = k.val; omega
  | ⟨3, _⟩ => show (((1 + 0) * 128 + (k.val * 128 + q.val) / 128 % 128) * 128 + (k.val * 128 + q.val) % 128) % 128 = q.val; omega

/-- The first block's first bias, broadcast along the rows, reads at (r, q) as entry q of vector (0, 0) of the stack. -/
private theorem b68 (x20 : (⟨S2x2x128, .f32⟩ : BufTy).Contents (Elt Ideal)) (r : Fin 131072) (q : Fin 128) :
    val_main_v68 (F := Ideal) x20 (ix2 r q) = x20 (ix3 0 0 q) := by
  rw [val_main_v68_apply, val_main_v67_apply, val_main_v66_apply, val_main_v65_apply, val_main_v61_apply, val_main_v60_apply]
  refine congrArg x20 (funext fun a => Fin.ext ?_)
  have hq := q.isLt
  match a with
  | ⟨0, _⟩ => rfl
  | ⟨1, _⟩ => show (0 * 128 + q.val % 128) / 128 % 2 = 0; omega
  | ⟨2, _⟩ => show (0 * 128 + q.val % 128) % 128 = q.val; omega

/-- The first block's second bias reads as vector (0, 1). -/
private theorem b77 (x20 : (⟨S2x2x128, .f32⟩ : BufTy).Contents (Elt Ideal)) (r : Fin 131072) (q : Fin 128) :
    val_main_v77 (F := Ideal) x20 (ix2 r q) = x20 (ix3 0 1 q) := by
  rw [val_main_v77_apply, val_main_v76_apply, val_main_v75_apply, val_main_v74_apply, val_main_v61_apply, val_main_v60_apply]
  refine congrArg x20 (funext fun a => Fin.ext ?_)
  have hq := q.isLt
  match a with
  | ⟨0, _⟩ => rfl
  | ⟨1, _⟩ => show ((1 + 0) * 128 + q.val % 128) / 128 % 2 = 1; omega
  | ⟨2, _⟩ => show ((1 + 0) * 128 + q.val % 128) % 128 = q.val; omega

/-- The second block's first bias reads as vector (1, 0). -/
private theorem b91 (x20 : (⟨S2x2x128, .f32⟩ : BufTy).Contents (Elt Ideal)) (r : Fin 131072) (q : Fin 128) :
    val_main_v91 (F := Ideal) x20 (ix2 r q) = x20 (ix3 1 0 q) := by
  rw [val_main_v91_apply, val_main_v90_apply, val_main_v89_apply, val_main_v88_apply, val_main_v84_apply, val_main_v83_apply]
  refine congrArg x20 (funext fun a => Fin.ext ?_)
  have hq := q.isLt
  match a with
  | ⟨0, _⟩ => rfl
  | ⟨1, _⟩ => show (0 * 128 + q.val % 128) / 128 % 2 = 0; omega
  | ⟨2, _⟩ => show (0 * 128 + q.val % 128) % 128 = q.val; omega

/-- The second block's second bias reads as vector (1, 1). -/
private theorem b100 (x20 : (⟨S2x2x128, .f32⟩ : BufTy).Contents (Elt Ideal)) (r : Fin 131072) (q : Fin 128) :
    val_main_v100 (F := Ideal) x20 (ix2 r q) = x20 (ix3 1 1 q) := by
  rw [val_main_v100_apply, val_main_v99_apply, val_main_v98_apply, val_main_v97_apply, val_main_v84_apply, val_main_v83_apply]
  refine congrArg x20 (funext fun a => Fin.ext ?_)
  have hq := q.isLt
  match a with
  | ⟨0, _⟩ => rfl
  | ⟨1, _⟩ => show ((1 + 0) * 128 + q.val % 128) / 128 % 2 = 1; omega
  | ⟨2, _⟩ => show ((1 + 0) * 128 + q.val % 128) % 128 = q.val; omega

/-- The zero splat of the first block's first clipping reads zero. -/
private theorem zero7 (i : S131072x128.Idx) : val_main_call7_v0 (F := Ideal) i = 0 := by
  rw [val_main_call7_v0_apply, val_main_call7_cst_apply]
  exact Ideal.ofBits_zero_f32

/-- So does the first block's second. -/
private theorem zero8 (i : S131072x128.Idx) : val_main_call8_v0 (F := Ideal) i = 0 := by
  rw [val_main_call8_v0_apply, val_main_call8_cst_apply]
  exact Ideal.ofBits_zero_f32

/-- So does the second block's first. -/
private theorem zero9 (i : S131072x128.Idx) : val_main_call9_v0 (F := Ideal) i = 0 := by
  rw [val_main_call9_v0_apply, val_main_call9_cst_apply]
  exact Ideal.ofBits_zero_f32

/-- So does the second block's second. -/
private theorem zero10 (i : S131072x128.Idx) : val_main_call10_v0 (F := Ideal) i = 0 := by
  rw [val_main_call10_v0_apply, val_main_call10_cst_apply]
  exact Ideal.ofBits_zero_f32

/-! ## The two blocks of the reference

The value after the skip connection is never opened: the blocks are read over it as over any array. -/

section Blocks
variable (x0 : (⟨S131072x128, .f32⟩ : BufTy).Contents (Elt Ideal)) (x1 : (⟨S131072x6, .f32⟩ : BufTy).Contents (Elt Ideal)) (x2 : (⟨S1048576x42, .f32⟩ : BufTy).Contents (Elt Ideal)) (x3 x4 : (⟨S1048576, .i32⟩ : BufTy).Contents (Elt Ideal)) (x5 : (⟨S6x8, .f32⟩ : BufTy).Contents (Elt Ideal)) (x6 : (⟨S8x128, .f32⟩ : BufTy).Contents (Elt Ideal)) (x7 : (⟨S42x8, .f32⟩ : BufTy).Contents (Elt Ideal)) (x8 : (⟨S8x64, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64x128, .f32⟩ : BufTy).Contents (Elt Ideal)) (x15 : (⟨S1x2x128x128, .f32⟩ : BufTy).Contents (Elt Ideal)) (x16 : (⟨S1x2x128, .f32⟩ : BufTy).Contents (Elt Ideal)) (x17 : (⟨S128x128, .f32⟩ : BufTy).Contents (Elt Ideal)) (x18 : (⟨S128, .f32⟩ : BufTy).Contents (Elt Ideal)) (x19 : (⟨S2x2x128x128, .f32⟩ : BufTy).Contents (Elt Ideal)) (x20 : (⟨S2x2x128, .f32⟩ : BufTy).Contents (Elt Ideal))

/-- The value after the first block, read at (r, q): the residual block with the matrices (0, 0), (0, 1) and the
    vectors (0, 0), (0, 1), of row r of the value after the skip connection. -/
private theorem v80_read (r : Fin 131072) (q : Fin 128) :
    val_main_v80 (F := Ideal) x0 x1 x2 x3 x4 x5 x6 x7 x8 x9 x10 x11 x12 x13 x14 x15 x16 x17 x18 x19 x20 (ix2 r q)
      = res (row (val_main_v57 (F := Ideal) x0 x1 x2 x3 x4 x5 x6 x7 x8 x9 x10 x11 x12 x13 x14 x15 x16 x17 x18) r)
          (mat4 x19 0 0) (mat4 x19 0 1) (vec3 x20 0 0) (vec3 x20 0 1) q :=
  block_read (val_main_v57 (F := Ideal) x0 x1 x2 x3 x4 x5 x6 x7 x8 x9 x10 x11 x12 x13 x14 x15 x16 x17 x18)
    (val_main_v63 (F := Ideal) x19) (val_main_v72 (F := Ideal) x19) (val_main_v68 (F := Ideal) x20) (val_main_v77 (F := Ideal) x20)
    (val_main_call7_v0 (F := Ideal)) (val_main_call8_v0 (F := Ideal))
    (mat4 x19 0 0) (mat4 x19 0 1) (vec3 x20 0 0) (vec3 x20 0 1)
    (w63 x19) (w72 x19) (b68 x20) (b77 x20) zero7 zero8 r q

/-- The result, read at (r, q): the residual block with the matrices (1, 0), (1, 1) and the vectors (1, 0), (1, 1), of
    row r of the value after the first block. -/
private theorem v103_read (r : Fin 131072) (q : Fin 128) :
    val_main_v103 (F := Ideal) x0 x1 x2 x3 x4 x5 x6 x7 x8 x9 x10 x11 x12 x13 x14 x15 x16 x17 x18 x19 x20 (ix2 r q)
      = res (row (val_main_v80 (F := Ideal) x0 x1 x2 x3 x4 x5 x6 x7 x8 x9 x10 x11 x12 x13 x14 x15 x16 x17 x18 x19 x20) r)
          (mat4 x19 1 0) (mat4 x19 1 1) (vec3 x20 1 0) (vec3 x20 1 1) q :=
  block_read (val_main_v80 (F := Ideal) x0 x1 x2 x3 x4 x5 x6 x7 x8 x9 x10 x11 x12 x13 x14 x15 x16 x17 x18 x19 x20)
    (val_main_v86 (F := Ideal) x19) (val_main_v95 (F := Ideal) x19) (val_main_v91 (F := Ideal) x20) (val_main_v100 (F := Ideal) x20)
    (val_main_call9_v0 (F := Ideal)) (val_main_call10_v0 (F := Ideal))
    (mat4 x19 1 0) (mat4 x19 1 1) (vec3 x20 1 0) (vec3 x20 1 1)
    (w86 x19) (w95 x19) (b91 x20) (b100 x20) zero9 zero10 r q

end Blocks

/-- The result, over the value after the skip connection. -/
theorem v103_eq (x0 : (⟨S131072x128, .f32⟩ : BufTy).Contents (Elt Ideal)) (x1 : (⟨S131072x6, .f32⟩ : BufTy).Contents (Elt Ideal)) (x2 : (⟨S1048576x42, .f32⟩ : BufTy).Contents (Elt Ideal)) (x3 x4 : (⟨S1048576, .i32⟩ : BufTy).Contents (Elt Ideal)) (x5 : (⟨S6x8, .f32⟩ : BufTy).Contents (Elt Ideal)) (x6 : (⟨S8x128, .f32⟩ : BufTy).Contents (Elt Ideal)) (x7 : (⟨S42x8, .f32⟩ : BufTy).Contents (Elt Ideal)) (x8 : (⟨S8x64, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x64, .f32⟩ : BufTy).Contents (Elt Ideal)) (x14 : (⟨S64x128, .f32⟩ : BufTy).Contents (Elt Ideal)) (x15 : (⟨S1x2x128x128, .f32⟩ : BufTy).Contents (Elt Ideal)) (x16 : (⟨S1x2x128, .f32⟩ : BufTy).Contents (Elt Ideal)) (x17 : (⟨S128x128, .f32⟩ : BufTy).Contents (Elt Ideal)) (x18 : (⟨S128, .f32⟩ : BufTy).Contents (Elt Ideal)) (x19 : (⟨S2x2x128x128, .f32⟩ : BufTy).Contents (Elt Ideal)) (x20 : (⟨S2x2x128, .f32⟩ : BufTy).Contents (Elt Ideal)) :
    val_main_v103 (F := Ideal) x0 x1 x2 x3 x4 x5 x6 x7 x8 x9 x10 x11 x12 x13 x14 x15 x16 x17 x18 x19 x20
      = tailArr (val_main_v57 (F := Ideal) x0 x1 x2 x3 x4 x5 x6 x7 x8 x9 x10 x11 x12 x13 x14 x15 x16 x17 x18) x19 x20 := by
  funext i
  obtain ⟨r, q, rfl⟩ : ∃ (r : Fin 131072) (q : Fin 128), i = ix2 r q := ⟨i 0, i 1, eq_ix2 i⟩
  rw [v103_read]
  -- row r of the value after the first block is the first block of row r
  have first : row (val_main_v80 (F := Ideal) x0 x1 x2 x3 x4 x5 x6 x7 x8 x9 x10 x11 x12 x13 x14 x15 x16 x17 x18 x19 x20) r
      = res (row (val_main_v57 (F := Ideal) x0 x1 x2 x3 x4 x5 x6 x7 x8 x9 x10 x11 x12 x13 x14 x15 x16 x17 x18) r)
          (mat4 x19 0 0) (mat4 x19 0 1) (vec3 x20 0 0) (vec3 x20 0 1) :=
    funext fun k => v80_read x0 x1 x2 x3 x4 x5 x6 x7 x8 x9 x10 x11 x12 x13 x14 x15 x16 x17 x18 x19 x20 r k
  rw [first]
  rfl

end Cert.ReferenceIdeal.Hand

end
-- ==== Proof.PreFacts.lean ====
/- What the precondition gives: the six basis arrays (the radial and spherical bases and their four linear maps)
   hold real numbers at every entry, and every entry of the gather's index array lies in [0, 131072). -/
import proofs.«431230_j19146964206349_3_alg».proof.Pre_finite_inputs
import proofs.«431230_j19146964206349_3_alg».proof.Proof.Spec
import Idealize.ShloMosaic.Lib.ReduceAll
import Idealize.ShloMosaic.Lib.ValueIdx
import Idealize.ShloMosaic.Lib.Pipeline.Value
import Idealize.ShloMosaic.Lib.StableHlo.Predicate

set_option maxRecDepth 16384

noncomputable section

open Idealize.ShloMosaic

namespace Cert.PreFacts

open Cert.Pre_finite_inputs Cert.Pre_finite_inputs.Facts Idealize.ShloMosaic.ValueIdx

/-- The scalar shape has exactly one index. -/
local instance : Subsingleton S_.Idx := ⟨fun a b => funext fun d => d.elim0⟩

/-- The word 0x7F800000 denotes the top extended real, +inf. -/
theorem inf_word : Ideal.ofBits .f32 0x7F800000#32 = (⊤ : EReal) := by simp [Ideal.ofBits, Ideal.ieee]

/-- An extended real x with max x (-x) < +inf is a real number: at +inf and at -inf that maximum is +inf itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The finiteness conjunct of one array: if the conjunction over all entries of |a| < +inf is the one bit,
    every entry of a is a real number. -/
theorem finite_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi (cmpf .olt (Host.absf a) (broadcastInDim s ![] hb (constant S_ .f32 0x7F800000#32)))
          (constantI S_ 1 1#1) hr h0 ix0 = 1#1) : Cert.Spec.Finite a := by
  intro i
  exact real_of_abs_lt_inf (a i) (Host.reduce_andi_all _ _ hr h0 ix0 e i)

/-- The range conjunct of an integer vector: if the conjunction over all entries of (0 ≤ a) and (a < 131072), both
    compared signed, is the one bit, every entry read as a signed integer lies in [0, 131072). -/
theorem range_of_all {n : Nat} {axes : List (Fin (⟨1, ![n]⟩ : Shape).rank)} (a : IVec ⟨1, ![n]⟩ 32)
    (hb : S_.BroadcastsInDim ⟨1, ![n]⟩ (![] : Fin 0 → Fin (⟨1, ![n]⟩ : Shape).rank))
    (hr : (⟨1, ![n]⟩ : Shape).ReducesTo axes S_) (h0 : 0 < S_.numel)
    (e : Host.reduce IntOp.andi
          (andi (cmpi .sge a (broadcastInDim ⟨1, ![n]⟩ ![] hb (constantI S_ 32 0#32)))
                (cmpi .slt a (broadcastInDim ⟨1, ![n]⟩ ![] hb (constantI S_ 32 131072#32))))
          (constantI S_ 1 1#1) hr h0 ix0 = 1#1) (t : Fin n) :
    0 ≤ (a (ix1 t)).toInt ∧ (a (ix1 t)).toInt < 131072 := by
  have h := Host.reduce_andi_all _ _ hr h0 ix0 e (ix1 t)
  obtain ⟨h1, h2⟩ := IntOp.andi_eq_one.1 h
  exact ⟨IntOp.cmpi_sge.1 h1, IntOp.cmpi_slt.1 h2⟩

variable [hP : Cert.Pre_finite_inputs.Facts]

/-- From the precondition's value being the one bit: finiteness of the arrays the bridge needs, and the index range. -/
theorem of_pre (a0 : FVec Ideal S131072x128 .f32) (a1 : FVec Ideal S131072x6 .f32) (a2 : FVec Ideal S1048576x42 .f32) (a3 : IVec S1048576 32) (a4 : IVec S1048576 32) (a5 : FVec Ideal S6x8 .f32) (a6 : FVec Ideal S8x128 .f32) (a7 : FVec Ideal S42x8 .f32) (a8 : FVec Ideal S8x64 .f32) (a9 : FVec Ideal S128x128 .f32) (a10 : FVec Ideal S128 .f32) (a11 : FVec Ideal S128x128 .f32) (a12 : FVec Ideal S128 .f32) (a13 : FVec Ideal S128x64 .f32) (a14 : FVec Ideal S64x128 .f32) (a15 : FVec Ideal S1x2x128x128 .f32) (a16 : FVec Ideal S1x2x128 .f32) (a17 : FVec Ideal S128x128 .f32) (a18 : FVec Ideal S128 .f32) (a19 : FVec Ideal S2x2x128x128 .f32) (a20 : FVec Ideal S2x2x128 .f32)
    (h : Cert.Pre_finite_inputs.fn (F := Ideal) a0 a1 a2 a3 a4 a5 a6 a7 a8 a9 a10 a11 a12 a13 a14 a15 a16 a17 a18 a19 a20 = fun _ => 1#1) :
    Cert.Spec.Finite a1 ∧ Cert.Spec.Finite a2 ∧ Cert.Spec.Finite a5 ∧ Cert.Spec.Finite a6 ∧ Cert.Spec.Finite a7 ∧ Cert.Spec.Finite a8
      ∧ ∀ t : Fin 1048576, 0 ≤ (a3 (ix1 t)).toInt ∧ (a3 (ix1 t)).toInt < 131072 := by
  -- The precondition's one bit is the conjunction, nested to the left, of twenty bits in the order
  -- a0, a1, a2, a5, a6, …, a20 (one finiteness test each) and last the range test of a3: each of them is the one bit.
  have h0 := congrFun h ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨⟨-, h1⟩, h2⟩, h5⟩, h6⟩, h7⟩, h8⟩, -⟩, -⟩, -⟩, -⟩, -⟩, -⟩, -⟩, -⟩, -⟩, -⟩, -⟩, -⟩, h3⟩ := h0
  exact ⟨finite_of_all a1 _ _ _ h1, finite_of_all a2 _ _ _ h2, finite_of_all a5 _ _ _ h5, finite_of_all a6 _ _ _ h6,
    finite_of_all a7 _ _ _ h7, finite_of_all a8 _ _ _ h8, range_of_all a3 _ _ _ h3⟩

end Cert.PreFacts

end
-- ==== Proof.Bridge.lean ====
/- The reference's result is the kernel's function of the arguments. The reference's stages assemble to
   `Spec.hArr` over its own triplet stage (its message rows gathered at the wrapped indices, times its basis rows,
   summed into the target edges). The two programs then differ in three places, each closed here: the two basis maps
   applied one after the other against their product applied once (associativity of the matrix product, on real
   entries); the kernel's gather fills rows whose index is out of range, which the index range excludes; and the
   kernel's basis array passes through a change of float format, the identity on extended reals. -/
import proofs.«431230_j19146964206349_3_alg».proof.Proof.RefA
import proofs.«431230_j19146964206349_3_alg».proof.Proof.RefB1
import proofs.«431230_j19146964206349_3_alg».proof.Proof.RefB2
import proofs.«431230_j19146964206349_3_alg».proof.Proof.KernelMid
import proofs.«431230_j19146964206349_3_alg».proof.Proof.PreFacts

set_option maxRecDepth 16384

noncomputable section

open Idealize.ShloMosaic Idealize.ShloMosaic.TcCoe Idealize.SL.Sem

namespace Cert.Bridge

open Idealize.ShloMosaic.ValueIdx Cert.Spec

/-- The reference's triplet stage over a message array and a basis array: the gather at the wrapped indices, the
    product, the sum into the target edges. It is the kernel's `midK` where every index is in range. -/
theorem mid_eq (xkd : FVec Ideal Cert.KernelIdeal.S131072x64 .f32) (sbft : FVec Ideal Cert.KernelIdeal.S1048576x64 .f32)
    (ikj iji : IVec Cert.KernelIdeal.S1048576 32)
    (h : ∀ t : Fin 1048576, 0 ≤ (ikj (ix1 t)).toInt ∧ (ikj (ix1 t)).toInt < 131072) :
    Host.scatterAdd Cert.ReferenceIdeal.scatter_S131072x64_S1048576x1_S1048576x64_1_0_0_1
        (Cert.ReferenceIdeal.Read.val_main_v25 (F := Ideal)) (Cert.ReferenceIdeal.Read.val_main_v26 (F := Ideal) iji)
        (mulf (Host.gather Cert.ReferenceIdeal.gather_S131072x64_S1048576x1_S1048576x64_1_0_n_n_0_1_164 xkd
          (Cert.ReferenceIdeal.Read.val_main_v22 (F := Ideal) ikj)) sbft)
      = Cert.KernelIdeal.Hand.midK xkd sbft ikj iji := by
  unfold Cert.KernelIdeal.Hand.midK
  rw [Cert.KernelIdeal.Hand.takeK_eq xkd ikj h]
  rfl

/-- THE REFERENCE'S RESULT over arrays satisfying the precondition is the kernel program's function of them. -/
theorem ref_eq [Cert.Pre_finite_inputs.Facts] (x0 : (⟨Cert.ReferenceIdeal.S131072x128, .f32⟩ : BufTy).Contents (Elt Ideal)) (x1 : (⟨Cert.ReferenceIdeal.S131072x6, .f32⟩ : BufTy).Contents (Elt Ideal)) (x2 : (⟨Cert.ReferenceIdeal.S1048576x42, .f32⟩ : BufTy).Contents (Elt Ideal)) (x3 x4 : (⟨Cert.ReferenceIdeal.S1048576, .i32⟩ : BufTy).Contents (Elt Ideal)) (x5 : (⟨Cert.ReferenceIdeal.S6x8, .f32⟩ : BufTy).Contents (Elt Ideal)) (x6 : (⟨Cert.ReferenceIdeal.S8x128, .f32⟩ : BufTy).Contents (Elt Ideal)) (x7 : (⟨Cert.ReferenceIdeal.S42x8, .f32⟩ : BufTy).Contents (Elt Ideal)) (x8 : (⟨Cert.ReferenceIdeal.S8x64, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128x64, .f32⟩ : BufTy).Contents (Elt Ideal)) (x14 : (⟨Cert.ReferenceIdeal.S64x128, .f32⟩ : BufTy).Contents (Elt Ideal)) (x15 : (⟨Cert.ReferenceIdeal.S1x2x128x128, .f32⟩ : BufTy).Contents (Elt Ideal)) (x16 : (⟨Cert.ReferenceIdeal.S1x2x128, .f32⟩ : BufTy).Contents (Elt Ideal)) (x17 : (⟨Cert.ReferenceIdeal.S128x128, .f32⟩ : BufTy).Contents (Elt Ideal)) (x18 : (⟨Cert.ReferenceIdeal.S128, .f32⟩ : BufTy).Contents (Elt Ideal)) (x19 : (⟨Cert.ReferenceIdeal.S2x2x128x128, .f32⟩ : BufTy).Contents (Elt Ideal)) (x20 : (⟨Cert.ReferenceIdeal.S2x2x128, .f32⟩ : BufTy).Contents (Elt Ideal))
    (hpre : Cert.Pre_finite_inputs.fn (F := Ideal) x0 x1 x2 x3 x4 x5 x6 x7 x8 x9 x10 x11 x12 x13 x14 x15 x16 x17 x18 x19 x20 = fun _ => 1#1) :
    Cert.ReferenceIdeal.Read.val_main_v103 (F := Ideal) x0 x1 x2 x3 x4 x5 x6 x7 x8 x9 x10 x11 x12 x13 x14 x15 x16 x17 x18 x19 x20
      = hArr (Cert.KernelIdeal.Hand.midK (xkdArr x0 (mmArr x1 (mmArr x5 x6)) x9 x10 x13) (mmArr x2 (mmArr x7 x8)) x3 x4)
          x0 x11 x12 x14 x15 x16 x17 x18 x19 x20 := by
  obtain ⟨f1, f2, f5, f6, f7, f8, hidx⟩ := Cert.PreFacts.of_pre x0 x1 x2 x3 x4 x5 x6 x7 x8 x9 x10 x11 x12 x13 x14 x15 x16 x17 x18 x19 x20 hpre
  rw [Cert.ReferenceIdeal.Hand.v103_eq, Cert.ReferenceIdeal.Hand.v57_eq, ← hArr_eq]
  refine congrArg (fun a => hArr a x0 x11 x12 x14 x15 x16 x17 x18 x19 x20) ?_
  unfold Cert.ReferenceIdeal.Read.val_main_v27 Cert.ReferenceIdeal.Read.val_main_v24 Cert.ReferenceIdeal.Read.val_main_v23
  rw [Cert.ReferenceIdeal.Hand.v16_eq, Cert.ReferenceIdeal.Hand.v1_eq, Cert.ReferenceIdeal.Hand.v3_eq,
    mmArr_assoc x1 x5 x6 f1 f5 f6, mmArr_assoc x2 x7 x8 f2 f7 f8]
  exact mid_eq _ _ x3 x4 hidx

end Cert.Bridge

end
-- ==== Proof.lean ====
/- The kernel (three Pallas kernels around a host triplet stage: the edge MLP, the triplet basis product, the final
   MLP) computes its jnp reference's function over the extended reals, where every float input is finite and every
   gather index lies in [0, 131072).

   Both programs are, edge row by edge row, the same chain of dense layers, clips at zero and residual blocks
   (`Spec.xkdRow`, `Spec.hRow`), around the same gather of message rows, product with the triplets' basis rows and sum
   into the target edges. They differ in three places. The reference applies the two bias-free basis maps one after
   the other where the kernel multiplies the two maps first: equal by associativity of the matrix product, which on
   the extended reals needs the entries to be real numbers — this is where finiteness of the inputs is used. The
   kernel's gather fills the rows whose index is out of range with a fill value where the reference's reads a clamped
   row: equal on indices in range — this is where the index range is used. And the kernel's basis array passes
   through a change of float format, the identity on extended reals.

   The three frames are the generated ones (the reference's: its generated run with the result dropped); the
   idealization ledger is empty, so `preserves` is trivial. The kernel program's value: the launch theorem called once
   more with the result array kept (Proof/KernelRun.lean), each region's array as one function of what the region
   finds (Proof/Region0–2.lean over the bodies' stored values read at an element, Proof/Pay*.lean), the host stretches
   read back (Proof/KernelHost.lean), composed in Proof/KernelValue.lean. The reference's value: its generated run and
   read-at-an-index lemmas, assembled stage by stage (Proof/RefA.lean, RefB1.lean, RefB2.lean). The two meet in
   Proof/Bridge.lean under the precondition's facts (Proof/PreFacts.lean). -/
import proofs.«431230_j19146964206349_3_alg».proof.Defs
import proofs.«431230_j19146964206349_3_alg».proof.Proof.Gen.Kernel
import proofs.«431230_j19146964206349_3_alg».proof.Proof.Gen.Kernel.Skeleton
import proofs.«431230_j19146964206349_3_alg».proof.Proof.Gen.Kernel.Launch
import proofs.«431230_j19146964206349_3_alg».proof.Proof.Gen.Kernel.Points
import proofs.«431230_j19146964206349_3_alg».proof.Proof.Gen.Kernel.Frame
import proofs.«431230_j19146964206349_3_alg».proof.Proof.Gen.KernelIdeal
import proofs.«431230_j19146964206349_3_alg».proof.Proof.Gen.KernelIdeal.Skeleton
import proofs.«431230_j19146964206349_3_alg».proof.Proof.Gen.KernelIdeal.Launch
import proofs.«431230_j19146964206349_3_alg».proof.Proof.Gen.KernelIdeal.Points
import proofs.«431230_j19146964206349_3_alg».proof.Proof.Gen.KernelIdeal.Frame
import proofs.«431230_j19146964206349_3_alg».proof.Proof.Gen.ReferenceIdeal
import proofs.«431230_j19146964206349_3_alg».proof.Proof.Gen.Pre_finite_inputs
import proofs.«431230_j19146964206349_3_alg».proof.Proof.Gen.ReferenceIdeal.Run
import proofs.«431230_j19146964206349_3_alg».proof.Proof.Gen.ReferenceIdeal.Read
import proofs.«431230_j19146964206349_3_alg».proof.Proof.KernelRun
import proofs.«431230_j19146964206349_3_alg».proof.Proof.KernelValue
import proofs.«431230_j19146964206349_3_alg».proof.Proof.Bridge
import Idealize.ShloMosaic.Adequacy
import Idealize.ShloMosaic.Init

set_option maxRecDepth 16384

noncomputable section

namespace Cert.Proof

open Idealize.ShloMosaic Idealize.SL.Sem Cert.Spec

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the same result array: the kernel program's at `Spec.hArr` of the triplet
    stage over its first two kernels' arrays (its value, Proof/KernelValue.lean), the reference's at the same function
    of arguments that agree (Proof/Bridge.lean, under the precondition). -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => hArr (Cert.KernelIdeal.Hand.midK (xkdArr (m ((c.tc : Thread Cert.KernelIdeal.nD Cert.KernelIdeal.τ).loc Cert.KernelIdeal.main_arg0)) (mmArr (m ((c.tc : Thread Cert.KernelIdeal.nD Cert.KernelIdeal.τ).loc Cert.KernelIdeal.main_arg1)) (mmArr (m ((c.tc : Thread Cert.KernelIdeal.nD Cert.KernelIdeal.τ).loc Cert.KernelIdeal.main_arg5)) (m ((c.tc : Thread Cert.KernelIdeal.nD Cert.KernelIdeal.τ).loc Cert.KernelIdeal.main_arg6)))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)))
      (mmArr (m ((c.tc : Thread Cert.KernelIdeal.nD Cert.KernelIdeal.τ).loc Cert.KernelIdeal.main_arg2)) (mmArr (m ((c.tc : Thread Cert.KernelIdeal.nD Cert.KernelIdeal.τ).loc Cert.KernelIdeal.main_arg7)) (m ((c.tc : Thread Cert.KernelIdeal.nD Cert.KernelIdeal.τ).loc Cert.KernelIdeal.main_arg8)))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Hand.result_eq m ρ c), (h c).2⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v103_eq]
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]
    exact Cert.Bridge.ref_eq _ _ _ _ _ _ _ _ _ _ _ _ _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
